-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x100x100 : Shape := ⟨4, ![2, 256, 100, 100]⟩
abbrev S10000x3 : Shape := ⟨2, ![10000, 3]⟩
abbrev S2x10000x9x2 : Shape := ⟨4, ![2, 10000, 9, 2]⟩
abbrev S2x10000x18 : Shape := ⟨3, ![2, 10000, 18]⟩
abbrev S_ : Shape := ⟨0, ![]⟩

class Facts : Prop where
  bcast_S_S2x256x100x100 : S_.BroadcastsInDim S2x256x100x100 (![] : Fin 0 → Fin S2x256x100x100.rank)
  reducesTo_S2x256x100x100_S_d0_1_2_3 : S2x256x100x100.ReducesTo [0, 1, 2, 3] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S2x10000x9x2 : S_.BroadcastsInDim S2x10000x9x2 (![] : Fin 0 → Fin S2x10000x9x2.rank)
  reducesTo_S2x10000x9x2_S_d0_1_2_3 : S2x10000x9x2.ReducesTo [0, 1, 2, 3] S_
  bcast_S_S2x10000x18 : S_.BroadcastsInDim S2x10000x18 (![] : Fin 0 → Fin S2x10000x18.rank)
  reducesTo_S2x10000x18_S_d0_1_2 : S2x10000x18.ReducesTo [0, 1, 2] S_

variable [Facts]

def fn_part1 {F : FTy → Type} [FloatOps F] (main_v13 : IVec S_ 1) (main_v16 : IVec S2x10000x18 1) : IVec S_ 1 :=
  let main_c_5 : IVec S_ 1 := constantI S_ 1 1#1
  let main_v17 : IVec S_ 1 := (fun x v => Host.reduce IntOp.andi x v reducesTo_S2x10000x18_S_d0_1_2 h_S_) main_v16 main_c_5
  let main_v18 : IVec S_ 1 := andi main_v13 main_v17
  main_v18

def fn {F : FTy → Type} [FloatOps F] (main_arg0 : FVec F S2x256x100x100 .f32) (main_arg1 : FVec F S10000x3 .f32) (main_arg2 : FVec F S2x10000x9x2 .f32) (main_arg3 : FVec F S2x10000x18 .f32) : IVec S_ 1 :=
  let main_v0 : FVec F S2x256x100x100 .f32 := Host.absf main_arg0
  let main_cst : FVec F S_ .f32 := constant S_ .f32 0x7F800000#32
  let main_v1 : FVec F S2x256x100x100 .f32 := broadcastInDim S2x256x100x100 ![] bcast_S_S2x256x100x100 main_cst
  let main_v2 : IVec S2x256x100x100 1 := cmpf .olt main_v0 main_v1
  let main_c : IVec S_ 1 := constantI S_ 1 1#1
  let main_v3 : IVec S_ 1 := (fun x v => Host.reduce IntOp.andi x v reducesTo_S2x256x100x100_S_d0_1_2_3 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S2x10000x9x2 .f32 := Host.absf main_arg2
  let main_cst_2 : FVec F S_ .f32 := constant S_ .f32 0x7F800000#32
  let main_v10 : FVec F S2x10000x9x2 .f32 := broadcastInDim S2x10000x9x2 ![] bcast_S_S2x10000x9x2 main_cst_2
  let main_v11 : IVec S2x10000x9x2 1 := cmpf .olt main_v9 main_v10
  let main_c_3 : IVec S_ 1 := constantI S_ 1 1#1
  let main_v12 : IVec S_ 1 := (fun x v => Host.reduce IntOp.andi x v reducesTo_S2x10000x9x2_S_d0_1_2_3 h_S_) main_v11 main_c_3
  let main_v13 : IVec S_ 1 := andi main_v8 main_v12
  let main_v14 : FVec F S2x10000x18 .f32 := Host.absf main_arg3
  let main_cst_4 : FVec F S_ .f32 := constant S_ .f32 0x7F800000#32
  let main_v15 : FVec F S2x10000x18 .f32 := broadcastInDim S2x10000x18 ![] bcast_S_S2x10000x18 main_cst_4
  let main_v16 : IVec S2x10000x18 1 := cmpf .olt main_v14 main_v15
  fn_part1 (F := F) main_v13 main_v16
-- ==== Kernel.lean ====
abbrev S2x256x100x100 : Shape := ⟨4, ![2, 256, 100, 100]⟩
abbrev S10000x3 : Shape := ⟨2, ![10000, 3]⟩
abbrev S2x10000x9x2 : Shape := ⟨4, ![2, 10000, 9, 2]⟩
abbrev S2x10000x18 : Shape := ⟨3, ![2, 10000, 18]⟩
abbrev S10000x2 : Shape := ⟨2, ![10000, 2]⟩
abbrev S1x10000x1x2 : Shape := ⟨4, ![1, 10000, 1, 2]⟩
abbrev S_ : Shape := ⟨0, ![]⟩
abbrev S2x90000x2 : Shape := ⟨3, ![2, 90000, 2]⟩
abbrev S2x90000x1 : Shape := ⟨3, ![2, 90000, 1]⟩
abbrev S2x90000 : Shape := ⟨2, ![2, 90000]⟩
abbrev S2x90112 : Shape := ⟨2, ![2, 90112]⟩
abbrev S2x1x90112 : Shape := ⟨3, ![2, 1, 90112]⟩
abbrev S2x2x90112 : Shape := ⟨3, ![2, 2, 90112]⟩
abbrev S2x100x100x256 : Shape := ⟨4, ![2, 100, 100, 256]⟩
abbrev S2x10000x256 : Shape := ⟨3, ![2, 10000, 256]⟩
abbrev S2x90112x256 : Shape := ⟨3, ![2, 90112, 256]⟩
abbrev S1x10000x256 : Shape := ⟨3, ![1, 10000, 256]⟩
abbrev S1x2x128 : Shape := ⟨3, ![1, 2, 128]⟩
abbrev S1x128x256 : Shape := ⟨3, ![1, 128, 256]⟩
abbrev S2x128 : Shape := ⟨2, ![2, 128]⟩
abbrev S128x2 : Shape := ⟨2, ![128, 2]⟩
abbrev S128x1 : Shape := ⟨2, ![128, 1]⟩
abbrev S128 : Shape := ⟨1, ![128]⟩
abbrev S128x10000 : Shape := ⟨2, ![128, 10000]⟩
abbrev S10000x256 : Shape := ⟨2, ![10000, 256]⟩
abbrev S128x256 : Shape := ⟨2, ![128, 256]⟩
abbrev S2x90000x256 : Shape := ⟨3, ![2, 90000, 256]⟩
abbrev S2x10000x9x256 : Shape := ⟨4, ![2, 10000, 9, 256]⟩
abbrev S10000x1x2 : Shape := ⟨3, ![10000, 1, 2]⟩
abbrev S10000x1 : Shape := ⟨2, ![10000, 1]⟩
abbrev S10000 : Shape := ⟨1, ![10000]⟩
abbrev S10000x1x1 : Shape := ⟨3, ![10000, 1, 1]⟩
abbrev S1x10000x1x1 : Shape := ⟨4, ![1, 10000, 1, 1]⟩
abbrev S2x10000x9x1 : Shape := ⟨4, ![2, 10000, 9, 1]⟩
abbrev S2x10000x9 : Shape := ⟨3, ![2, 10000, 9]⟩
abbrev S2x10000 : Shape := ⟨2, ![2, 10000]⟩
abbrev S2x10000x1 : Shape := ⟨3, ![2, 10000, 1]⟩
abbrev S2x10000x4 : Shape := ⟨3, ![2, 10000, 4]⟩

abbrev nBuf : Space → Nat
  | .hbm => 86
  | .vmem => 5
  | .smem => 0
  | _ => 0

abbrev bufTy : (tb : Table) → Fin (tcTables nBuf tb) → BufTy
  | .hbm, ⟨0, _⟩ => ⟨S2x256x100x100, .f32⟩
  | .hbm, ⟨1, _⟩ => ⟨S10000x3, .f32⟩
  | .hbm, ⟨2, _⟩ => ⟨S2x10000x9x2, .f32⟩
  | .hbm, ⟨3, _⟩ => ⟨S2x10000x18, .f32⟩
  | .hbm, ⟨4, _⟩ => ⟨S10000x2, .f32⟩
  | .hbm, ⟨5, _⟩ => ⟨S1x10000x1x2, .f32⟩
  | .hbm, ⟨6, _⟩ => ⟨S_, .f32⟩
  | .hbm, ⟨7, _⟩ => ⟨S2x10000x9x2, .f32⟩
  | .hbm, ⟨8, _⟩ => ⟨S2x10000x9x2, .f32⟩
  | .hbm, ⟨9, _⟩ => ⟨S_, .f32⟩
  | .hbm, ⟨10, _⟩ => ⟨S2x10000x9x2, .f32⟩
  | .hbm, ⟨11, _⟩ => ⟨S2x10000x9x2, .f32⟩
  | .hbm, ⟨12, _⟩ => ⟨S2x10000x9x2, .f32⟩
  | .hbm, ⟨13, _⟩ => ⟨S2x10000x9x2, .f32⟩
  | .hbm, ⟨14, _⟩ => ⟨S_, .f32⟩
  | .hbm, ⟨15, _⟩ => ⟨S2x10000x9x2, .f32⟩
  | .hbm, ⟨16, _⟩ => ⟨S2x10000x9x2, .f32⟩
  | .hbm, ⟨17, _⟩ => ⟨S2x90000x2, .f32⟩
  | .hbm, ⟨18, _⟩ => ⟨S2x90000x1, .f32⟩
  | .hbm, ⟨19, _⟩ => ⟨S2x90000, .f32⟩
  | .hbm, ⟨20, _⟩ => ⟨S2x90000x1, .f32⟩
  | .hbm, ⟨21, _⟩ => ⟨S2x90000, .f32⟩
  | .hbm, ⟨22, _⟩ => ⟨S_, .i32⟩
  | .hbm, ⟨23, _⟩ => ⟨S_, .f32⟩
  | .hbm, ⟨24, _⟩ => ⟨S2x90112, .f32⟩
  | .hbm, ⟨25, _⟩ => ⟨S_, .i32⟩
  | .hbm, ⟨26, _⟩ => ⟨S_, .f32⟩
  | .hbm, ⟨27, _⟩ => ⟨S2x90112, .f32⟩
  | .hbm, ⟨28, _⟩ => ⟨S2x1x90112, .f32⟩
  | .hbm, ⟨29, _⟩ => ⟨S2x1x90112, .f32⟩
  | .hbm, ⟨30, _⟩ => ⟨S2x2x90112, .f32⟩
  | .hbm, ⟨31, _⟩ => ⟨S2x100x100x256, .f32⟩
  | .hbm, ⟨32, _⟩ => ⟨S2x10000x256, .f32⟩
  | .hbm, ⟨33, _⟩ => ⟨S2x10000x256, .bf16⟩
  | .hbm, ⟨34, _⟩ => ⟨S2x90112x256, .f32⟩
  | .hbm, ⟨35, _⟩ => ⟨S2x90000x256, .f32⟩
  | .hbm, ⟨36, _⟩ => ⟨S2x10000x9x256, .f32⟩
  | .hbm, ⟨37, _⟩ => ⟨S2x10000x18, .f32⟩
  | .hbm, ⟨38, _⟩ => ⟨S2x10000x9x2, .f32⟩
  | .hbm, ⟨39, _⟩ => ⟨S10000x2, .f32⟩
  | .hbm, ⟨40, _⟩ => ⟨S10000x1x2, .f32⟩
  | .hbm, ⟨41, _⟩ => ⟨S10000x1, .f32⟩
  | .hbm, ⟨42, _⟩ => ⟨S10000, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000x1x1, .f32⟩
  | .hbm, ⟨47, _⟩ => ⟨S1x10000x1x1, .f32⟩
  | .hbm, ⟨48, _⟩ => ⟨S2x10000x9x2, .f32⟩
  | .hbm, ⟨49, _⟩ => ⟨S2x10000x9x2, .f32⟩
  | .hbm, ⟨50, _⟩ => ⟨S_, .f32⟩
  | .hbm, ⟨51, _⟩ => ⟨S2x10000x9x2, .f32⟩
  | .hbm, ⟨52, _⟩ => ⟨S2x10000x9x2, .f32⟩
  | .hbm, ⟨53, _⟩ => ⟨S1x10000x1x2, .f32⟩
  | .hbm, ⟨54, _⟩ => ⟨S2x10000x9x2, .f32⟩
  | .hbm, ⟨55, _⟩ => ⟨S2x10000x9x2, .f32⟩
  | .hbm, ⟨56, _⟩ => ⟨S2x10000x9x2, .f32⟩
  | .hbm, ⟨57, _⟩ => ⟨S10000x1x1, .f32⟩
  | .hbm, ⟨58, _⟩ => ⟨S1x10000x1x1, .f32⟩
  | .hbm, ⟨59, _⟩ => ⟨S2x10000x9x2, .f32⟩
  | .hbm, ⟨60, _⟩ => ⟨S2x10000x9x2, .f32⟩
  | .hbm, ⟨61, _⟩ => ⟨S_, .f32⟩
  | .hbm, ⟨62, _⟩ => ⟨S2x10000x9x2, .f32⟩
  | .hbm, ⟨63, _⟩ => ⟨S2x10000x9x2, .f32⟩
  | .hbm, ⟨64, _⟩ => ⟨S2x10000x9x2, .f32⟩
  | .hbm, ⟨65, _⟩ => ⟨S2x10000x9x1, .f32⟩
  | .hbm, ⟨66, _⟩ => ⟨S2x10000x9, .f32⟩
  | .hbm, ⟨67, _⟩ => ⟨S_, .f32⟩
  | .hbm, ⟨68, _⟩ => ⟨S2x10000, .f32⟩
  | .hbm, ⟨69, _⟩ => ⟨S2x10000x9x1, .f32⟩
  | .hbm, ⟨70, _⟩ => ⟨S2x10000x9, .f32⟩
  | .hbm, ⟨71, _⟩ => ⟨S_, .f32⟩
  | .hbm, ⟨72, _⟩ => ⟨S2x10000, .f32⟩
  | .hbm, ⟨73, _⟩ => ⟨S2x10000x9x1, .f32⟩
  | .hbm, ⟨74, _⟩ => ⟨S2x10000x9, .f32⟩
  | .hbm, ⟨75, _⟩ => ⟨S_, .f32⟩
  | .hbm, ⟨76, _⟩ => ⟨S2x10000, .f32⟩
  | .hbm, ⟨77, _⟩ => ⟨S2x10000x9x1, .f32⟩
  | .hbm, ⟨78, _⟩ => ⟨S2x10000x9, .f32⟩
  | .hbm, ⟨79, _⟩ => ⟨S_, .f32⟩
  | .hbm, ⟨80, _⟩ => ⟨S2x10000, .f32⟩
  | .hbm, ⟨81, _⟩ => ⟨S2x10000x1, .f32⟩
  | .hbm, ⟨82, _⟩ => ⟨S2x10000x1, .f32⟩
  | .hbm, ⟨83, _⟩ => ⟨S2x10000x1, .f32⟩
  | .hbm, ⟨84, _⟩ => ⟨S2x10000x1, .f32⟩
  | .hbm, ⟨85, _⟩ => ⟨S2x10000x4, .f32⟩
  | .local _ .vmem, ⟨0, _⟩ => ⟨S1x10000x256, .bf16⟩
  | .local _ .vmem, ⟨1, _⟩ => ⟨S1x2x128, .f32⟩
  | .local _ .vmem, ⟨2, _⟩ => ⟨S1x2x128, .f32⟩
  | .local _ .vmem, ⟨3, _⟩ => ⟨S1x128x256, .f32⟩
  | .local _ .vmem, ⟨4, _⟩ => ⟨S1x128x256, .f32⟩
  | _, _ => ⟨S2x256x100x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 704], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x10000x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S10000x3_S10000x2_0_0 : S10000x3.Slices ![0, 0] S10000x2
  bcast_S10000x2_S1x10000x1x2_1_3 : S10000x2.BroadcastsInDim S1x10000x1x2 (![1, 3] : Fin 2 → Fin S1x10000x1x2.rank)
  bcast_S_S2x10000x9x2 : S_.BroadcastsInDim S2x10000x9x2 (![] : Fin 0 → Fin S2x10000x9x2.rank)
  bcast_S1x10000x1x2_S2x10000x9x2_0_1_2_3 : S1x10000x1x2.BroadcastsInDim S2x10000x9x2 (![0, 1, 2, 3] : Fin 4 → Fin S2x10000x9x2.rank)
  shapeCasts_S2x10000x9x2_S2x90000x2 : S2x10000x9x2.ShapeCasts S2x90000x2
  slices_S2x90000x2_S2x90000x1_0_0_0 : S2x90000x2.Slices ![0, 0, 0] S2x90000x1
  shapeCasts_S2x90000x1_S2x90000 : S2x90000x1.ShapeCasts S2x90000
  slices_S2x90000x2_S2x90000x1_0_0_1 : S2x90000x2.Slices ![0, 0, 1] S2x90000x1
  pads_S2x90000_S2x90112_000_01120 : S2x90000.Pads (![0, 0] : Fin 2 → Nat) ![0, 112] ![0, 0] S2x90112
  h_S_ : 0 < S_.numel
  bcast_S2x90112_S2x1x90112_0_2 : S2x90112.BroadcastsInDim S2x1x90112 (![0, 2] : Fin 2 → Fin S2x1x90112.rank)
  concatenates_S2x1x90112_S2x1x90112_S2x2x90112_d1 : Shape.Concatenates [S2x1x90112, S2x1x90112] S2x2x90112 1
  transposes_S2x256x100x100_S2x100x100x256_0_2_3_1 : S2x256x100x100.Transposes [0, 2, 3, 1] S2x100x100x256
  shapeCasts_S2x100x100x256_S2x10000x256 : S2x100x100x256.ShapeCasts S2x10000x256
  bitsLt_bf16_f32 : FTy.bits .bf16 < FTy.bits .f32
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  transposes_S2x128_p1_0_S128x2 : S2x128.Transposes [1, 0] S128x2
  slices_S128x2_o0_0_S128x1 : S128x2.Slices ![0, 0] S128x1
  shapeCasts_S128x1_S128 : S128x1.ShapeCasts S128
  slices_S128x2_o0_1_S128x1 : S128x2.Slices ![0, 1] S128x1
  iota_S128x10000_d1_w32 : S128x10000.Iotas .tc 32 [1]
  shapeCasts_S128_S128x1 : S128.ShapeCasts S128x1
  broadcasts_S128x1_S128x10000 : S128x1.Broadcasts S128x10000
  shapeCasts_S128x1_S128x1 : S128x1.ShapeCasts S128x1
  inb_S1x10000x256_S1x10000x256_0_0_0 : ∀ a, (![0, 0, 0] : Fin 3 → Nat) a + S1x10000x256.size a ≤ S1x10000x256.size a
  h_S1x10000x256 : 0 < S1x10000x256.numel
  shapeCasts_S1x10000x256_S10000x256 : S1x10000x256.ShapeCasts S10000x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  slices_S2x90112x256_S2x90000x256_0_0_0 : S2x90112x256.Slices ![0, 0, 0] S2x90000x256
  shapeCasts_S2x90000x256_S2x10000x9x256 : S2x90000x256.ShapeCasts S2x10000x9x256
  shapeCasts_S2x10000x9x2_S2x10000x18 : S2x10000x9x2.ShapeCasts S2x10000x18
  shapeCasts_S2x10000x18_S2x10000x9x2 : S2x10000x18.ShapeCasts S2x10000x9x2
  bcast_S10000x2_S10000x1x2_0_2 : S10000x2.BroadcastsInDim S10000x1x2 (![0, 2] : Fin 2 → Fin S10000x1x2.rank)
  slices_S10000x3_S10000x1_0_2 : S10000x3.Slices ![0, 2] S10000x1
  shapeCasts_S10000x1_S10000 : S10000x1.ShapeCasts S10000
  bcast_S_S10000 : S_.BroadcastsInDim S10000 (![] : Fin 0 → Fin S10000.rank)
  bcast_S10000_S10000x1x1_0 : S10000.BroadcastsInDim S10000x1x1 (![0] : Fin 1 → Fin S10000x1x1.rank)
  bcast_S10000x1x1_S1x10000x1x1_1_2_3 : S10000x1x1.BroadcastsInDim S1x10000x1x1 (![1, 2, 3] : Fin 3 → Fin S1x10000x1x1.rank)
  bcast_S1x10000x1x1_S2x10000x9x2_0_1_2_3 : S1x10000x1x1.BroadcastsInDim S2x10000x9x2 (![0, 1, 2, 3] : Fin 4 → Fin S2x10000x9x2.rank)
  bcast_S10000x1x2_S1x10000x1x2_1_2_3 : S10000x1x2.BroadcastsInDim S1x10000x1x2 (![1, 2, 3] : Fin 3 → Fin S1x10000x1x2.rank)
  slices_S2x10000x9x2_S2x10000x9x1_0_0_0_0 : S2x10000x9x2.Slices ![0, 0, 0, 0] S2x10000x9x1
  shapeCasts_S2x10000x9x1_S2x10000x9 : S2x10000x9x1.ShapeCasts S2x10000x9
  reducesTo_S2x10000x9_S2x10000_d2 : S2x10000x9.ReducesTo [2] S2x10000
  slices_S2x10000x9x2_S2x10000x9x1_0_0_0_1 : S2x10000x9x2.Slices ![0, 0, 0, 1] S2x10000x9x1
  bcast_S2x10000_S2x10000x1_0_1 : S2x10000.BroadcastsInDim S2x10000x1 (![0, 1] : Fin 2 → Fin S2x10000x1.rank)
  concatenates_S2x10000x1_S2x10000x1_S2x10000x1_S2x10000x1_S2x10000x4_d2 : Shape.Concatenates [S2x10000x1, S2x10000x1, S2x10000x1, S2x10000x1] S2x10000x4 2
  dot_S128x10000_S10000x256_S128x256_1_0_0_1_n_n_wf : DotDims.WF S128x10000 S10000x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x10000x256.size a ≤ S2x10000x256.size a
  hwx0_0 : ∀ i : grid0.Coords, EltTy.bits .bf16 = 32 ∨ (Rect.block (s := S2x10000x256) S1x10000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128.size a ≤ S2x2x90112.size a
  hwx0_1 : ∀ i : grid0.Coords, EltTy.bits .f32 = 32 ∨ (Rect.block (s := S2x2x90112) S1x2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x90112x256.size a
  hwx0_2 : ∀ i : grid0.Coords, EltTy.bits .f32 = 32 ∨ (Rect.block (s := S2x90112x256) S1x128x256.size (cc0_transform_2 i) (hinb0_2 i)).WholeWords (EltTy.packing .f32)

variable [Facts₀]

def dot_S128x10000_S10000x256_S128x256_1_0_0_1_n_n : DotDims S128x10000 S10000x256 S128x256 where
  lhsContracting := [1]
  rhsContracting := [0]
  lhsNonContracting := [0]
  rhsNonContracting := [1]
  lhsBatch := []
  rhsBatch := []
  wf := dot_S128x10000_S10000x256_S128x256_1_0_0_1_n_n_wf

abbrev win0_0 : Pipeline.Window sig grid0 :=
  Pipeline.Window.ofSpec (Memref.whole main_v22) S1x10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x256x100x100 : Shape := ⟨4, ![2, 256, 100, 100]⟩
abbrev S10000x3 : Shape := ⟨2, ![10000, 3]⟩
abbrev S2x10000x9x2 : Shape := ⟨4, ![2, 10000, 9, 2]⟩
abbrev S2x10000x18 : Shape := ⟨3, ![2, 10000, 18]⟩
abbrev S10000x2 : Shape := ⟨2, ![10000, 2]⟩
abbrev S1x10000x1x2 : Shape := ⟨4, ![1, 10000, 1, 2]⟩
abbrev S_ : Shape := ⟨0, ![]⟩
abbrev S2x90000x2 : Shape := ⟨3, ![2, 90000, 2]⟩
abbrev S2x90000x1 : Shape := ⟨3, ![2, 90000, 1]⟩
abbrev S2x90000 : Shape := ⟨2, ![2, 90000]⟩
abbrev S2x256x90000 : Shape := ⟨3, ![2, 256, 90000]⟩
abbrev S2x1x90000 : Shape := ⟨3, ![2, 1, 90000]⟩
abbrev S2x256x10000x9 : Shape := ⟨4, ![2, 256, 10000, 9]⟩
abbrev S2x10000x9x256 : Shape := ⟨4, ![2, 10000, 9, 256]⟩
abbrev S10000x1x2 : Shape := ⟨3, ![10000, 1, 2]⟩
abbrev S10000x1 : Shape := ⟨2, ![10000, 1]⟩
abbrev S10000 : Shape := ⟨1, ![10000]⟩
abbrev S10000x1x1 : Shape := ⟨3, ![10000, 1, 1]⟩
abbrev S1x10000x1x1 : Shape := ⟨4, ![1, 10000, 1, 1]⟩
abbrev S2x10000x9x1 : Shape := ⟨4, ![2, 10000, 9, 1]⟩
abbrev S2x10000x9 : Shape := ⟨3, ![2, 10000, 9]⟩
abbrev S2x10000 : Shape := ⟨2, ![2, 10000]⟩
abbrev S2x10000x1 : Shape := ⟨3, ![2, 10000, 1]⟩
abbrev S2x10000x4 : Shape := ⟨3, ![2, 10000, 4]⟩

abbrev nBuf : Space → Nat
  | .hbm => 216
  | .vmem => 0
  | .smem => 0
  | _ => 0

abbrev hbmTy0_0 (i : Nat) : BufTy := match i % 128 with
  | 0 => ⟨S2x256x100x100, .f32⟩
  | 1 => ⟨S10000x3, .f32⟩
  | 2 => ⟨S2x10000x9x2, .f32⟩
  | 3 => ⟨S2x10000x18, .f32⟩
  | 4 => ⟨S10000x2, .f32⟩
  | 5 => ⟨S1x10000x1x2, .f32⟩
  | 6 => ⟨S_, .f32⟩
  | 7 => ⟨S2x10000x9x2, .f32⟩
  | 8 => ⟨S2x10000x9x2, .f32⟩
  | 9 => ⟨S_, .f32⟩
  | 10 => ⟨S2x10000x9x2, .f32⟩
  | 11 => ⟨S2x10000x9x2, .f32⟩
  | 12 => ⟨S2x10000x9x2, .f32⟩
  | 13 => ⟨S2x10000x9x2, .f32⟩
  | 14 => ⟨S_, .f32⟩
  | 15 => ⟨S2x10000x9x2, .f32⟩
  | 16 => ⟨S2x10000x9x2, .f32⟩
  | 17 => ⟨S2x90000x2, .f32⟩
  | 18 => ⟨S2x90000x1, .f32⟩
  | 19 => ⟨S2x90000, .f32⟩
  | 20 => ⟨S2x90000x1, .f32⟩
  | 21 => ⟨S2x90000, .f32⟩
  | 22 => ⟨S2x90000, .f32⟩
  | 23 => ⟨S_, .f32⟩
  | 24 => ⟨S_, .i32⟩
  | 25 => ⟨S_, .f32⟩
  | 26 => ⟨S2x90000, .f32⟩
  | 27 => ⟨S2x90000, .f32⟩
  | 28 => ⟨S_, .f32⟩
  | 29 => ⟨S2x90000, .f32⟩
  | 30 => ⟨S2x90000, .f32⟩
  | 31 => ⟨S_, .f32⟩
  | 32 => ⟨S2x90000, .f32⟩
  | 33 => ⟨S2x90000, .i1⟩
  | 34 => ⟨S_, .f32⟩
  | 35 => ⟨S2x90000, .f32⟩
  | 36 => ⟨S2x90000, .f32⟩
  | 37 => ⟨S2x90000, .f32⟩
  | 38 => ⟨S_, .f32⟩
  | 39 => ⟨S2x90000, .f32⟩
  | 40 => ⟨S2x90000, .i1⟩
  | 41 => ⟨S2x90000, .f32⟩
  | 42 => ⟨S2x90000, .f32⟩
  | 43 => ⟨S_, .f32⟩
  | 44 => ⟨S_, .i32⟩
  | 45 => ⟨S_, .f32⟩
  | 46 => ⟨S2x90000, .f32⟩
  | 47 => ⟨S2x90000, .f32⟩
  | 48 => ⟨S_, .f32⟩
  | 49 => ⟨S2x90000, .f32⟩
  | 50 => ⟨S2x90000, .f32⟩
  | 51 => ⟨S_, .f32⟩
  | 52 => ⟨S2x90000, .f32⟩
  | 53 => ⟨S2x90000, .i1⟩
  | 54 => ⟨S_, .f32⟩
  | 55 => ⟨S2x90000, .f32⟩
  | 56 => ⟨S2x90000, .f32⟩
  | 57 => ⟨S2x90000, .f32⟩
  | 58 => ⟨S_, .f32⟩
  | 59 => ⟨S2x90000, .f32⟩
  | 60 => ⟨S2x90000, .i1⟩
  | 61 => ⟨S2x90000, .f32⟩
  | 62 => ⟨S2x90000, .i32⟩
  | 63 => ⟨S2x90000, .i32⟩
  | 64 => ⟨S2x90000, .i32⟩
  | 65 => ⟨S2x90000, .i32⟩
  | 66 => ⟨S2x90000, .f32⟩
  | 67 => ⟨S2x90000, .f32⟩
  | 68 => ⟨S_, .f32⟩
  | 69 => ⟨S2x90000, .f32⟩
  | 70 => ⟨S2x90000, .f32⟩
  | 71 => ⟨S_, .f32⟩
  | 72 => ⟨S2x90000, .f32⟩
  | 73 => ⟨S2x90000, .f32⟩
  | 74 => ⟨S_, .i32⟩
  | 75 => ⟨S2x90000, .i32⟩
  | 76 => ⟨S2x90000, .i1⟩
  | 77 => ⟨S_, .i32⟩
  | 78 => ⟨S2x90000, .i32⟩
  | 79 => ⟨S2x90000, .i32⟩
  | 80 => ⟨S2x90000, .i32⟩
  | 81 => ⟨S_, .i32⟩
  | 82 => ⟨S2x90000, .i32⟩
  | 83 => ⟨S2x90000, .i1⟩
  | 84 => ⟨S_, .i32⟩
  | 85 => ⟨S2x90000, .i32⟩
  | 86 => ⟨S2x90000, .i32⟩
  | 87 => ⟨S2x90000, .i32⟩
  | 88 => ⟨S2x90000x1, .i32⟩
  | 89 => ⟨S2x90000x1, .i32⟩
  | 90 => ⟨S2x90000x2, .i32⟩
  | 91 => ⟨S2x256x90000, .f32⟩
  | 92 => ⟨S_, .i32⟩
  | 93 => ⟨S2x90000, .i32⟩
  | 94 => ⟨S2x90000, .i1⟩
  | 95 => ⟨S_, .i32⟩
  | 96 => ⟨S2x90000, .i32⟩
  | 97 => ⟨S2x90000, .i32⟩
  | 98 => ⟨S2x90000, .i32⟩
  | 99 => ⟨S_, .i32⟩
  | 100 => ⟨S2x90000, .i32⟩
  | 101 => ⟨S2x90000, .i1⟩
  | 102 => ⟨S_, .i32⟩
  | 103 => ⟨S2x90000, .i32⟩
  | 104 => ⟨S2x90000, .i32⟩
  | 105 => ⟨S2x90000, .i32⟩
  | 106 => ⟨S2x90000x1, .i32⟩
  | 107 => ⟨S2x90000x1, .i32⟩
  | 108 => ⟨S2x90000x2, .i32⟩
  | 109 => ⟨S2x256x90000, .f32⟩
  | 110 => ⟨S_, .i32⟩
  | 111 => ⟨S2x90000, .i32⟩
  | 112 => ⟨S2x90000, .i1⟩
  | 113 => ⟨S_, .i32⟩
  | 114 => ⟨S2x90000, .i32⟩
  | 115 => ⟨S2x90000, .i32⟩
  | 116 => ⟨S2x90000, .i32⟩
  | 117 => ⟨S_, .i32⟩
  | 118 => ⟨S2x90000, .i32⟩
  | 119 => ⟨S2x90000, .i1⟩
  | 120 => ⟨S_, .i32⟩
  | 121 => ⟨S2x90000, .i32⟩
  | 122 => ⟨S2x90000, .i32⟩
  | 123 => ⟨S2x90000, .i32⟩
  | 124 => ⟨S2x90000x1, .i32⟩
  | 125 => ⟨S2x90000x1, .i32⟩
  | 126 => ⟨S2x90000x2, .i32⟩
  | 127 => ⟨S2x256x90000, .f32⟩
  | _ => ⟨S2x256x100x100, .f32⟩

abbrev hbmTy0_1 (i : Nat) : BufTy := match i % 128 with
  | 0 => ⟨S_, .i32⟩
  | 1 => ⟨S2x90000, .i32⟩
  | 2 => ⟨S2x90000, .i1⟩
  | 3 => ⟨S_, .i32⟩
  | 4 => ⟨S2x90000, .i32⟩
  | 5 => ⟨S2x90000, .i32⟩
  | 6 => ⟨S2x90000, .i32⟩
  | 7 => ⟨S_, .i32⟩
  | 8 => ⟨S2x90000, .i32⟩
  | 9 => ⟨S2x90000, .i1⟩
  | 10 => ⟨S_, .i32⟩
  | 11 => ⟨S2x90000, .i32⟩
  | 12 => ⟨S2x90000, .i32⟩
  | 13 => ⟨S2x90000, .i32⟩
  | 14 => ⟨S2x90000x1, .i32⟩
  | 15 => ⟨S2x90000x1, .i32⟩
  | 16 => ⟨S2x90000x2, .i32⟩
  | 17 => ⟨S2x256x90000, .f32⟩
  | 18 => ⟨S2x90000, .f32⟩
  | 19 => ⟨S2x1x90000, .f32⟩
  | 20 => ⟨S2x256x90000, .f32⟩
  | 21 => ⟨S2x256x90000, .f32⟩
  | 22 => ⟨S2x90000, .f32⟩
  | 23 => ⟨S2x1x90000, .f32⟩
  | 24 => ⟨S2x256x90000, .f32⟩
  | 25 => ⟨S2x256x90000, .f32⟩
  | 26 => ⟨S2x256x90000, .f32⟩
  | 27 => ⟨S2x90000, .f32⟩
  | 28 => ⟨S2x1x90000, .f32⟩
  | 29 => ⟨S2x256x90000, .f32⟩
  | 30 => ⟨S2x256x90000, .f32⟩
  | 31 => ⟨S2x256x90000, .f32⟩
  | 32 => ⟨S2x90000, .f32⟩
  | 33 => ⟨S2x1x90000, .f32⟩
  | 34 => ⟨S2x256x90000, .f32⟩
  | 35 => ⟨S2x256x90000, .f32⟩
  | 36 => ⟨S2x256x90000, .f32⟩
  | 37 => ⟨S2x256x10000x9, .f32⟩
  | 38 => ⟨S2x10000x9x256, .f32⟩
  | 39 => ⟨S2x10000x18, .f32⟩
  | 40 => ⟨S2x10000x9x2, .f32⟩
  | 41 => ⟨S10000x2, .f32⟩
  | 42 => ⟨S10000x1x2, .f32⟩
  | 43 => ⟨S10000x1, .f32⟩
  | 44 => ⟨S10000, .f32⟩
  | 45 => ⟨S_, .f32⟩
  | 46 => ⟨S10000, .f32⟩
  | 47 => ⟨S10000, .f32⟩
  | 48 => ⟨S10000x1x1, .f32⟩
  | 49 => ⟨S1x10000x1x1, .f32⟩
  | 50 => ⟨S2x10000x9x2, .f32⟩
  | 51 => ⟨S2x10000x9x2, .f32⟩
  | 52 => ⟨S_, .f32⟩
  | 53 => ⟨S2x10000x9x2, .f32⟩
  | 54 => ⟨S2x10000x9x2, .f32⟩
  | 55 => ⟨S1x10000x1x2, .f32⟩
  | 56 => ⟨S2x10000x9x2, .f32⟩
  | 57 => ⟨S2x10000x9x2, .f32⟩
  | 58 => ⟨S2x10000x9x2, .f32⟩
  | 59 => ⟨S10000x1x1, .f32⟩
  | 60 => ⟨S1x10000x1x1, .f32⟩
  | 61 => ⟨S2x10000x9x2, .f32⟩
  | 62 => ⟨S2x10000x9x2, .f32⟩
  | 63 => ⟨S_, .f32⟩
  | 64 => ⟨S2x10000x9x2, .f32⟩
  | 65 => ⟨S2x10000x9x2, .f32⟩
  | 66 => ⟨S2x10000x9x2, .f32⟩
  | 67 => ⟨S2x10000x9x1, .f32⟩
  | 68 => ⟨S2x10000x9, .f32⟩
  | 69 => ⟨S_, .f32⟩
  | 70 => ⟨S2x10000, .f32⟩
  | 71 => ⟨S2x10000x9x1, .f32⟩
  | 72 => ⟨S2x10000x9, .f32⟩
  | 73 => ⟨S_, .f32⟩
  | 74 => ⟨S2x10000, .f32⟩
  | 75 => ⟨S2x10000x9x1, .f32⟩
  | 76 => ⟨S2x10000x9, .f32⟩
  | 77 => ⟨S_, .f32⟩
  | 78 => ⟨S2x10000, .f32⟩
  | 79 => ⟨S2x10000x9x1, .f32⟩
  | 80 => ⟨S2x10000x9, .f32⟩
  | 81 => ⟨S_, .f32⟩
  | 82 => ⟨S2x10000, .f32⟩
  | 83 => ⟨S2x10000x1, .f32⟩
  | 84 => ⟨S2x10000x1, .f32⟩
  | 85 => ⟨S2x10000x1, .f32⟩
  | 86 => ⟨S2x10000x1, .f32⟩
  | 87 => ⟨S2x10000x4, .f32⟩
  | _ => ⟨S2x256x100x100, .f32⟩

abbrev hbmTy (i : Nat) : BufTy := match i / 128 with
  | 0 => hbmTy0_0 i
  | 1 => hbmTy0_1 i
  | _ => ⟨S2x256x100x100, .f32⟩

abbrev bufTy : (tb : Table) → Fin (tcTables nBuf tb) → BufTy
  | .hbm, ⟨i, _⟩ => hbmTy i
  | _, _ => ⟨S2x256x100x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_c_7 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v26 : Ref sig .tc := ⟨.hbm, 50, rfl⟩
abbrev main_cst_8 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_c_13 : Ref sig .tc := ⟨.hbm, 74, rfl⟩
abbrev main_v45 : Ref sig .tc := ⟨.hbm, 75, rfl⟩
abbrev main_v46 : Ref sig .tc := ⟨.hbm, 76, rfl⟩
abbrev main_c_14 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_15 : Ref sig .tc := ⟨.hbm, 81, rfl⟩
abbrev main_v50 : Ref sig .tc := ⟨.hbm, 82, rfl⟩
abbrev main_v51 : Ref sig .tc := ⟨.hbm, 83, rfl⟩
abbrev main_c_16 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_17 : Ref sig .tc := ⟨.hbm, 92, rfl⟩
abbrev main_v59 : Ref sig .tc := ⟨.hbm, 93, rfl⟩
abbrev main_v60 : Ref sig .tc := ⟨.hbm, 94, rfl⟩
abbrev main_c_18 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_19 : Ref sig .tc := ⟨.hbm, 99, rfl⟩
abbrev main_v64 : Ref sig .tc := ⟨.hbm, 100, rfl⟩
abbrev main_v65 : Ref sig .tc := ⟨.hbm, 101, rfl⟩
abbrev main_c_20 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_21 : Ref sig .tc := ⟨.hbm, 110, rfl⟩
abbrev main_v73 : Ref sig .tc := ⟨.hbm, 111, rfl⟩
abbrev main_v74 : Ref sig .tc := ⟨.hbm, 112, rfl⟩
abbrev main_c_22 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_23 : Ref sig .tc := ⟨.hbm, 117, rfl⟩
abbrev main_v78 : Ref sig .tc := ⟨.hbm, 118, rfl⟩
abbrev main_v79 : Ref sig .tc := ⟨.hbm, 119, rfl⟩
abbrev main_c_24 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_25 : Ref sig .tc := ⟨.hbm, 128, rfl⟩
abbrev main_v87 : Ref sig .tc := ⟨.hbm, 129, rfl⟩
abbrev main_v88 : Ref sig .tc := ⟨.hbm, 130, rfl⟩
abbrev main_c_26 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_27 : Ref sig .tc := ⟨.hbm, 135, rfl⟩
abbrev main_v92 : Ref sig .tc := ⟨.hbm, 136, rfl⟩
abbrev main_v93 : Ref sig .tc := ⟨.hbm, 137, rfl⟩
abbrev main_c_28 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_29 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_30 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_31 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_32 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_33 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_34 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_35 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩

abbrev nD : Nat := 1
abbrev τ : Topo := Topo.v7x

variable {F : FTy → Type} [FloatOps F]

class Facts₀ : Prop where
  slices_S10000x3_S10000x2_0_0 : S10000x3.Slices ![0, 0] S10000x2
  bcast_S10000x2_S1x10000x1x2_1_3 : S10000x2.BroadcastsInDim S1x10000x1x2 (![1, 3] : Fin 2 → Fin S1x10000x1x2.rank)
  bcast_S_S2x10000x9x2 : S_.BroadcastsInDim S2x10000x9x2 (![] : Fin 0 → Fin S2x10000x9x2.rank)
  bcast_S1x10000x1x2_S2x10000x9x2_0_1_2_3 : S1x10000x1x2.BroadcastsInDim S2x10000x9x2 (![0, 1, 2, 3] : Fin 4 → Fin S2x10000x9x2.rank)
  shapeCasts_S2x10000x9x2_S2x90000x2 : S2x10000x9x2.ShapeCasts S2x90000x2
  slices_S2x90000x2_S2x90000x1_0_0_0 : S2x90000x2.Slices ![0, 0, 0] S2x90000x1
  shapeCasts_S2x90000x1_S2x90000 : S2x90000x1.ShapeCasts S2x90000
  slices_S2x90000x2_S2x90000x1_0_0_1 : S2x90000x2.Slices ![0, 0, 1] S2x90000x1
  bcast_S_S2x90000 : S_.BroadcastsInDim S2x90000 (![] : Fin 0 → Fin S2x90000.rank)
  bcast_S2x90000_S2x90000x1_0_1 : S2x90000.BroadcastsInDim S2x90000x1 (![0, 1] : Fin 2 → Fin S2x90000x1.rank)
  concatenates_S2x90000x1_S2x90000x1_S2x90000x2_d2 : Shape.Concatenates [S2x90000x1, S2x90000x1] S2x90000x2 2
  bcast_S2x90000_S2x1x90000_0_2 : S2x90000.BroadcastsInDim S2x1x90000 (![0, 2] : Fin 2 → Fin S2x1x90000.rank)
  bcast_S2x1x90000_S2x256x90000_0_1_2 : S2x1x90000.BroadcastsInDim S2x256x90000 (![0, 1, 2] : Fin 3 → Fin S2x256x90000.rank)
  shapeCasts_S2x256x90000_S2x256x10000x9 : S2x256x90000.ShapeCasts S2x256x10000x9
  transposes_S2x256x10000x9_S2x10000x9x256_0_2_3_1 : S2x256x10000x9.Transposes [0, 2, 3, 1] S2x10000x9x256
  shapeCasts_S2x10000x9x2_S2x10000x18 : S2x10000x9x2.ShapeCasts S2x10000x18
  shapeCasts_S2x10000x18_S2x10000x9x2 : S2x10000x18.ShapeCasts S2x10000x9x2
  bcast_S10000x2_S10000x1x2_0_2 : S10000x2.BroadcastsInDim S10000x1x2 (![0, 2] : Fin 2 → Fin S10000x1x2.rank)
  slices_S10000x3_S10000x1_0_2 : S10000x3.Slices ![0, 2] S10000x1
  shapeCasts_S10000x1_S10000 : S10000x1.ShapeCasts S10000
  bcast_S_S10000 : S_.BroadcastsInDim S10000 (![] : Fin 0 → Fin S10000.rank)
  bcast_S10000_S10000x1x1_0 : S10000.BroadcastsInDim S10000x1x1 (![0] : Fin 1 → Fin S10000x1x1.rank)
  bcast_S10000x1x1_S1x10000x1x1_1_2_3 : S10000x1x1.BroadcastsInDim S1x10000x1x1 (![1, 2, 3] : Fin 3 → Fin S1x10000x1x1.rank)
  bcast_S1x10000x1x1_S2x10000x9x2_0_1_2_3 : S1x10000x1x1.BroadcastsInDim S2x10000x9x2 (![0, 1, 2, 3] : Fin 4 → Fin S2x10000x9x2.rank)
  bcast_S10000x1x2_S1x10000x1x2_1_2_3 : S10000x1x2.BroadcastsInDim S1x10000x1x2 (![1, 2, 3] : Fin 3 → Fin S1x10000x1x2.rank)
  slices_S2x10000x9x2_S2x10000x9x1_0_0_0_0 : S2x10000x9x2.Slices ![0, 0, 0, 0] S2x10000x9x1
  shapeCasts_S2x10000x9x1_S2x10000x9 : S2x10000x9x1.ShapeCasts S2x10000x9
  reducesTo_S2x10000x9_S2x10000_d2 : S2x10000x9.ReducesTo [2] S2x10000
  h_S_ : 0 < S_.numel
  slices_S2x10000x9x2_S2x10000x9x1_0_0_0_1 : S2x10000x9x2.Slices ![0, 0, 0, 1] S2x10000x9x1
  bcast_S2x10000_S2x10000x1_0_1 : S2x10000.BroadcastsInDim S2x10000x1 (![0, 1] : Fin 2 → Fin S2x10000x1.rank)
  concatenates_S2x10000x1_S2x10000x1_S2x10000x1_S2x10000x1_S2x10000x4_d2 : Shape.Concatenates [S2x10000x1, S2x10000x1, S2x10000x1, S2x10000x1] S2x10000x4 2
  gather_S2x256x100x100_S2x90000x2_S2x256x90000_1_23_0_0_23_2_125611_wf : GatherDims.WF S2x256x100x100 S2x90000x2 S2x256x90000 [1] [2, 3] [0] [2, 3] [0] 2 ![1, 256, 1, 1]

variable [Facts₀]

def gather_S2x256x100x100_S2x90000x2_S2x256x90000_1_23_0_0_23_2_125611 : GatherDims S2x256x100x100 S2x90000x2 S2x256x90000 where
  offsetDims := [1]
  collapsedSliceDims := [2, 3]
  operandBatchingDims := [0]
  startIndicesBatchingDims := [0]
  startIndexMap := [2, 3]
  indexVectorDim := 2
  sliceSizes := ![1, 256, 1, 1]
  wf := gather_S2x256x100x100_S2x90000x2_S2x256x90000_1_23_0_0_23_2_125611_wf

class Facts : Prop extends Facts₀ where

variable [Facts]
-- ==== Proof.KEntry.lean ====
/-
  The buffer contents core `c` finds when the one pallas_call of @main is entered: the launch memory after the
  host operations that precede it (the coordinate arithmetic, the two paddings, the stacking of the two coordinate
  rows, and the re-laid, narrowed feature table).
-/
import proofs.«400533_j52055003628262_4_alg».proof.Proof.Gen.Kernel.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Core `c`'s TensorCore buffer contents at the region's entry, as a valuation. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.KPay.lean ====
/-
  The value the kernel body stores into its output block, as one function of the two blocks it loads: the
  coordinate block (two rows of 128 points) and the feature table of the batch. The 128 × 10000 weight matrix —
  per point the four corner weights placed at their flattened cells and added — is contracted with the table.
-/
import proofs.«400533_j52055003628262_4_alg».proof.Proof.Gen.Kernel.Skeleton

noncomputable section

namespace Cert.Kernel.Hand

open Cert.Kernel Cert.Kernel.Gen
open Idealize.ShloMosaic Idealize.SL.Sem

variable {F : FTy → Type} [FloatOps F]

/-- The stored block from the loaded coordinate block `v0` and the loaded table `v97`. -/
def outPay (v0 : Vec F S1x2x128 .f32) (v97 : Vec F S1x10000x256 .bf16) : FVec F S1x128x256 .f32 :=
  k0_pay1
    (k0_pay14 (k0_pay7 v0) (k0_pay8 v0) (k0_pay9 v0) (k0_pay10 v0) (k0_pay11 v0) (k0_pay12 v0) (k0_pay13 v0)
      (Scalar.ofBits .f32 0x3F800000#32))
    (k0_pay15 (k0_pay8 v0) (k0_pay10 v0)) (k0_pay16 (k0_pay11 v0) (k0_pay12 v0)) (k0_pay17 (F := F)) v97

end Cert.Kernel.Hand

end
-- ==== Proof.KFrame.lean ====
/-
  The frame of the program: @main is host arithmetic, one pallas_call over a 2 × 704 grid, host arithmetic.
  At every grid point the body loads the batch's feature table and a block of 128 coordinate pairs, and stores
  a whole 128 × 256 output block that is a function of those two loads only; nothing is carried from point to
  point. So the staging buffers of the two inputs hold their blocks of the arrays as the region found them, the
  output's buffer holds that function of them, and the host lines after the region write only buffers of their
  own. Every weakly fair execution therefore terminates without a fault with the four argument arrays as launched,
  and with the pallas_call's result array assembled from the blocks the points wrote.
-/
import proofs.«400533_j52055003628262_4_alg».proof.Proof.Gen.Kernel.Launch
import proofs.«400533_j52055003628262_4_alg».proof.Proof.Gen.Kernel.Skeleton
import proofs.«400533_j52055003628262_4_alg».proof.Proof.Gen.Kernel.Points
import proofs.«400533_j52055003628262_4_alg».proof.Proof.KEntry
import proofs.«400533_j52055003628262_4_alg».proof.Proof.KPay
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the three arrays the pallas_call stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's accesses -/

abbrev rTab : Rect S1x10000x256 := Rect.unit (s := S1x10000x256) ![0, 0, 0] S1x10000x256.size inb_S1x10000x256_S1x10000x256_0_0_0
abbrev rCrd : Rect S1x2x128 := Rect.unit (s := S1x2x128) ![0, 0, 0] S1x2x128.size inb_S1x2x128_S1x2x128_0_0_0
abbrev rOut : Rect S1x128x256 := Rect.unit (s := S1x128x256) ![0, 0, 0] S1x128x256.size inb_S1x128x256_S1x128x256_0_0_0

/-- The output window's staging buffer after the body, from the two input blocks: its one store. -/
def out0_2 (x0 : Vec F S1x10000x256 .bf16) (x1 : Vec F S1x2x128 .f32) : Vec F S1x128x256 .f32 :=
  View.canon [⟨rOut, outPay (View.ld x1 rCrd) (View.ld x0 rTab)⟩]

theorem cover0_2 (p0 : Vec F S1x128x256 .f32) (y : S1x128x256.Idx) :
    ∃ pc ∈ ([⟨rOut, p0⟩] : List (View.Piece (Elt F) S1x128x256 .f32)), y ∈ pc.1.set :=
  View.cover_of_tiled [⟨rOut, p0⟩] S1x128x256.size (by rfl) y

/-! ## The body's triple -/

set_option maxHeartbeats 4000000 in
theorem sound_kernel (c : Dev nD) (E : Set ℕ) (i : grid0.Coords) (arg2 : Memref sig .tc .vmem S1x10000x256 .bf16) (harg2 : arg2.IsWhole)
    (arg3 : Memref sig .tc .vmem S1x2x128 .f32) (harg3 : arg3.IsWhole) (arg4 : Memref sig .tc .vmem S1x128x256 .f32) (harg4 : arg4.IsWhole)
    (x0 : Vec F S1x10000x256 .bf16) (x1 : Vec F S1x2x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gather_kernel i arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIEntry.lean ====
/-
  The buffer contents core `c` finds when the one pallas_call of @main is entered: the launch memory after the
  host operations that precede it (the coordinate arithmetic, the two paddings, the stacking of the two coordinate
  rows, and the re-laid, narrowed feature table).
-/
import proofs.«400533_j52055003628262_4_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Core `c`'s TensorCore buffer contents at the region's entry, as a valuation. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KIPay.lean ====
/-
  The value the kernel body stores into its output block, as one function of the two blocks it loads: the
  coordinate block (two rows of 128 points) and the feature table of the batch. The 128 × 10000 weight matrix —
  per point the four corner weights placed at their flattened cells and added — is contracted with the table.
-/
import proofs.«400533_j52055003628262_4_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The stored block from the loaded coordinate block `v0` and the loaded table `v97`. -/
def outPay (v0 : Vec F S1x2x128 .f32) (v97 : Vec F S1x10000x256 .bf16) : FVec F S1x128x256 .f32 :=
  k0_pay1
    (k0_pay14 (k0_pay7 v0) (k0_pay8 v0) (k0_pay9 v0) (k0_pay10 v0) (k0_pay11 v0) (k0_pay12 v0) (k0_pay13 v0)
      (Scalar.ofBits .f32 0x3F800000#32))
    (k0_pay15 (k0_pay8 v0) (k0_pay10 v0)) (k0_pay16 (k0_pay11 v0) (k0_pay12 v0)) (k0_pay17 (F := F)) v97

end Cert.KernelIdeal.Hand

end
-- ==== Proof.KIFrame.lean ====
/-
  The frame of the program: @main is host arithmetic, one pallas_call over a 2 × 704 grid, host arithmetic.
  At every grid point the body loads the batch's feature table and a block of 128 coordinate pairs, and stores
  a whole 128 × 256 output block that is a function of those two loads only; nothing is carried from point to
  point. So the staging buffers of the two inputs hold their blocks of the arrays as the region found them, the
  output's buffer holds that function of them, and the host lines after the region write only buffers of their
  own. Every weakly fair execution therefore terminates without a fault with the four argument arrays as launched,
  and with the pallas_call's result array assembled from the blocks the points wrote.
-/
import proofs.«400533_j52055003628262_4_alg».proof.Proof.Gen.KernelIdeal.Launch
import proofs.«400533_j52055003628262_4_alg».proof.Proof.Gen.KernelIdeal.Skeleton
import proofs.«400533_j52055003628262_4_alg».proof.Proof.Gen.KernelIdeal.Points
import proofs.«400533_j52055003628262_4_alg».proof.Proof.KIEntry
import proofs.«400533_j52055003628262_4_alg».proof.Proof.KIPay
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the three arrays the pallas_call stages (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's accesses -/

abbrev rTab : Rect S1x10000x256 := Rect.unit (s := S1x10000x256) ![0, 0, 0] S1x10000x256.size inb_S1x10000x256_S1x10000x256_0_0_0
abbrev rCrd : Rect S1x2x128 := Rect.unit (s := S1x2x128) ![0, 0, 0] S1x2x128.size inb_S1x2x128_S1x2x128_0_0_0
abbrev rOut : Rect S1x128x256 := Rect.unit (s := S1x128x256) ![0, 0, 0] S1x128x256.size inb_S1x128x256_S1x128x256_0_0_0

/-- The output window's staging buffer after the body, from the two input blocks: its one store. -/
def out0_2 (x0 : Vec F S1x10000x256 .bf16) (x1 : Vec F S1x2x128 .f32) : Vec F S1x128x256 .f32 :=
  View.canon [⟨rOut, outPay (View.ld x1 rCrd) (View.ld x0 rTab)⟩]

theorem cover0_2 (p0 : Vec F S1x128x256 .f32) (y : S1x128x256.Idx) :
    ∃ pc ∈ ([⟨rOut, p0⟩] : List (View.Piece (Elt F) S1x128x256 .f32)), y ∈ pc.1.set :=
  View.cover_of_tiled [⟨rOut, p0⟩] S1x128x256.size (by rfl) y

/-! ## The body's triple -/

set_option maxHeartbeats 4000000 in
theorem sound_kernel (c : Dev nD) (E : Set ℕ) (i : grid0.Coords) (arg2 : Memref sig .tc .vmem S1x10000x256 .bf16) (harg2 : arg2.IsWhole)
    (arg3 : Memref sig .tc .vmem S1x2x128 .f32) (harg3 : arg3.IsWhole) (arg4 : Memref sig .tc .vmem S1x128x256 .f32) (harg4 : arg4.IsWhole)
    (x0 : Vec F S1x10000x256 .bf16) (x1 : Vec F S1x2x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gather_kernel i arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The arithmetic both programs perform, written once over the extended reals.

  A sampling point has a row coordinate `h` and a column coordinate `w` on a 100 × 100 grid. Its lower grid
  line is the floor clipped into [0, 99]; at the last grid line the point is pinned to it (upper line = lower
  line, fractional part 0), elsewhere the upper line is one further and the fractional part is the distance
  to the lower line. The bilinear value at the point is the sum over the four surrounding cells of the
  cell's value times the product of the two one-dimensional weights.

  `bil` is that four-term sum read off a 100 × 100 table; `gat` is the same quantity written as ONE sum
  over all 10000 flattened cells of a weight that is nonzero at no more than the four corner cells.
-/
import Idealize.ShloMosaic.PureOps.Ideal
import Idealize.ShloMosaic.Lib.ValueIdx

noncomputable section

namespace Cert.Spec

open Idealize.ShloMosaic

/-- The float patterns the programs spell: 0, 1, 99 (as a float pattern) and 99 (converted from the integer). -/
abbrev k0 : EReal := Ideal.ofBits .f32 0x00000000#32
abbrev k1 : EReal := Ideal.ofBits .f32 0x3F800000#32
abbrev k99 : EReal := Ideal.ofBits .f32 0x42C60000#32
abbrev k99i : EReal := (((99#32 : BitVec 32).toInt : ℝ) : EReal)

/-- The lower grid line of a coordinate: its floor, clipped into [0, 99]. -/
def low (x : EReal) : EReal := min k99i (max k0 (Ideal.liftRound Int.floor x))
/-- Whether the lower grid line is the last one. -/
def atEdge (x : EReal) : BitVec 1 := Ideal.cmp .oge (low x) k99
/-- The upper grid line: the lower one at the edge, one further elsewhere. -/
def high (x : EReal) : EReal := Scalar.select (atEdge x) (low x) (low x + k1)
/-- The coordinate itself, pinned to the last grid line at the edge. -/
def pinned (x : EReal) : EReal := Scalar.select (atEdge x) (low x) x
/-- The weight of the upper grid line: the distance from the lower one. -/
def frac (x : EReal) : EReal := pinned x - low x
/-- The weight of the lower grid line. -/
def cofrac (x : EReal) : EReal := k1 - frac x
/-- The grid lines as 32-bit integers. -/
def ilow (x : EReal) : BitVec 32 := Ideal.fptosi 32 (low x)
def ihigh (x : EReal) : BitVec 32 := Ideal.fptosi 32 (high x)

/-- The flattened cell number `row * 100 + column`, in 32-bit arithmetic. -/
def flat (r c : BitVec 32) : BitVec 32 := IntOp.addi (IntOp.muli r 100#32) c
/-- A weight placed at one flattened cell: `wgt` where `k` is that cell, zero elsewhere. -/
def hit (k : Fin 10000) (cell : BitVec 32) (wgt : EReal) : EReal :=
  Scalar.select (IntOp.cmpi .eq (BitVec.ofNat 32 k.val) cell) wgt k0
/-- The four corner weights of a point laid out along the 10000 flattened cells and added up. -/
def mix (h w : EReal) (k : Fin 10000) : EReal :=
  ((hit k (flat (ilow h) (ilow w)) (cofrac h * cofrac w) + hit k (flat (ilow h) (ihigh w)) (cofrac h * frac w))
    + hit k (flat (ihigh h) (ilow w)) (frac h * cofrac w)) + hit k (flat (ihigh h) (ihigh w)) (frac h * frac w)
/-- The point's value as one contraction of the weight row with the flattened table. -/
def gat (tbl : Fin 10000 → EReal) (h w : EReal) : EReal := ∑ k : Fin 10000, mix h w k * tbl k

/-- A grid line as a cell coordinate. -/
def cellOf (v : BitVec 32) : Fin 100 := ⟨v.toNat % 100, Nat.mod_lt _ (by decide)⟩
/-- The point's value as the four-corner bilinear sum. -/
def bil (f : Fin 100 → Fin 100 → EReal) (h w : EReal) : EReal :=
  (((cofrac h * cofrac w) * f (cellOf (ilow h)) (cellOf (ilow w)) + (cofrac h * frac w) * f (cellOf (ilow h)) (cellOf (ihigh w)))
    + (frac h * cofrac w) * f (cellOf (ihigh h)) (cellOf (ilow w))) + (frac h * frac w) * f (cellOf (ihigh h)) (cellOf (ihigh w))

/-- Component `d` (0: column, 1: row) of the sampling coordinate of point `j` of location `n` in batch `b`:
    `(centre + offset · 64 · 0.1) / 8`. -/
def coord (a1 : Fin 10000 → Fin 3 → EReal) (a2 : Fin 2 → Fin 10000 → Fin 9 → Fin 2 → EReal)
    (b : Fin 2) (n : Fin 10000) (j : Fin 9) (d : Fin 2) : EReal :=
  Ideal.div (a1 n ⟨d.val, by omega⟩ + (a2 b n j d * Ideal.ofBits .f32 0x42800000#32) * Ideal.ofBits .f32 0x3DCCCCCD#32)
    (Ideal.ofBits .f32 0x41000000#32)

end Cert.Spec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KIBody.lean ====
/-
  The stored block of the kernel body read at one entry: row r of the block is the contraction of the point's weight row with the table column.

  Bottom-up: the layout operations that carry a per-point vector into a column of the 128 × 10000 weight matrix, read at
  an entry; each per-point quantity of the body (lower and upper grid lines, fractional parts) as the scalar function of
  the point's coordinate; a corner's weight placed at its flattened cell; the matrix product read at an entry as the sum
  over the 10000 cells.
-/
import proofs.«400533_j52055003628262_4_alg».proof.Proof.KIPay
import proofs.«400533_j52055003628262_4_alg».proof.Proof.Spec
import proofs.«400533_j52055003628262_4_alg».proof.Proof.LibPlainDot
import Idealize.ShloMosaic.Lib.ValueIdx
import Idealize.ShloMosaic.Lib.ValueLayout

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## A vector as a column: the casts and the broadcast read at an entry -/

section Column
variable {α : Type}

/-- A vector cast to a one-column matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix cast to a vector reads, at i, the matrix at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A one-column matrix broadcast along its rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-point vector laid out as a column and broadcast over the 10000 cells reads, at (r, k), the vector at r. -/
theorem col_apply (x : S128.Idx → α) (r : Fin 128) (k : Fin 10000) :
    broadcastTo S128x10000 (shapeCast S128x1 x shapeCasts_S128_S128x1) broadcasts_S128x1_S128x10000 (ix2 r k) = x (ix1 r) :=
  (broadcastTo_a1_ab_apply _ _ r k).trans (shapeCast_a_a1_apply _ _ r 0)

/-- The same through one more cast of the column to its own shape. -/
theorem col2_apply (x : S128.Idx → α) (r : Fin 128) (k : Fin 10000) :
    broadcastTo S128x10000 (shapeCast S128x1 (shapeCast S128x1 x shapeCasts_S128_S128x1) shapeCasts_S128x1_S128x1)
      broadcasts_S128x1_S128x10000 (ix2 r k) = x (ix1 r) := by
  rw [shapeCast_self]
  exact col_apply x r k

end Column

/-- The cell counter along the 10000 axis reads, at (r, k), the 32-bit word of k. -/
theorem iota1_apply (r : Fin 128) (k : Fin 10000) :
    iota .tc S128x10000 32 [1] iota_S128x10000_d1_w32 (ix2 r k) = BitVec.ofNat 32 k.val := by
  show BitVec.ofNat 32 (0 * 10000 + k.val) = _
  rw [Nat.zero_mul, Nat.zero_add]

/-- "Cell k is this point's cell", at (r, k). -/
theorem cmpCol_apply (cell : IVec S128 32) (r : Fin 128) (k : Fin 10000) :
    cmpi .eq (iota .tc S128x10000 32 [1] iota_S128x10000_d1_w32)
        (broadcastTo S128x10000 (shapeCast S128x1 cell shapeCasts_S128_S128x1) broadcasts_S128x1_S128x10000) (ix2 r k)
      = IntOp.cmpi .eq (BitVec.ofNat 32 k.val) (cell (ix1 r)) :=
  congrArg₂ (IntOp.cmpi .eq) (iota1_apply r k) (col_apply cell r k)

/-- A per-point weight placed at the point's cell: at (r, k) it is the weight where k is the cell, zero elsewhere. -/
theorem hitCol_apply (cell : IVec S128 32) (wgt : FVec Ideal S128 .f32) (r : Fin 128) (k : Fin 10000) :
    select (cmpi .eq (iota .tc S128x10000 32 [1] iota_S128x10000_d1_w32)
          (broadcastTo S128x10000 (shapeCast S128x1 cell shapeCasts_S128_S128x1) broadcasts_S128x1_S128x10000))
        (broadcastTo S128x10000 (shapeCast S128x1 (shapeCast S128x1 wgt shapeCasts_S128_S128x1) shapeCasts_S128x1_S128x1)
          broadcasts_S128x1_S128x10000)
        (broadcast S128x10000 (Scalar.ofBits (F := Ideal) .f32 0x00000000#32)) (ix2 r k)
      = Cert.Spec.hit k (cell (ix1 r)) (wgt (ix1 r)) :=
  congrArg₂ (fun c w => Scalar.select c w Cert.Spec.k0) (cmpCol_apply cell r k) (col2_apply wgt r k)

/-! ## The per-point quantities -/

section Point
variable (v0 : Vec Ideal S1x2x128 .f32) (r : Fin 128)

/-- The coordinate block with its two rows turned into columns: at (r, c) it is coordinate c of point r. -/
theorem pay2_apply (c : Fin 2) : k0_pay2 (F := Ideal) v0 (ix2 r c) = v0 (ix3 (0 : Fin 1) c r) := by
  unfold k0_pay2
  refine (transpose_ix2_apply _ _ r c).trans ?_
  exact shapeCast_1ab_ab_apply _ _ c r

/-- The points' row coordinates. -/
theorem pay3_apply : k0_pay3 (F := Ideal) v0 (ix1 r) = v0 (ix3 (0 : Fin 1) (0 : Fin 2) r) := by
  unfold k0_pay3
  refine (shapeCast_a1_a_apply _ _ r).trans ?_
  refine (slice2_axis1_apply 0 _ _ r (0 : Fin 1) (0 : Fin 2) rfl).trans ?_
  exact pay2_apply v0 r 0

/-- The points' column coordinates. -/
theorem pay4_apply : k0_pay4 (F := Ideal) v0 (ix1 r) = v0 (ix3 (0 : Fin 1) (1 : Fin 2) r) := by
  unfold k0_pay4
  refine (shapeCast_a1_a_apply _ _ r).trans ?_
  refine (slice2_axis1_apply 1 _ _ r (0 : Fin 1) (1 : Fin 2) rfl).trans ?_
  exact pay2_apply v0 r 1

/-- The lower grid line of the row coordinate. -/
theorem pay5_apply : k0_pay5 (F := Ideal) v0 (ix1 r) = Cert.Spec.low (v0 (ix3 (0 : Fin 1) (0 : Fin 2) r)) :=
  (show k0_pay5 (F := Ideal) v0 (ix1 r) = Cert.Spec.low (k0_pay3 (F := Ideal) v0 (ix1 r)) from rfl).trans
    (congrArg Cert.Spec.low (pay3_apply v0 r))

/-- The lower grid line of the column coordinate. -/
theorem pay6_apply : k0_pay6 (F := Ideal) v0 (ix1 r) = Cert.Spec.low (v0 (ix3 (0 : Fin 1) (1 : Fin 2) r)) :=
  (show k0_pay6 (F := Ideal) v0 (ix1 r) = Cert.Spec.low (k0_pay4 (F := Ideal) v0 (ix1 r)) from rfl).trans
    (congrArg Cert.Spec.low (pay4_apply v0 r))

/-- The upper grid line, as an integer, from the lower one: the lower one at the last line, one further elsewhere. -/
def upFrom (l : EReal) : BitVec 32 :=
  Ideal.fptosi 32 (Scalar.select (Ideal.cmp .oge l Cert.Spec.k99) l (l + Cert.Spec.k1))

/-- The fractional part from the lower grid line and the coordinate. -/
def fracFrom (l x : EReal) : EReal := Scalar.select (Ideal.cmp .oge l Cert.Spec.k99) l x - l

theorem pay7_apply : k0_pay7 (F := Ideal) v0 (ix1 r) = Cert.Spec.ilow (v0 (ix3 (0 : Fin 1) (0 : Fin 2) r)) :=
  (show k0_pay7 (F := Ideal) v0 (ix1 r) = Ideal.fptosi 32 (k0_pay5 (F := Ideal) v0 (ix1 r)) from rfl).trans
    (congrArg (Ideal.fptosi 32) (pay5_apply v0 r))

theorem pay8_apply : k0_pay8 (F := Ideal) v0 (ix1 r) = Cert.Spec.ihigh (v0 (ix3 (0 : Fin 1) (0 : Fin 2) r)) :=
  (show k0_pay8 (F := Ideal) v0 (ix1 r) = upFrom (k0_pay5 (F := Ideal) v0 (ix1 r)) from rfl).trans
    (congrArg upFrom (pay5_apply v0 r))

theorem pay9_apply : k0_pay9 (F := Ideal) v0 (ix1 r) = Cert.Spec.ilow (v0 (ix3 (0 : Fin 1) (1 : Fin 2) r)) :=
  (show k0_pay9 (F := Ideal) v0 (ix1 r) = Ideal.fptosi 32 (k0_pay6 (F := Ideal) v0 (ix1 r)) from rfl).trans
    (congrArg (Ideal.fptosi 32) (pay6_apply v0 r))

theorem pay10_apply : k0_pay10 (F := Ideal) v0 (ix1 r) = Cert.Spec.ihigh (v0 (ix3 (0 : Fin 1) (1 : Fin 2) r)) :=
  (show k0_pay10 (F := Ideal) v0 (ix1 r) = upFrom (k0_pay6 (F := Ideal) v0 (ix1 r)) from rfl).trans
    (congrArg upFrom (pay6_apply v0 r))

/-- The fractional part of the row coordinate. -/
theorem pay11_apply : k0_pay11 (F := Ideal) v0 (ix1 r) = Cert.Spec.frac (v0 (ix3 (0 : Fin 1) (0 : Fin 2) r)) :=
  (show k0_pay11 (F := Ideal) v0 (ix1 r)
      = fracFrom (k0_pay5 (F := Ideal) v0 (ix1 r)) (k0_pay3 (F := Ideal) v0 (ix1 r)) from rfl).trans
    (congrArg₂ fracFrom (pay5_apply v0 r) (pay3_apply v0 r))

/-- The fractional part of the column coordinate. -/
theorem pay12_apply : k0_pay12 (F := Ideal) v0 (ix1 r) = Cert.Spec.frac (v0 (ix3 (0 : Fin 1) (1 : Fin 2) r)) :=
  (show k0_pay12 (F := Ideal) v0 (ix1 r)
      = fracFrom (k0_pay6 (F := Ideal) v0 (ix1 r)) (k0_pay4 (F := Ideal) v0 (ix1 r)) from rfl).trans
    (congrArg₂ fracFrom (pay6_apply v0 r) (pay4_apply v0 r))

/-- The weight of the lower grid line of the row coordinate. -/
theorem pay13_apply : k0_pay13 (F := Ideal) v0 (ix1 r) = Cert.Spec.cofrac (v0 (ix3 (0 : Fin 1) (0 : Fin 2) r)) :=
  (show k0_pay13 (F := Ideal) v0 (ix1 r) = Cert.Spec.k1 - k0_pay11 (F := Ideal) v0 (ix1 r) from rfl).trans
    (congrArg (fun x => Cert.Spec.k1 - x) (pay11_apply v0 r))

end Point

/-! ## The weight matrix -/

/-- Three of the four corner weights, each placed at its cell, added: at (r, k). -/
theorem pay14_apply (v35 v36 v37 v38 : IVec S128 32) (v39 v40 v42 : FVec Ideal S128 .f32) (c : Ideal .f32)
    (r : Fin 128) (k : Fin 10000) :
    k0_pay14 (F := Ideal) v35 v36 v37 v38 v39 v40 v42 c (ix2 r k)
      = (Cert.Spec.hit k (Cert.Spec.flat (v35 (ix1 r)) (v37 (ix1 r))) (v42 (ix1 r) * (c - v40 (ix1 r)))
          + Cert.Spec.hit k (Cert.Spec.flat (v35 (ix1 r)) (v38 (ix1 r))) (v42 (ix1 r) * v40 (ix1 r)))
        + Cert.Spec.hit k (Cert.Spec.flat (v36 (ix1 r)) (v37 (ix1 r))) (v39 (ix1 r) * (c - v40 (ix1 r))) := by
  unfold k0_pay14
  exact congrArg₂ (fun x y : EReal => x + y)
    (congrArg₂ (fun x y : EReal => x + y) (hitCol_apply _ _ r k) (hitCol_apply _ _ r k)) (hitCol_apply _ _ r k)

/-- "Cell k is the fourth corner's cell", at (r, k). -/
theorem pay15_apply (v36 v38 : IVec S128 32) (r : Fin 128) (k : Fin 10000) :
    k0_pay15 v36 v38 (ix2 r k) = IntOp.cmpi .eq (BitVec.ofNat 32 k.val) (Cert.Spec.flat (v36 (ix1 r)) (v38 (ix1 r))) := by
  unfold k0_pay15
  exact cmpCol_apply _ r k

/-- The fourth corner's weight, at (r, k). -/
theorem pay16_apply (v39 v40 : FVec Ideal S128 .f32) (r : Fin 128) (k : Fin 10000) :
    k0_pay16 (F := Ideal) v39 v40 (ix2 r k) = v39 (ix1 r) * v40 (ix1 r) := by
  unfold k0_pay16
  exact col2_apply _ r k

/-- The product of the weight matrix (three corners plus the fourth, selected) with the table, at (0, r, ch): the sum over
    the 10000 cells. -/
theorem pay1_apply (v87 : FVec Ideal S128x10000 .f32) (v90 : IVec S128x10000 1) (v93 v94 : FVec Ideal S128x10000 .f32)
    (v97 : Vec Ideal S1x10000x256 .bf16) (r : Fin 128) (ch : Fin 256) :
    k0_pay1 (F := Ideal) v87 v90 v93 v94 v97 (ix3 (0 : Fin 1) r ch)
      = ∑ k : Fin 10000, ((v87 (ix2 r k) + Scalar.select (v90 (ix2 r k)) (v93 (ix2 r k)) (v94 (ix2 r k)) : EReal))
          * (v97 (ix3 (0 : Fin 1) k ch) : EReal) := by
  unfold k0_pay1
  refine (shapeCast_ab_1ab_apply _ _ 0 r ch).trans ?_
  refine (Cert.LibPlainDot.matmul_plain_apply 128 10000 256 none _ _ r ch).trans ?_
  refine Finset.sum_congr rfl fun k _ => ?_
  exact congrArg
    (fun x : EReal => ((v87 (ix2 r k) + Scalar.select (v90 (ix2 r k)) (v93 (ix2 r k)) (v94 (ix2 r k)) : EReal)) * x)
    (shapeCast_1ab_ab_apply v97 _ k ch)

/-- Entry (r, ch) of the stored block: the point whose row coordinate is `v0[0, 0, r]` and column coordinate `v0[0, 1, r]`,
    contracted against column `ch` of the loaded table. -/
theorem outPay_apply (v0 : Vec Ideal S1x2x128 .f32) (v97 : Vec Ideal S1x10000x256 .bf16) (r : Fin 128) (ch : Fin 256) :
    outPay (F := Ideal) v0 v97 (ix3 (0 : Fin 1) r ch)
      = Cert.Spec.gat (fun k => v97 (ix3 (0 : Fin 1) k ch)) (v0 (ix3 (0 : Fin 1) (0 : Fin 2) r)) (v0 (ix3 (0 : Fin 1) (1 : Fin 2) r)) := by
  unfold outPay
  refine (pay1_apply _ _ _ _ v97 r ch).trans ?_
  unfold Cert.Spec.gat
  refine Finset.sum_congr rfl fun k _ => ?_
  refine congrArg (fun x : EReal => x * (v97 (ix3 (0 : Fin 1) k ch) : EReal)) ?_
  rw [pay14_apply, pay15_apply, pay16_apply, pay7_apply, pay8_apply, pay9_apply, pay10_apply, pay11_apply, pay12_apply,
    pay13_apply]
  rfl

end Cert.KernelIdeal.Hand

end
-- ==== Proof.KICover.lean ====
/-
  From the blocks the grid points write to the whole result array of the pallas_call.

  The grid is 2 × 704: point t works on batch t / 704 and on the 128 sampling points 128 · (t % 704) … 128 · (t % 704) + 127
  of that batch. It loads the batch's whole table and the two coordinate rows of its 128 points, and writes the
  128 × 256 block of results. Every entry it writes is the contraction of that point's weight row with one column
  of the batch's table, so the block is the matching block of ONE function of the two staged arrays, and the 1408
  blocks tile the result array.
-/
import proofs.«400533_j52055003628262_4_alg».proof.Proof.KIFrame
import proofs.«400533_j52055003628262_4_alg».proof.Proof.KIBody
import proofs.«400533_j52055003628262_4_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The pallas_call's result array as one function of the two staged arrays: entry (b, p, ch) is point p of batch b
    contracted against column ch of batch b's table. -/
def gathered (c : Dev nD) : S2x90112x256.Idx → EReal := fun i =>
  Cert.Spec.gat (fun k => V m c main_v22 (ix3 (i 0) k (i 2))) (V m c main_v19 (ix3 (i 0) (0 : Fin 2) (i 1))) (V m c main_v19 (ix3 (i 0) (1 : Fin 2) (i 1)))

namespace Cover

/-! ## Where the three windows' blocks sit -/

theorem zero3 : (![0, 0, 0] : Fin 3 → Nat) = fun _ => 0 := funext fun a => by fin_cases a <;> rfl

/-- The grid has 1408 points. -/
theorem lt_points (t : Fin cfg0.N) : t.val < 1408 := t.isLt

/-- The block indices of the three windows at point t, decided over the grid: the batch is t / 704 for all three; the
    table's block is the batch's whole table; the coordinates' block and the result's block are number t % 704 along the
    axis of the sampling points. -/
theorem block_indices : ∀ t : Fin cfg0.N,
    win0_2.index t (0 : Fin 3) = t.val / 704 ∧ win0_2.index t (1 : Fin 3) = t.val % 704 ∧ win0_2.index t (2 : Fin 3) = 0
    ∧ win0_0.index t (0 : Fin 3) = t.val / 704 ∧ win0_0.index t (1 : Fin 3) = 0 ∧ win0_0.index t (2 : Fin 3) = 0
    ∧ win0_1.index t (0 : Fin 3) = t.val / 704 ∧ win0_1.index t (1 : Fin 3) = 0 ∧ win0_1.index t (2 : Fin 3) = t.val % 704 :=
  (by decide +kernel : ∀ t : Fin grid0.N, _)

/-- The table's block at point t is the whole table of batch t / 704. -/
theorem table_block (c : Dev nD) (t : Fin cfg0.N) (k : Fin 10000) (ch : Fin 256) (hb : t.val / 704 < 2) :
    (iblk m c 0 t : Vec Ideal S1x10000x256 .bf16) (ix3 (0 : Fin 1) k ch)
      = (V m c main_v22 : S2x10000x256.Idx → EReal) (ix3 (⟨t.val / 704, hb⟩ : Fin 2) k ch) := by
  obtain ⟨-, -, -, e0, e1, e2, -, -, -⟩ := block_indices t
  show V m c main_v22 (((cfg0.win 0).blk t).view.emb (ix3 (0 : Fin 1) k ch)) = V m c main_v22 _
  refine congrArg (V m c main_v22) ?_
  funext a; apply Fin.ext
  match a with
  | ⟨0, _⟩ => show win0_0.index t (0 : Fin 3) * 1 + 1 * 0 = t.val / 704; omega
  | ⟨1, _⟩ => show win0_0.index t (1 : Fin 3) * 10000 + 1 * k.val = k.val; omega
  | ⟨2, _⟩ => show win0_0.index t (2 : Fin 3) * 256 + 1 * ch.val = ch.val; omega

/-- The coordinates' block at point t holds, in row d, the d-th coordinates of the 128 points from 128 · (t % 704) on of
    batch t / 704. -/
theorem coord_block (c : Dev nD) (t : Fin cfg0.N) (d : Fin 2) (r : Fin 128) (hb : t.val / 704 < 2)
    (hp : 128 * (t.val % 704) + r.val < 90112) :
    (iblk m c 1 t : Vec Ideal S1x2x128 .f32) (ix3 (0 : Fin 1) d r)
      = (V m c main_v19 : S2x2x90112.Idx → EReal) (ix3 (⟨t.val / 704, hb⟩ : Fin 2) d (⟨128 * (t.val % 704) + r.val, hp⟩ : Fin 90112)) := by
  obtain ⟨-, -, -, -, -, -, e0, e1, e2⟩ := block_indices t
  show V m c main_v19 (((cfg0.win 1).blk t).view.emb (ix3 (0 : Fin 1) d r)) = V m c main_v19 _
  refine congrArg (V m c main_v19) ?_
  funext a; apply Fin.ext
  match a with
  | ⟨0, _⟩ => show win0_1.index t (0 : Fin 3) * 1 + 1 * 0 = t.val / 704; omega
  | ⟨1, _⟩ => show win0_1.index t (1 : Fin 3) * 2 + 1 * d.val = d.val; omega
  | ⟨2, _⟩ => show win0_1.index t (2 : Fin 3) * 128 + 1 * r.val = 128 * (t.val % 704) + r.val; omega

/-- Row r, column ch of the result's block at point t sits at row 128 · (t % 704) + r, column ch of batch t / 704. -/
theorem result_block (t : Fin cfg0.N) (r : Fin 128) (ch : Fin 256) (hb : t.val / 704 < 2)
    (hp : 128 * (t.val % 704) + r.val < 90112) :
    (((cfg0.win 2).blk t).view.emb (ix3 (0 : Fin 1) r ch) : S2x90112x256.Idx)
      = ix3 (⟨t.val / 704, hb⟩ : Fin 2) (⟨128 * (t.val % 704) + r.val, hp⟩ : Fin 90112) ch := by
  obtain ⟨e0, e1, e2, -, -, -, -, -, -⟩ := block_indices t
  funext a; apply Fin.ext
  match a with
  | ⟨0, _⟩ => show win0_2.index t (0 : Fin 3) * 1 + 1 * 0 = t.val / 704; omega
  | ⟨1, _⟩ => show win0_2.index t (1 : Fin 3) * 128 + 1 * r.val = 128 * (t.val % 704) + r.val; omega
  | ⟨2, _⟩ => show win0_2.index t (2 : Fin 3) * 256 + 1 * ch.val = ch.val; omega

/-! ## What a point writes -/

/-- The contraction depends only on the table column and the two coordinates. -/
theorem gat_congr {tbl tbl' : Fin 10000 → EReal} {h h' w w' : EReal} (e0 : ∀ k, tbl k = tbl' k) (e1 : h = h') (e2 : w = w') :
    Cert.Spec.gat tbl h w = Cert.Spec.gat tbl' h' w' := by
  have e : tbl = tbl' := funext e0
  subst e; subst e1; subst e2; rfl

/-- One entry of the block point t writes: it is the entry of `gathered` the block puts it at. -/
theorem written_entry (c : Dev nD) (t : Fin cfg0.N) (r : Fin 128) (ch : Fin 256) (hb : t.val / 704 < 2)
    (hp : 128 * (t.val % 704) + r.val < 90112) :
    outPay (F := Ideal) (iblk m c 1 t) (iblk m c 0 t) (ix3 (0 : Fin 1) r ch)
      = gathered m c (ix3 (⟨t.val / 704, hb⟩ : Fin 2) (⟨128 * (t.val % 704) + r.val, hp⟩ : Fin 90112) ch) :=
  (outPay_apply (iblk m c 1 t) (iblk m c 0 t) r ch).trans
    (gat_congr (fun k => table_block m c t k ch hb) (coord_block m c t 0 r hb hp) (coord_block m c t 1 r hb hp))

/-- What point t writes back is block t of `gathered`. -/
theorem flushed_eq (c : Dev nD) (t : Fin cfg0.N) :
    (dats m 0 c).flushed 2 t = ((cfg0.win 2).blk t).view.read (Elt Ideal) (gathered m c) := by
  show (cfg0.win 2).cut (grid0.coords t) ((dats m 0 c).after 2 t) = _
  rw [after0_2]
  unfold out0_2
  rw [View.canon_unit_zero zero3]
  simp only [View.ld_unit_zero (S := S1x2x128) zero3, View.ld_unit_zero (S := S1x10000x256) zero3]
  funext j
  have ht : t.val < 1408 := lt_points t
  have hb : t.val / 704 < 2 := by omega
  have hj0 : (j 0).val < 1 := (j 0).isLt
  have hj1 : (j 1).val < 128 := (j 1).isLt
  have hj2 : (j 2).val < 256 := (j 2).isLt
  have hp : 128 * (t.val % 704) + (j 1).val < 90112 := by omega
  have ej : j = (ix3 (0 : Fin 1) (⟨(j 1).val, hj1⟩ : Fin 128) (⟨(j 2).val, hj2⟩ : Fin 256) : S1x128x256.Idx) := by
    funext a; apply Fin.ext
    match a with
    | ⟨0, _⟩ => show (j 0).val = 0; omega
    | ⟨1, _⟩ => rfl
    | ⟨2, _⟩ => rfl
  show outPay (F := Ideal) (iblk m c 1 t) (iblk m c 0 t) j = gathered m c (((cfg0.win 2).blk t).view.emb j)
  rw [ej, result_block t ⟨(j 1).val, hj1⟩ ⟨(j 2).val, hj2⟩ hb hp]
  exact written_entry m c t ⟨(j 1).val, hj1⟩ ⟨(j 2).val, hj2⟩ hb hp

/-! ## The blocks tile the array -/

/-- An index of the result array is in point t's block iff each coordinate is in the block's range on its axis. -/
theorem mem_block (t : Fin cfg0.N) (i : S2x90112x256.Idx) :
    i ∈ ((cfg0.win 2).blk t).view.set ↔ ∀ a : Fin 3, win0_2.index t a * S1x128x256.size a ≤ (i a).val ∧ (i a).val < win0_2.index t a * S1x128x256.size a + S1x128x256.size a := by
  show i ∈ ((View.whole main_v23).slice (win0_2.rect t)).set ↔ _
  rw [View.set_slice_whole, Rect.mem_set_unit]
  exact Iff.rfl

/-- Row p of batch b lies in the block of point 704 · b + p / 128. -/
theorem mem_block_of_point (i : S2x90112x256.Idx) (t : Fin cfg0.N) (ht : t.val = 704 * (i 0).val + (i 1).val / 128) :
    i ∈ ((cfg0.win 2).blk t).view.set := by
  have hi0 : (i 0).val < 2 := (i 0).isLt
  have hi1 : (i 1).val < 90112 := (i 1).isLt
  have hi2 : (i 2).val < 256 := (i 2).isLt
  obtain ⟨e0, e1, e2, -, -, -, -, -, -⟩ := block_indices t
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 256 ≤ (i 2).val ∧ (i 2).val < win0_2.index t (2 : Fin 3) * 256 + 256
    omega

/-- Every index of the result array is in the block of a point that writes back. -/
theorem covered (i : S2x90112x256.Idx) :
    ∃ t : Fin cfg0.N, (cfg0.win 2).flush t = true ∧ i ∈ ((cfg0.win 2).blk t).view.set := by
  have hi0 : (i 0).val < 2 := (i 0).isLt
  have hi1 : (i 1).val < 90112 := (i 1).isLt
  have hlt : 704 * (i 0).val + (i 1).val / 128 < 1408 := by omega
  exact ⟨(⟨704 * (i 0).val + (i 1).val / 128, hlt⟩ : Fin cfg0.N), flush0_2 _, mem_block_of_point i _ rfl⟩

end Cover

/-- After the last grid point the result array is that function. -/
theorem final_gathered (c : Dev nD) : (dats m 0 c).arrAt 2 cfg0.N = gathered m c :=
  (dats m 0 c).arrAt_eq_of_cover 2 (gathered m c) (fun t _ => Cover.flushed_eq m c t) Cover.covered

end Cert.KernelIdeal.Hand

end
-- ==== Proof.KIPrefix.lean ====
/-
  The two arrays the pallas_call stages, as the host lines before it leave them, read at an index.

  The feature table is the input re-laid — channels last, the 100 × 100 cells flattened — and narrowed, which on the
  extended reals changes nothing. The stacked coordinates come out of the coordinate arithmetic
  `(centre + offset · 64 · 0.1) / 8`: its two components are cut apart, the nine points of each location laid side by
  side (point `9 n + j`), each padded from 90000 to 90112 points, and stacked row coordinate first.
-/
import proofs.«400533_j52055003628262_4_alg».proof.Proof.KIEntry
import proofs.«400533_j52055003628262_4_alg».proof.Proof.Spec
import Idealize.ShloMosaic.Lib.ValueIdx
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.SL.Sem

namespace Prefix

/-! ## The host lines' composed terms, for every float instance -/

section Terms
variable {F : FTy → Type} [FloatOps F]

/-- Host lines run one stretch after the other. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The sampling coordinates `(centre + offset · 64 · 0.1) / 8` of all points, [2, 10000, 9, 2], as the host lines
    compose them from the centres [10000, 3] and the offsets [2, 10000, 9, 2]. -/
def coordsT (a1 : FVec F S10000x3 .f32) (a2 : FVec F S2x10000x9x2 .f32) : FVec F S2x10000x9x2 .f32 :=
  Host.divf
    (addf
      (broadcastInDim S2x10000x9x2 ![0, 1, 2, 3] bcast_S1x10000x1x2_S2x10000x9x2_0_1_2_3
        (broadcastInDim S1x10000x1x2 ![1, 3] bcast_S10000x2_S1x10000x1x2_1_3
          (extractStridedSlice S10000x2 ![0, 0] a1 slices_S10000x3_S10000x2_0_0)))
      (mulf
        (mulf a2 (broadcastInDim S2x10000x9x2 ![] bcast_S_S2x10000x9x2 (constant (F := F) S_ .f32 0x42800000#32)))
        (broadcastInDim S2x10000x9x2 ![] bcast_S_S2x10000x9x2 (constant (F := F) S_ .f32 0x3DCCCCCD#32))))
    (broadcastInDim S2x10000x9x2 ![] bcast_S_S2x10000x9x2 (constant (F := F) S_ .f32 0x41000000#32))

/-- One component of the coordinates, the nine points of a location laid side by side: [2, 90000]. -/
def compT (κ : Fin 2) (h : S2x90000x2.Slices ![0, 0, κ.val] S2x90000x1) (X : FVec F S2x10000x9x2 .f32) :
    FVec F S2x90000 .f32 :=
  shapeCast S2x90000
    (extractStridedSlice S2x90000x1 ![0, 0, κ.val] (shapeCast S2x90000x2 X shapeCasts_S2x10000x9x2_S2x90000x2) h)
    shapeCasts_S2x90000x1_S2x90000

/-- A component padded to 90112 points with the converted integer `z`, as one row [2, 1, 90112]. -/
def rowT (x : FVec F S2x90000 .f32) (z : IVec S_ 32) : FVec F S2x1x90112 .f32 :=
  broadcastInDim S2x1x90112 ![0, 2] bcast_S2x90112_S2x1x90112_0_2
    (pad S2x90112 ![0, 0] ![0, 112] ![0, 0] x (sitofp (F := F) .f32 z) pads_S2x90000_S2x90112_000_01120 h_S_)

/-- After the first stretch: the row component, flattened. -/
theorem head_v14 (W : Valuation τ sig (Elt F)) :
    StableHlo.after (hostOps0 (F := F)) W (Proc.devRef .tc main_v14)
      = compT 1 slices_S2x90000x2_S2x90000x1_0_0_1 (coordsT (W (Proc.devRef .tc main_arg1)) (W (Proc.devRef .tc main_arg2))) := by
  simp only [hostOps0]
  after_results
  rfl

/-- After the first stretch: the column component, flattened. -/
theorem head_v12 (W : Valuation τ sig (Elt F)) :
    StableHlo.after (hostOps0 (F := F)) W (Proc.devRef .tc main_v12)
      = compT 0 slices_S2x90000x2_S2x90000x1_0_0_0 (coordsT (W (Proc.devRef .tc main_arg1)) (W (Proc.devRef .tc main_arg2))) := by
  simp only [hostOps0]
  after_results
  rfl

/-- The later stretches: the two paddings and the stacking. -/
theorem tail_v19 (W : Valuation τ sig (Elt F)) :
    StableHlo.after (hostOps0_1 ++ (hostOps0_2 ++ (hostOps0_3 ++ hostOps0_4))) W (Proc.devRef .tc main_v19)
      = concatenate S2x2x90112 1
          [⟨S2x1x90112, rowT (W (Proc.devRef .tc main_v14)) (W (Proc.devRef .tc main_c))⟩,
           ⟨S2x1x90112, rowT (W (Proc.devRef .tc main_v12)) (constantI S_ 32 0#32)⟩]
          concatenates_S2x1x90112_S2x1x90112_S2x2x90112_d1 := by
  simp only [hostOps0_1, hostOps0_2, hostOps0_3, hostOps0_4, List.cons_append, List.nil_append]
  after_results
  rfl

end Terms

/-! ## The stacked coordinates as one term of the two argument arrays -/

section Stack
variable {F : FTy → Type} [FloatOps F]
variable (m : (ℓ : Loc nD τ sig) → Buf (Elt F) ℓ)

/-- The stacked coordinates: the row component padded, then the column component padded. (What the first padding
    pads with is the integer the first stretch leaves; no true point reads it.) -/
theorem V_stack (c : Dev nD) :
    V m c main_v19
      = concatenate S2x2x90112 1
          [⟨S2x1x90112, rowT (compT 1 slices_S2x90000x2_S2x90000x1_0_0_1
              (coordsT (m ((c.tc : Thread nD τ).loc main_arg1)) (m ((c.tc : Thread nD τ).loc main_arg2))))
              (StableHlo.after hostOps0 (fun b => m (c, b)) (Proc.devRef .tc main_c))⟩,
           ⟨S2x1x90112, rowT (compT 0 slices_S2x90000x2_S2x90000x1_0_0_0
              (coordsT (m ((c.tc : Thread nD τ).loc main_arg1)) (m ((c.tc : Thread nD τ).loc main_arg2))))
              (constantI S_ 32 0#32)⟩]
          concatenates_S2x1x90112_S2x1x90112_S2x2x90112_d1 := by
  dsimp only [V, V0]
  simp only [List.flatten_cons, List.flatten_nil, List.append_nil]
  rw [after_append, tail_v19, head_v14, head_v12]

end Stack

/-! ## The terms read at an index -/

section Read
variable {α : Type}

/-- A splat constant broadcast over the points reads the extended real its word encodes. -/
theorem splat_apply (w : BitVec 32) (i : S2x10000x9x2.Idx) :
    broadcastInDim S2x10000x9x2 ![] bcast_S_S2x10000x9x2 (constant (F := Ideal) S_ .f32 w) i = Ideal.ofBits .f32 w :=
  broadcastInDim_apply _ _ _ i ix0 (fun a => a.elim0)

/-- The centre of location `n`, component `d`, broadcast over batches and points. -/
theorem centre_apply (a1 : FVec Ideal S10000x3 .f32) (b : Fin 2) (n : Fin 10000) (j : Fin 9) (d : Fin 2) :
    broadcastInDim S2x10000x9x2 ![0, 1, 2, 3] bcast_S1x10000x1x2_S2x10000x9x2_0_1_2_3
        (broadcastInDim S1x10000x1x2 ![1, 3] bcast_S10000x2_S1x10000x1x2_1_3
          (extractStridedSlice S10000x2 ![0, 0] a1 slices_S10000x3_S10000x2_0_0)) (ix4 b n j d)
      = a1 (ix2 n (⟨d.val, by omega⟩ : Fin 3)) := by
  refine (broadcastInDim_apply _ _ _ (ix4 b n j d) (ix4 (0 : Fin 1) n (0 : Fin 1) d) (fun a => match a with
    | ⟨0, _⟩ => rfl | ⟨1, _⟩ => rfl | ⟨2, _⟩ => rfl | ⟨3, _⟩ => rfl)).trans ?_
  refine (broadcastInDim_apply _ _ _ (ix4 (0 : Fin 1) n (0 : Fin 1) d) (ix2 n d) (fun a => match a with
    | ⟨0, _⟩ => rfl | ⟨1, _⟩ => rfl)).trans ?_
  exact extractStridedSlice_apply _ _ _ (ix2 n d) (ix2 n (⟨d.val, by omega⟩ : Fin 3)) (fun a => match a with
    | ⟨0, _⟩ => by show n.val = 0 + n.val; omega
    | ⟨1, _⟩ => by show d.val = 0 + d.val; omega)

/-- The composed coordinates at a point are the specification's. -/
theorem coordsT_apply (a1 : FVec Ideal S10000x3 .f32) (a2 : FVec Ideal S2x10000x9x2 .f32)
    (b : Fin 2) (n : Fin 10000) (j : Fin 9) (d : Fin 2) :
    coordsT a1 a2 (ix4 b n j d)
      = Cert.Spec.coord (fun n d => a1 (ix2 n d)) (fun b n j d => a2 (ix4 b n j d)) b n j d := by
  unfold coordsT Cert.Spec.coord
  show Ideal.div (_ + (a2 (ix4 b n j d) * _) * _) _ = _
  rw [centre_apply, splat_apply, splat_apply, splat_apply]

end Read

section Read2
variable {F : FTy → Type} [FloatOps F]

/-- A flattened component at point `9 n + j` is that component of the coordinates of point `j` of location `n`. -/
theorem compT_apply (κ : Fin 2) (h : S2x90000x2.Slices ![0, 0, κ.val] S2x90000x1) (X : FVec F S2x10000x9x2 .f32)
    (b : Fin 2) (n : Fin 10000) (j : Fin 9) :
    compT κ h X (ix2 b (⟨9 * n.val + j.val, by omega⟩ : Fin 90000)) = X (ix4 b n j κ) := by
  unfold compT
  refine (shapeCast_apply _ _ (ix2 b (⟨9 * n.val + j.val, by omega⟩ : Fin 90000))
    (ix3 b (⟨9 * n.val + j.val, by omega⟩ : Fin 90000) (0 : Fin 1)) ?_).trans ?_
  · rw [Shape.rowMajor_val_three, Shape.rowMajor_val_two]
    show (b.val * 90000 + (9 * n.val + j.val)) * 1 + 0 = b.val * 90000 + (9 * n.val + j.val)
    omega
  refine (extractStridedSlice_apply _ _ _ (ix3 b (⟨9 * n.val + j.val, by omega⟩ : Fin 90000) (0 : Fin 1))
    (ix3 b (⟨9 * n.val + j.val, by omega⟩ : Fin 90000) κ) (fun a => match a with
      | ⟨0, _⟩ => by show b.val = 0 + b.val; omega
      | ⟨1, _⟩ => by show 9 * n.val + j.val = 0 + (9 * n.val + j.val); omega
      | ⟨2, _⟩ => by show κ.val = κ.val + 0; omega)).trans ?_
  refine shapeCast_apply _ _ (ix3 b (⟨9 * n.val + j.val, by omega⟩ : Fin 90000) κ) (ix4 b n j κ) ?_
  rw [Shape.rowMajor_val_four, Shape.rowMajor_val_three]
  show ((b.val * 10000 + n.val) * 9 + j.val) * 2 + κ.val = (b.val * 90000 + (9 * n.val + j.val)) * 2 + κ.val
  omega

/-- A padded row at one of the 90000 true points reads the component there. -/
theorem rowT_apply (x : FVec F S2x90000 .f32) (z : IVec S_ 32) (b : Fin 2) (p : Fin 90000) :
    rowT x z (ix3 b (0 : Fin 1) (⟨p.val, by omega⟩ : Fin 90112)) = x (ix2 b p) := by
  unfold rowT
  refine (broadcastInDim_apply _ _ _ (ix3 b (0 : Fin 1) (⟨p.val, by omega⟩ : Fin 90112))
    (ix2 b (⟨p.val, by omega⟩ : Fin 90112)) (fun a => match a with | ⟨0, _⟩ => rfl | ⟨1, _⟩ => rfl)).trans ?_
  exact pad_apply_of_inside _ _ _ x _ _ _ (ix2 b (⟨p.val, by omega⟩ : Fin 90112)) (ix2 b p) (fun a => match a with
    | ⟨0, _⟩ => by show b.val = 0 + b.val * (0 + 1); omega
    | ⟨1, _⟩ => by show p.val = 0 + p.val * (0 + 1); omega)

/-- The stack at row 0 reads its first piece. -/
theorem stack_apply_zero (x₁ x₂ : FVec F S2x1x90112 .f32) (b : Fin 2) (p : Fin 90112) :
    concatenate S2x2x90112 1 [⟨S2x1x90112, x₁⟩, ⟨S2x1x90112, x₂⟩] concatenates_S2x1x90112_S2x1x90112_S2x2x90112_d1
        (ix3 b (0 : Fin 2) p) = x₁ (ix3 b (0 : Fin 1) p) :=
  concatenate_pair_apply_left _ x₁ x₂ _ (ix3 b (0 : Fin 2) p) rfl (ix3 b (0 : Fin 1) p) (fun a => match a with
    | ⟨0, _⟩ => rfl | ⟨1, _⟩ => rfl | ⟨2, _⟩ => rfl)

/-- The stack at row 1 reads its second piece. -/
theorem stack_apply_one (x₁ x₂ : FVec F S2x1x90112 .f32) (b : Fin 2) (p : Fin 90112) :
    concatenate S2x2x90112 1 [⟨S2x1x90112, x₁⟩, ⟨S2x1x90112, x₂⟩] concatenates_S2x1x90112_S2x1x90112_S2x2x90112_d1
        (ix3 b (1 : Fin 2) p) = x₂ (ix3 b (0 : Fin 1) p) :=
  concatenate_pair_apply_right _ x₁ x₂ _ (ix3 b (1 : Fin 2) p) rfl rfl (ix3 b (0 : Fin 1) p) (fun a ha => match a, ha with
    | ⟨0, _⟩, _ => rfl | ⟨1, _⟩, ha => absurd rfl ha | ⟨2, _⟩, _ => rfl) rfl

end Read2

end Prefix

variable (m : (ℓ : Loc nD τ sig) → Buf (Elt Ideal) ℓ)

/-- The feature table: batch b, flattened cell k = row * 100 + column, channel ch. -/
theorem V_table (c : Dev nD) (b : Fin 2) (k : Fin 10000) (ch : Fin 256) :
    V m c main_v22 (ix3 b k ch)
      = m ((c.tc : Thread nD τ).loc main_arg0) (ix4 b ch (⟨k.val / 100, by omega⟩ : Fin 100) (⟨k.val % 100, Nat.mod_lt _ (by decide)⟩ : Fin 100)) := by
  have e : (V m c main_v22 : (⟨S2x10000x256, .bf16⟩ : BufTy).Contents (Elt Ideal))
      = truncf (F := Ideal) .bf16 (shapeCast S2x10000x256 (transpose S2x100x100x256 [0, 2, 3, 1] (m ((c.tc : Thread nD τ).loc main_arg0))
          transposes_S2x256x100x100_S2x100x100x256_0_2_3_1) shapeCasts_S2x100x100x256_S2x10000x256) bitsLt_bf16_f32 := by
    dsimp only [V, V0]
    simp only [hostOps0, hostOps0_1, hostOps0_2, hostOps0_3, hostOps0_4, List.flatten_cons, List.flatten_nil, List.append_nil, List.cons_append, List.nil_append]
    after_results
    rfl
  refine (congrFun e _).trans ?_
  refine (truncf_apply (φ := .f32) (ψ := .bf16) _ bitsLt_bf16_f32 _).trans ?_
  refine (shapeCast_apply _ _ (ix3 b k ch)
    (ix4 b (⟨k.val / 100, by omega⟩ : Fin 100) (⟨k.val % 100, Nat.mod_lt _ (by decide)⟩ : Fin 100) ch) ?_).trans ?_
  · rw [Shape.rowMajor_val_four, Shape.rowMajor_val_three]
    show ((b.val * 100 + k.val / 100) * 100 + k.val % 100) * 256 + ch.val = (b.val * 10000 + k.val) * 256 + ch.val
    omega
  · exact transpose_apply _ _ _ _ _ (fun a => match a with
      | ⟨0, _⟩ => rfl | ⟨1, _⟩ => rfl | ⟨2, _⟩ => rfl | ⟨3, _⟩ => rfl)

/-- Row 0 of the stack at a true point: the row coordinate. -/
theorem Prefix.V_coords_row (c : Dev nD) (b : Fin 2) (n : Fin 10000) (j : Fin 9) :
    V m c main_v19 (ix3 b (0 : Fin 2) (⟨9 * n.val + j.val, by omega⟩ : Fin 90112))
      = Cert.Spec.coord (fun n d => m ((c.tc : Thread nD τ).loc main_arg1) (ix2 n d))
          (fun b n j d => m ((c.tc : Thread nD τ).loc main_arg2) (ix4 b n j d)) b n j (1 : Fin 2) := by
  refine (congrFun (Prefix.V_stack m c) _).trans ?_
  refine (Prefix.stack_apply_zero _ _ b _).trans ?_
  refine (Prefix.rowT_apply _ _ b (⟨9 * n.val + j.val, by omega⟩ : Fin 90000)).trans ?_
  refine (Prefix.compT_apply 1 _ _ b n j).trans ?_
  exact Prefix.coordsT_apply _ _ b n j 1

/-- Row 1 of the stack at a true point: the column coordinate. -/
theorem Prefix.V_coords_col (c : Dev nD) (b : Fin 2) (n : Fin 10000) (j : Fin 9) :
    V m c main_v19 (ix3 b (1 : Fin 2) (⟨9 * n.val + j.val, by omega⟩ : Fin 90112))
      = Cert.Spec.coord (fun n d => m ((c.tc : Thread nD τ).loc main_arg1) (ix2 n d))
          (fun b n j d => m ((c.tc : Thread nD τ).loc main_arg2) (ix4 b n j d)) b n j (0 : Fin 2) := by
  refine (congrFun (Prefix.V_stack m c) _).trans ?_
  refine (Prefix.stack_apply_one _ _ b _).trans ?_
  refine (Prefix.rowT_apply _ _ b (⟨9 * n.val + j.val, by omega⟩ : Fin 90000)).trans ?_
  refine (Prefix.compT_apply 0 _ _ b n j).trans ?_
  exact Prefix.coordsT_apply _ _ b n j 0

/-- The stacked coordinates: row 0 holds the row coordinate (component 1 of the sampling coordinate), row 1 the column
    coordinate (component 0), for the 90000 true points p = 9 n + j. -/
theorem V_coords (c : Dev nD) (b : Fin 2) (d : Fin 2) (n : Fin 10000) (j : Fin 9) :
    V m c main_v19 (ix3 b d (⟨9 * n.val + j.val, by omega⟩ : Fin 90112))
      = Cert.Spec.coord (fun n d => m ((c.tc : Thread nD τ).loc main_arg1) (ix2 n d))
          (fun b n j d => m ((c.tc : Thread nD τ).loc main_arg2) (ix4 b n j d)) b n j (⟨1 - d.val, by omega⟩ : Fin 2) := by
  match d with
  | ⟨0, _⟩ => exact Prefix.V_coords_row m c b n j
  | ⟨1, _⟩ => exact Prefix.V_coords_col m c b n j

end Cert.KernelIdeal.Hand

end
-- ==== Proof.KIBoxes.lean ====
/-
  The box regression of the program's second result, as one function of the last three argument arrays.
-/
import proofs.«400533_j52055003628262_4_alg».proof.Proof.Gen.KernelIdeal
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-- The box regression as one function of the location, offset and shift arrays: per location the nine points
    `centre + offset · (8 · stride) · 0.1 + shift · (8 · stride) · 0.5`, then the minimum and maximum of each of the two
    components over the nine points, stacked as (x_min, y_min, x_max, y_max). -/
def boxesK (a1 : (⟨S10000x3, .f32⟩ : BufTy).Contents (Elt F)) (a2 : (⟨S2x10000x9x2, .f32⟩ : BufTy).Contents (Elt F))
    (a3 : (⟨S2x10000x18, .f32⟩ : BufTy).Contents (Elt F)) : (⟨S2x10000x4, .f32⟩ : BufTy).Contents (Elt F) :=
  concatenate S2x10000x4 2 [⟨S2x10000x1, (broadcastInDim S2x10000x1 ![0, 1] bcast_S2x10000_S2x10000x1_0_1 (Host.reduce FloatOps.minimumf (shapeCast _ (extractStridedSlice S2x10000x9x1 ![0, 0, 0, 0] (addf (addf (broadcastInDim S2x10000x9x2 ![0, 1, 2, 3] bcast_S1x10000x1x2_S2x10000x9x2_0_1_2_3 (broadcastInDim S1x10000x1x2 ![1, 2, 3] bcast_S10000x1x2_S1x10000x1x2_1_2_3 (broadcastInDim S10000x1x2 ![0, 2] bcast_S10000x2_S10000x1x2_0_2 (extractStridedSlice S10000x2 ![0, 0] a1 slices_S10000x3_S10000x2_0_0)))) (mulf (mulf (shapeCast _ (shapeCast _ a2 shapeCasts_S2x10000x9x2_S2x10000x18) shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3DCCCCCD#32)))) (mulf (mulf (shapeCast _ a3 shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3F000000#32)))) slices_S2x10000x9x2_S2x10000x9x1_0_0_0_0) shapeCasts_S2x10000x9x1_S2x10000x9) (constant S_ .f32 0x7F800000#32) reducesTo_S2x10000x9_S2x10000_d2 h_S_))⟩, ⟨S2x10000x1, (broadcastInDim S2x10000x1 ![0, 1] bcast_S2x10000_S2x10000x1_0_1 (Host.reduce FloatOps.minimumf (shapeCast _ (extractStridedSlice S2x10000x9x1 ![0, 0, 0, 1] (addf (addf (broadcastInDim S2x10000x9x2 ![0, 1, 2, 3] bcast_S1x10000x1x2_S2x10000x9x2_0_1_2_3 (broadcastInDim S1x10000x1x2 ![1, 2, 3] bcast_S10000x1x2_S1x10000x1x2_1_2_3 (broadcastInDim S10000x1x2 ![0, 2] bcast_S10000x2_S10000x1x2_0_2 (extractStridedSlice S10000x2 ![0, 0] a1 slices_S10000x3_S10000x2_0_0)))) (mulf (mulf (shapeCast _ (shapeCast _ a2 shapeCasts_S2x10000x9x2_S2x10000x18) shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3DCCCCCD#32)))) (mulf (mulf (shapeCast _ a3 shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3F000000#32)))) slices_S2x10000x9x2_S2x10000x9x1_0_0_0_1) shapeCasts_S2x10000x9x1_S2x10000x9) (constant S_ .f32 0x7F800000#32) reducesTo_S2x10000x9_S2x10000_d2 h_S_))⟩, ⟨S2x10000x1, (broadcastInDim S2x10000x1 ![0, 1] bcast_S2x10000_S2x10000x1_0_1 (Host.reduce FloatOps.maximumf (shapeCast _ (extractStridedSlice S2x10000x9x1 ![0, 0, 0, 0] (addf (addf (broadcastInDim S2x10000x9x2 ![0, 1, 2, 3] bcast_S1x10000x1x2_S2x10000x9x2_0_1_2_3 (broadcastInDim S1x10000x1x2 ![1, 2, 3] bcast_S10000x1x2_S1x10000x1x2_1_2_3 (broadcastInDim S10000x1x2 ![0, 2] bcast_S10000x2_S10000x1x2_0_2 (extractStridedSlice S10000x2 ![0, 0] a1 slices_S10000x3_S10000x2_0_0)))) (mulf (mulf (shapeCast _ (shapeCast _ a2 shapeCasts_S2x10000x9x2_S2x10000x18) shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3DCCCCCD#32)))) (mulf (mulf (shapeCast _ a3 shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3F000000#32)))) slices_S2x10000x9x2_S2x10000x9x1_0_0_0_0) shapeCasts_S2x10000x9x1_S2x10000x9) (constant S_ .f32 0xFF800000#32) reducesTo_S2x10000x9_S2x10000_d2 h_S_))⟩, ⟨S2x10000x1, (broadcastInDim S2x10000x1 ![0, 1] bcast_S2x10000_S2x10000x1_0_1 (Host.reduce FloatOps.maximumf (shapeCast _ (extractStridedSlice S2x10000x9x1 ![0, 0, 0, 1] (addf (addf (broadcastInDim S2x10000x9x2 ![0, 1, 2, 3] bcast_S1x10000x1x2_S2x10000x9x2_0_1_2_3 (broadcastInDim S1x10000x1x2 ![1, 2, 3] bcast_S10000x1x2_S1x10000x1x2_1_2_3 (broadcastInDim S10000x1x2 ![0, 2] bcast_S10000x2_S10000x1x2_0_2 (extractStridedSlice S10000x2 ![0, 0] a1 slices_S10000x3_S10000x2_0_0)))) (mulf (mulf (shapeCast _ (shapeCast _ a2 shapeCasts_S2x10000x9x2_S2x10000x18) shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3DCCCCCD#32)))) (mulf (mulf (shapeCast _ a3 shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3F000000#32)))) slices_S2x10000x9x2_S2x10000x9x1_0_0_0_1) shapeCasts_S2x10000x9x1_S2x10000x9) (constant S_ .f32 0xFF800000#32) reducesTo_S2x10000x9_S2x10000_d2 h_S_))⟩] concatenates_S2x10000x1_S2x10000x1_S2x10000x1_S2x10000x1_S2x10000x4_d2

end Cert.KernelIdeal.Hand

end
-- ==== Proof.KITail.lean ====
/-
  The host lines after the pallas_call: the first result is the call's array cut to the 90000 true points and re-laid as [2, 10000, 9, 256]; the second is the box regression, a function of the last three arguments only.
-/
import proofs.«400533_j52055003628262_4_alg».proof.Proof.KIFrame
import proofs.«400533_j52055003628262_4_alg».proof.Proof.KIBoxes
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-! ## The second result: the box regression

The lines that compute it fall into three stretches. The first 30 lines of the tail end with the point array; the next 20
cut each of its two components out, reduce it over the nine points by minimum and by maximum, and give each extremum a
trailing unit axis; the last line stacks the four. Each stretch is read from arbitrary contents. -/

/-- The nine points of every location: centre + offset · scale · 0.1 + shift · scale · 0.5, the scale being 8 · stride. -/
def tailPts (a1 : (⟨S10000x3, .f32⟩ : BufTy).Contents (Elt F)) (a2 : (⟨S2x10000x9x2, .f32⟩ : BufTy).Contents (Elt F))
    (a3 : (⟨S2x10000x18, .f32⟩ : BufTy).Contents (Elt F)) : (⟨S2x10000x9x2, .f32⟩ : BufTy).Contents (Elt F) :=
  (addf (addf (broadcastInDim S2x10000x9x2 ![0, 1, 2, 3] bcast_S1x10000x1x2_S2x10000x9x2_0_1_2_3 (broadcastInDim S1x10000x1x2 ![1, 2, 3] bcast_S10000x1x2_S1x10000x1x2_1_2_3 (broadcastInDim S10000x1x2 ![0, 2] bcast_S10000x2_S10000x1x2_0_2 (extractStridedSlice S10000x2 ![0, 0] a1 slices_S10000x3_S10000x2_0_0)))) (mulf (mulf (shapeCast _ (shapeCast _ a2 shapeCasts_S2x10000x9x2_S2x10000x18) shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3DCCCCCD#32)))) (mulf (mulf (shapeCast _ a3 shapeCasts_S2x10000x18_S2x10000x9x2) (broadcastInDim S2x10000x9x2 ![0, 1, 2, 3] bcast_S1x10000x1x1_S2x10000x9x2_0_1_2_3 (broadcastInDim S1x10000x1x1 ![1, 2, 3] bcast_S10000x1x1_S1x10000x1x1_1_2_3 (broadcastInDim S10000x1x1 ![0] bcast_S10000_S10000x1x1_0 (mulf (shapeCast _ (extractStridedSlice S10000x1 ![0, 2] a1 slices_S10000x3_S10000x1_0_2) shapeCasts_S10000x1_S10000) (broadcastInDim S10000 ![] bcast_S_S10000 (constant S_ .f32 0x41000000#32))))))) (broadcastInDim S2x10000x9x2 ![] bcast_S_S2x10000x9x2 (constant S_ .f32 0x3F000000#32))))

/-- The lines in three stretches: 30, 20 and 1. -/
theorem tail_after_split (W : Valuation τ sig (Elt F)) :
    StableHlo.after hostOps1 W = StableHlo.after (List.drop 20 (List.drop 30 hostOps1))
      (StableHlo.after (List.take 20 (List.drop 30 hostOps1)) (StableHlo.after (List.take 30 hostOps1) W)) := by
  rw [← StableHlo.after_append, ← StableHlo.after_append, List.take_append_drop, List.take_append_drop]

/-- The last line stacks the four extrema along the last axis. -/
theorem tail_cat (R : Valuation τ sig (Elt F)) :
    StableHlo.after (List.drop 20 (List.drop 30 hostOps1)) R (Proc.devRef .tc main_v67)
      = concatenate S2x10000x4 2 [⟨S2x10000x1, R (Proc.devRef .tc main_v63)⟩, ⟨S2x10000x1, R (Proc.devRef .tc main_v64)⟩,
          ⟨S2x10000x1, R (Proc.devRef .tc main_v65)⟩, ⟨S2x10000x1, R (Proc.devRef .tc main_v66)⟩]
          concatenates_S2x10000x1_S2x10000x1_S2x10000x1_S2x10000x1_S2x10000x4_d2 := by
  simp only [hostOps1, List.drop_succ_cons, List.drop_zero]
  simp only [StableHlo.after_cons, StableHlo.after_nil]
  rw [StableHlo.nary_result]
  rfl

/-! The four extrema, each from the point array as the middle stretch finds it: the minimum of the first component, the
minimum of the second, the maximum of the first, the maximum of the second. -/

set_option maxHeartbeats 2000000 in
theorem tail_ext_v63 (Q : Valuation τ sig (Elt F)) :
    StableHlo.after (List.take 20 (List.drop 30 hostOps1)) Q (Proc.devRef .tc main_v63)
      = broadcastInDim S2x10000x1 ![0, 1] bcast_S2x10000_S2x10000x1_0_1 (Host.reduce FloatOps.minimumf (shapeCast _ (extractStridedSlice S2x10000x9x1 ![0, 0, 0, 0] (Q (Proc.devRef .tc main_v50)) slices_S2x10000x9x2_S2x10000x9x1_0_0_0_0) shapeCasts_S2x10000x9x1_S2x10000x9) (constant S_ .f32 0x7F800000#32) reducesTo_S2x10000x9_S2x10000_d2 h_S_) := by
  simp only [hostOps1, List.drop_succ_cons, List.drop_zero, List.take_succ_cons, List.take_zero]
  after_results
  rfl

set_option maxHeartbeats 2000000 in
theorem tail_ext_v64 (Q : Valuation τ sig (Elt F)) :
    StableHlo.after (List.take 20 (List.drop 30 hostOps1)) Q (Proc.devRef .tc main_v64)
      = broadcastInDim S2x10000x1 ![0, 1] bcast_S2x10000_S2x10000x1_0_1 (Host.reduce FloatOps.minimumf (shapeCast _ (extractStridedSlice S2x10000x9x1 ![0, 0, 0, 1] (Q (Proc.devRef .tc main_v50)) slices_S2x10000x9x2_S2x10000x9x1_0_0_0_1) shapeCasts_S2x10000x9x1_S2x10000x9) (constant S_ .f32 0x7F800000#32) reducesTo_S2x10000x9_S2x10000_d2 h_S_) := by
  simp only [hostOps1, List.drop_succ_cons, List.drop_zero, List.take_succ_cons, List.take_zero]
  after_results
  rfl

set_option maxHeartbeats 2000000 in
theorem tail_ext_v65 (Q : Valuation τ sig (Elt F)) :
    StableHlo.after (List.take 20 (List.drop 30 hostOps1)) Q (Proc.devRef .tc main_v65)
      = broadcastInDim S2x10000x1 ![0, 1] bcast_S2x10000_S2x10000x1_0_1 (Host.reduce FloatOps.maximumf (shapeCast _ (extractStridedSlice S2x10000x9x1 ![0, 0, 0, 0] (Q (Proc.devRef .tc main_v50)) slices_S2x10000x9x2_S2x10000x9x1_0_0_0_0) shapeCasts_S2x10000x9x1_S2x10000x9) (constant S_ .f32 0xFF800000#32) reducesTo_S2x10000x9_S2x10000_d2 h_S_) := by
  simp only [hostOps1, List.drop_succ_cons, List.drop_zero, List.take_succ_cons, List.take_zero]
  after_results
  rfl

set_option maxHeartbeats 2000000 in
theorem tail_ext_v66 (Q : Valuation τ sig (Elt F)) :
    StableHlo.after (List.take 20 (List.drop 30 hostOps1)) Q (Proc.devRef .tc main_v66)
      = broadcastInDim S2x10000x1 ![0, 1] bcast_S2x10000_S2x10000x1_0_1 (Host.reduce FloatOps.maximumf (shapeCast _ (extractStridedSlice S2x10000x9x1 ![0, 0, 0, 1] (Q (Proc.devRef .tc main_v50)) slices_S2x10000x9x2_S2x10000x9x1_0_0_0_1) shapeCasts_S2x10000x9x1_S2x10000x9) (constant S_ .f32 0xFF800000#32) reducesTo_S2x10000x9_S2x10000_d2 h_S_) := by
  simp only [hostOps1, List.drop_succ_cons, List.drop_zero, List.take_succ_cons, List.take_zero]
  after_results
  rfl

set_option maxHeartbeats 4000000 in
/-- The first stretch leaves the point array of the three argument arrays. -/
theorem tail_pts (W : Valuation τ sig (Elt F)) :
    StableHlo.after (List.take 30 hostOps1) W (Proc.devRef .tc main_v50)
      = tailPts (W (Proc.devRef .tc main_arg1)) (W (Proc.devRef .tc main_arg2)) (W (Proc.devRef .tc main_arg3)) := by
  simp only [hostOps1, List.take_succ_cons, List.take_zero]
  after_results
  rfl

/-- The box regression is the four extrema of the point array, stacked. -/
theorem boxesK_eq (a1 : (⟨S10000x3, .f32⟩ : BufTy).Contents (Elt F)) (a2 : (⟨S2x10000x9x2, .f32⟩ : BufTy).Contents (Elt F))
    (a3 : (⟨S2x10000x18, .f32⟩ : BufTy).Contents (Elt F)) :
    boxesK a1 a2 a3 = concatenate S2x10000x4 2 [⟨S2x10000x1, (broadcastInDim S2x10000x1 ![0, 1] bcast_S2x10000_S2x10000x1_0_1 (Host.reduce FloatOps.minimumf (shapeCast _ (extractStridedSlice S2x10000x9x1 ![0, 0, 0, 0] (tailPts a1 a2 a3) slices_S2x10000x9x2_S2x10000x9x1_0_0_0_0) shapeCasts_S2x10000x9x1_S2x10000x9) (constant S_ .f32 0x7F800000#32) reducesTo_S2x10000x9_S2x10000_d2 h_S_))⟩, ⟨S2x10000x1, (broadcastInDim S2x10000x1 ![0, 1] bcast_S2x10000_S2x10000x1_0_1 (Host.reduce FloatOps.minimumf (shapeCast _ (extractStridedSlice S2x10000x9x1 ![0, 0, 0, 1] (tailPts a1 a2 a3) slices_S2x10000x9x2_S2x10000x9x1_0_0_0_1) shapeCasts_S2x10000x9x1_S2x10000x9) (constant S_ .f32 0x7F800000#32) reducesTo_S2x10000x9_S2x10000_d2 h_S_))⟩, ⟨S2x10000x1, (broadcastInDim S2x10000x1 ![0, 1] bcast_S2x10000_S2x10000x1_0_1 (Host.reduce FloatOps.maximumf (shapeCast _ (extractStridedSlice S2x10000x9x1 ![0, 0, 0, 0] (tailPts a1 a2 a3) slices_S2x10000x9x2_S2x10000x9x1_0_0_0_0) shapeCasts_S2x10000x9x1_S2x10000x9) (constant S_ .f32 0xFF800000#32) reducesTo_S2x10000x9_S2x10000_d2 h_S_))⟩, ⟨S2x10000x1, (broadcastInDim S2x10000x1 ![0, 1] bcast_S2x10000_S2x10000x1_0_1 (Host.reduce FloatOps.maximumf (shapeCast _ (extractStridedSlice S2x10000x9x1 ![0, 0, 0, 1] (tailPts a1 a2 a3) slices_S2x10000x9x2_S2x10000x9x1_0_0_0_1) shapeCasts_S2x10000x9x1_S2x10000x9) (constant S_ .f32 0xFF800000#32) reducesTo_S2x10000x9_S2x10000_d2 h_S_))⟩] concatenates_S2x10000x1_S2x10000x1_S2x10000x1_S2x10000x1_S2x10000x4_d2 := rfl

/-- The lines after the region, from any contents, leave the box regression of the three argument arrays as they find
    them in the second result's buffer. -/
theorem tail_boxes_after (W : Valuation τ sig (Elt F)) :
    StableHlo.after hostOps1 W (Proc.devRef .tc main_v67)
      = boxesK (W (Proc.devRef .tc main_arg1)) (W (Proc.devRef .tc main_arg2)) (W (Proc.devRef .tc main_arg3)) := by
  rw [tail_after_split, tail_cat, tail_ext_v63, tail_ext_v64, tail_ext_v65, tail_ext_v66, tail_pts, boxesK_eq]

/-! ## The first result: the pallas_call's array, cut and re-laid -/

set_option maxHeartbeats 4000000 in
/-- The lines after the region leave in the first result's buffer the call's array cut to its first 90000 rows and
    re-laid with nine rows to a location. -/
theorem tail_feat_after (W : Valuation τ sig (Elt F)) :
    StableHlo.after hostOps1 W (Proc.devRef .tc main_v25)
      = shapeCast S2x10000x9x256 (extractStridedSlice S2x90000x256 ![0, 0, 0] (W (Proc.devRef .tc main_v23)) slices_S2x90112x256_S2x90000x256_0_0_0) shapeCasts_S2x90000x256_S2x10000x9x256 := by
  after_results
  rfl

variable (m : (ℓ : Loc nD τ sig) → Buf (Elt F) ℓ)

/-- The second result after the run. -/
theorem tail_boxes (c : Dev nD) :
    Pipeline.afterTail₀ cfgs (dats m) 0 (V0 m) [hostOps1] c main_v67
      = boxesK (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v67) = _
  refine (tail_boxes_after _).trans ?_
  -- no window's array is an argument buffer, and no line before the region writes one
  exact congr (congr (congrArg boxesK
    ((Pipeline.withArrays_of_ne spec0 c (V0 m c) _ main_arg1 (by exact (by decide : ∀ w, Pipeline.arrRef spec0 w ≠ main_arg1))).trans (V_main_arg1 m c)))
    ((Pipeline.withArrays_of_ne spec0 c (V0 m c) _ main_arg2 (by exact (by decide : ∀ w, Pipeline.arrRef spec0 w ≠ main_arg2))).trans (V_main_arg2 m c)))
    ((Pipeline.withArrays_of_ne spec0 c (V0 m c) _ main_arg3 (by exact (by decide : ∀ w, Pipeline.arrRef spec0 w ≠ main_arg3))).trans (V_main_arg3 m c))

/-- The first result after the run, at one entry: point j of location n is row 9 n + j of the pallas_call's array. -/
theorem tail_feat (c : Dev nD) (b : Fin 2) (n : Fin 10000) (j : Fin 9) (ch : Fin 256) :
    Pipeline.afterTail₀ cfgs (dats m) 0 (V0 m) [hostOps1] c main_v25 (ix4 b n j ch)
      = (dats m 0 c).arrAt 2 cfg0.N (ix3 b (⟨9 * n.val + j.val, by omega⟩ : Fin 90112) ch) := by
  unfold Pipeline.afterTail₀
  show StableHlo.after hostOps1 _ (Proc.devRef .tc main_v25) (ix4 b n j ch) = _
  refine (congrFun (tail_feat_after _) (ix4 b n j ch)).trans ?_
  -- the re-laying keeps the row-major position: ((b · 10000 + n) · 9 + j) · 256 + ch = (b · 90000 + (9 n + j)) · 256 + ch
  refine (shapeCast_apply _ _ (ix4 b n j ch) (ix3 b (⟨9 * n.val + j.val, by omega⟩ : Fin 90000) ch) ?_).trans ?_
  · rw [Shape.rowMajor_val_three, Shape.rowMajor_val_four]
    show ((b.val * 90000 + (9 * n.val + j.val)) * 256 + ch.val) = (((b.val * 10000 + n.val) * 9 + j.val) * 256 + ch.val)
    omega
  -- the cut starts at the origin
  refine (extractStridedSlice_apply _ _ _ (ix3 b (⟨9 * n.val + j.val, by omega⟩ : Fin 90000) ch) (ix3 b (⟨9 * n.val + j.val, by omega⟩ : Fin 90112) ch) ?_).trans ?_
  · intro a
    match a with
    | ⟨0, _⟩ => show b.val = 0 + b.val; omega
    | ⟨1, _⟩ => show 9 * n.val + j.val = 0 + (9 * n.val + j.val); omega
    | ⟨2, _⟩ => show ch.val = 0 + ch.val; omega
  -- the call's result is the third window's array
  exact congrFun (Pipeline.withArrays_arr spec0 launch0.win.arr_inj c _ _ 2) _

end Cert.KernelIdeal.Hand

end
-- ==== Proof.Finite.lean ====
import proofs.«400533_j52055003628262_4_alg».proof.Defs
import proofs.«400533_j52055003628262_4_alg».proof.Proof.Gen.Pre_finite_inputs
import Idealize.ShloMosaic.Lib.ReduceAll
import Idealize.ShloMosaic.Lib.ValueIdx

/-!
# From "every float input is finite" to "every entry is a real number"

The precondition is the printed predicate `Cert.Pre_finite_inputs.fn` being all ones: the conjunction, over the four
argument arrays, of "every entry `x` has `|x| < +∞`". At the idealized instance a float is an extended real, `|x|` is
`max x (-x)`, and the pattern `0x7F800000` denotes `⊤`. So each conjunct says that no entry of its array is `⊤` or `⊥`,
that is, every entry is (the coercion of) a real number.

The reading goes from the outside in: the result at its one index is 1; an `and` of two bits is 1 only when both are;
a reduction by `and` over all axes that is 1 had a 1 at every index; a comparison `max x (-x) < ⊤` that is 1 excludes
`x = ⊤` and `x = ⊥`. Nothing is evaluated at the arrays' extents: every fact is a `∀ i`.
-/

noncomputable section

namespace Cert.Hand

open Idealize.ShloMosaic Idealize.SL.Sem

/-- The rank-0 shape has one index: two indices are functions out of the empty type `Fin 0`. -/
instance subsingleton_scalarIdx : Subsingleton Cert.Pre_finite_inputs.S_.Idx :=
  ⟨fun a b => funext fun d => d.elim0⟩

/-- One element. An extended real `x` with `|x| < +∞`, the bound written as the f32 pattern of `+∞`, is a real number:
    the pattern denotes `⊤`; at `x = ⊤` the maximum `max x (-x)` is `⊤`, and at `x = ⊥` it is `-⊥ = ⊤` again, so in
    both the strict comparison with `⊤` fails. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One element of one array, in the printed spelling: the comparison of `|x|` with the scalar `+∞` broadcast to the
    array's shape, read at index `i`, compares `max (x i) (-(x i))` with what the pattern denotes. -/
theorem real_of_cmp_one {s : Shape} (x : FVec Ideal s .f32)
    (bc : Cert.Pre_finite_inputs.S_.BroadcastsInDim s (![] : Fin 0 → Fin s.rank)) (i : s.Idx)
    (h : cmpf .olt (Host.absf x)
        (broadcastInDim s ![] bc (constant Cert.Pre_finite_inputs.S_ .f32 0x7F800000#32)) i = 1#1) :
    ∃ r : ℝ, x i = (r : EReal) :=
  real_of_abs_lt_inf (x i) h

/-- One array: if the reduction by `and` over all axes of the mask `|x| < +∞` is 1, every entry of `x` is a real
    number. The reduction's result has one index, so every entry of the mask reduces into it and is 1. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] bc (constant Cert.Pre_finite_inputs.S_ .f32 0x7F800000#32)))
        (constantI Cert.Pre_finite_inputs.S_ 1 1#1) hr hu ValueIdx.ix0 = 1#1) :
    ∀ i, ∃ r : ℝ, x i = (r : EReal) :=
  fun i => real_of_cmp_one x bc i (Host.reduce_andi_all _ _ hr hu ValueIdx.ix0 e i)

/-- The printed predicate, decoded: if it is all ones on four arrays, every entry of each of the four is a real number.
    The predicate is `((all₀ ∧ all₁) ∧ all₂) ∧ all₃` on bits; each `and` that is 1 gives both of its operands. -/
theorem real_of_fn [hP : Cert.Pre_finite_inputs.Facts]
    (a0 : FVec Ideal Cert.Pre_finite_inputs.S2x256x100x100 .f32) (a1 : FVec Ideal Cert.Pre_finite_inputs.S10000x3 .f32)
    (a2 : FVec Ideal Cert.Pre_finite_inputs.S2x10000x9x2 .f32) (a3 : FVec Ideal Cert.Pre_finite_inputs.S2x10000x18 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3⟩

/-- At the idealized kernel: under its precondition, on every device, every entry of argument arrays 0, 1 and 2 is a
    real number (array 3's entries are too; the law does not use them). -/
theorem finite_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  obtain ⟨f0, f1, f2, _⟩ := real_of_fn _ _ _ _ (h c)
  exact ⟨f0, f1, f2⟩

end Cert.Hand
-- ==== Proof.Bilinear.lean ====
/-
  Facts about the arithmetic of Proof/Spec.lean that hold for every extended real, and the identity between
  the one-sum form `gat` and the four-corner form `bil` of the bilinear value.

  * The four constants the programs spell are the reals 0, 1, 99 and 99.
  * The lower grid line `low x` is an INTEGER between 0 and 99 at every extended real `x`: the clip absorbs
    both infinities (`-∞` goes to 0, `+∞` to 99) and the floor of a real is an integer. Hence the upper grid
    line `high x`, which is `low x` at the edge and `low x + 1` where `low x < 99`, that is `low x ≤ 98`, is an
    integer between 0 and 99 too, and both convert to 32-bit integers below 100.
  * At a real coordinate the two weights `frac` and `cofrac` are reals.
  * `row * 100 + column` does not wrap in 32 bits when both are below 100, and the weight `hit k cell wgt` is
    `wgt` exactly at `k = cell` and `0` elsewhere.
  * With every quantity real, multiplication distributes over the four corner weights, the sum over the 10000
    cells splits into four sums, and each of those keeps the single term of its own cell. Two corner cells
    may coincide (at the edge the upper line is the lower line): splitting the sum first needs no case
    analysis for that.
  * The sampling coordinate built from real inputs is a real: a real divided by the real 8.
-/
import proofs.«400533_j52055003628262_4_alg».proof.Proof.Spec

noncomputable section

namespace Cert.Spec

open Idealize.ShloMosaic

/-! ### The constants -/

/-- The pattern of `+0.0` denotes `0`. -/
theorem k0_eq : k0 = 0 := by
  simp [k0, Ideal.ofBits, Ideal.ieee]

/-- The pattern `0x3F800000` (exponent 127, significand 0) denotes `1`. -/
theorem k1_eq : k1 = 1 := by
  simp [k1, Ideal.ofBits, Ideal.ieee, -EReal.coe_mul]; norm_num

/-- The pattern `0x42C60000` (exponent 133, significand `0x460000`) denotes `(2^23 + 0x460000) · 2^(-17) = 99`. -/
theorem k99_eq : k99 = ((99 : ℝ) : EReal) := by
  simp [k99, Ideal.ofBits, Ideal.ieee, -EReal.coe_mul]; norm_num

/-- The 32-bit integer 99, read signed, is the real `99`. -/
theorem k99i_eq : k99i = ((99 : ℝ) : EReal) := by
  simp [k99i]

/-- The pattern `0x41000000` (exponent 130, significand 0) denotes `8`. -/
theorem c8_eq : Ideal.ofBits .f32 0x41000000#32 = ((8 : ℝ) : EReal) := by
  simp [Ideal.ofBits, Ideal.ieee, -EReal.coe_mul]; norm_num

/-- The pattern `0x42800000` (exponent 133, significand 0) denotes `64`. -/
theorem c64_eq : Ideal.ofBits .f32 0x42800000#32 = ((64 : ℝ) : EReal) := by
  simp [Ideal.ofBits, Ideal.ieee, -EReal.coe_mul]; norm_num

/-- The pattern `0x3DCCCCCD` has exponent 123, neither 0 nor 255: it denotes a real (the one nearest `0.1`). -/
theorem ctenth_real : ∃ r : ℝ, Ideal.ofBits .f32 0x3DCCCCCD#32 = (r : EReal) := by
  simp [Ideal.ofBits, Ideal.ieee, -EReal.coe_mul]

/-! ### The grid lines -/

/-- A select on the bit of a decidable proposition is the conditional on that proposition. -/
theorem select_ofBool {α : Type} (p : Prop) [Decidable p] (a b : α) :
    Scalar.select (BitVec.ofBool (decide p)) a b = if p then a else b := by
  by_cases hp : p <;> simp [Scalar.select, hp]

theorem high_eq (x : EReal) : high x = if k99 ≤ low x then low x else low x + k1 :=
  select_ofBool _ _ _

theorem pinned_eq (x : EReal) : pinned x = if k99 ≤ low x then low x else x :=
  select_ofBool _ _ _

/-- The lower grid line is an integer in `[0, 99]`: `0` at `-∞`, `99` at `+∞`, and at a real `r` the integer
    `min 99 (max 0 ⌊r⌋)` (the casts of the integers to the reals and on to the extended reals are monotone, so
    they commute with `min` and `max`). -/
theorem low_int (x : EReal) : ∃ n : ℤ, low x = (((n : ℤ) : ℝ) : EReal) ∧ 0 ≤ n ∧ n ≤ 99 := by
  have hmono : Monotone (fun r : ℝ => (r : EReal)) := EReal.coe_strictMono.monotone
  induction x using EReal.rec with
  | bot =>
    refine ⟨0, ?_, le_refl _, by norm_num⟩
    rw [low, k0_eq, k99i_eq, Ideal.liftRound_bot, max_eq_left bot_le, min_eq_right]
    · simp
    · exact_mod_cast (by norm_num : (0 : ℝ) ≤ 99)
  | top =>
    refine ⟨99, ?_, by norm_num, le_refl _⟩
    rw [low, k0_eq, k99i_eq, Ideal.liftRound_top, max_eq_right le_top, min_eq_left le_top]
    simp
  | coe r =>
    refine ⟨min 99 (max 0 ⌊r⌋), ?_, le_min (by norm_num) (le_max_left _ _), min_le_left _ _⟩
    rw [low, k0_eq, k99i_eq, Ideal.liftRound_coe, Int.cast_min, Int.cast_max, hmono.map_min, hmono.map_max]
    simp

/-- The upper grid line is an integer in `[0, 99]`: with `low x = n`, it is `n` when `99 ≤ n` and `n + 1`
    otherwise, and then `n ≤ 98`. -/
theorem high_int (x : EReal) : ∃ n : ℤ, high x = (((n : ℤ) : ℝ) : EReal) ∧ 0 ≤ n ∧ n ≤ 99 := by
  obtain ⟨n, hn, h0, h99⟩ := low_int x
  rw [high_eq, hn, k99_eq, k1_eq]
  by_cases he : (99 : ℤ) ≤ n
  · refine ⟨n, ?_, h0, h99⟩
    rw [if_pos]
    exact_mod_cast he
  · refine ⟨n + 1, ?_, by omega, by omega⟩
    rw [if_neg]
    · push_cast; rfl
    · intro hc
      exact he (by exact_mod_cast hc)

theorem low_real (x : EReal) : ∃ r : ℝ, low x = (r : EReal) ∧ 0 ≤ r ∧ r ≤ 99 := by
  obtain ⟨n, hn, h0, h99⟩ := low_int x
  exact ⟨n, hn, by exact_mod_cast h0, by exact_mod_cast h99⟩

theorem high_real (x : EReal) : ∃ r : ℝ, high x = (r : EReal) ∧ 0 ≤ r ∧ r ≤ 99 := by
  obtain ⟨n, hn, h0, h99⟩ := high_int x
  exact ⟨n, hn, by exact_mod_cast h0, by exact_mod_cast h99⟩

/-- An integer in `[0, 99]` converts to the 32-bit integer of the same value: it is its own integer part, it
    lies inside the clamp `[-2^31, 2^31 - 1]`, and it is below `2^32`. -/
theorem fptosi_int (n : ℤ) (h0 : 0 ≤ n) (h99 : n ≤ 99) :
    (Ideal.fptosi 32 (((n : ℤ) : ℝ) : EReal)).toNat = n.toNat := by
  rw [Ideal.fptosi, Ideal.toIntClamped_coe, if_pos (by exact_mod_cast h0), Int.floor_intCast]
  have hc : max (-((2 ^ (32 - 1) : ℕ) : ℤ)) (min (((2 ^ (32 - 1) : ℕ) : ℤ) - 1) n) = n := by
    norm_num
    omega
  rw [hc, BitVec.toNat_ofInt]
  omega

theorem ilow_lt (x : EReal) : (ilow x).toNat < 100 := by
  obtain ⟨n, hn, h0, h99⟩ := low_int x
  rw [ilow, hn, fptosi_int n h0 h99]
  omega

theorem ihigh_lt (x : EReal) : (ihigh x).toNat < 100 := by
  obtain ⟨n, hn, h0, h99⟩ := high_int x
  rw [ihigh, hn, fptosi_int n h0 h99]
  omega

/-! ### The weights -/

/-- At a real coordinate `r` with lower grid line `l` the upper weight is `l - l` at the edge and `r - l`
    elsewhere: a real. -/
theorem frac_real (x : EReal) (hx : ∃ r : ℝ, x = (r : EReal)) : ∃ r : ℝ, frac x = (r : EReal) := by
  obtain ⟨r, rfl⟩ := hx
  obtain ⟨l, hl, -, -⟩ := low_real (r : EReal)
  rw [frac, pinned_eq, hl]
  split_ifs
  · exact ⟨l - l, EReal.coe_sub l l⟩
  · exact ⟨r - l, EReal.coe_sub r l⟩

theorem cofrac_real (x : EReal) (hx : ∃ r : ℝ, x = (r : EReal)) : ∃ r : ℝ, cofrac x = (r : EReal) := by
  obtain ⟨f, hf⟩ := frac_real x hx
  rw [cofrac, hf, k1_eq]
  exact ⟨1 - f, by rw [EReal.coe_sub, EReal.coe_one]⟩

/-! ### The flattened cell and the weight placed at it -/

/-- `row * 100 + column ≤ 99 * 100 + 99 < 2^32`: neither the product nor the sum wraps. -/
theorem flat_toNat (r c : BitVec 32) (hr : r.toNat < 100) (hc : c.toNat < 100) :
    (flat r c).toNat = r.toNat * 100 + c.toNat := by
  rw [flat, IntOp.addi, IntOp.muli, BitVec.toNat_add, BitVec.toNat_mul, BitVec.toNat_ofNat]
  omega

/-- The weight placed at `cell`: a cell number `k < 10000 < 2^32` is the 32-bit word `cell` exactly when it is
    the number `cell` denotes. -/
theorem hit_eq (k : Fin 10000) (cell : BitVec 32) (wgt : EReal) :
    hit k cell wgt = if k.val = cell.toNat then wgt else 0 := by
  have hiff : BitVec.ofNat 32 k.val = cell ↔ k.val = cell.toNat := by
    constructor
    · intro h
      rw [← h, BitVec.toNat_ofNat]
      have := k.isLt
      omega
    · intro h
      rw [h]
      simp
  rw [hit, k0_eq]
  by_cases h : k.val = cell.toNat
  · rw [if_pos h, hiff.mpr h]
    simp [IntOp.cmpi, Scalar.select]
  · have hne : ¬ BitVec.ofNat 32 k.val = cell := fun e => h (hiff.mp e)
    have hb : (BitVec.ofNat 32 k.val == cell) = false := beq_false_of_ne hne
    rw [if_neg h]
    simp [IntOp.cmpi, Scalar.select, hb]

theorem hit_real (k : Fin 10000) (cell : BitVec 32) {wgt : EReal} (hw : ∃ r : ℝ, wgt = (r : EReal)) :
    ∃ r : ℝ, hit k cell wgt = (r : EReal) := by
  obtain ⟨u, rfl⟩ := hw
  rw [hit_eq]
  split_ifs
  · exact ⟨u, rfl⟩
  · exact ⟨0, rfl⟩

theorem mul_real {a b : EReal} (ha : ∃ r : ℝ, a = (r : EReal)) (hb : ∃ r : ℝ, b = (r : EReal)) :
    ∃ r : ℝ, a * b = (r : EReal) := by
  obtain ⟨a, rfl⟩ := ha
  obtain ⟨b, rfl⟩ := hb
  exact ⟨a * b, (EReal.coe_mul a b).symm⟩

/-- Multiplication distributes over a sum of four REALS (on the extended reals it does not in general:
    `(⊤ + ⊥) · t` is not `⊤ · t + ⊥ · t`). -/
theorem add4_mul {a b c d t : EReal} (ha : ∃ r : ℝ, a = (r : EReal)) (hb : ∃ r : ℝ, b = (r : EReal))
    (hc : ∃ r : ℝ, c = (r : EReal)) (hd : ∃ r : ℝ, d = (r : EReal)) (ht : ∃ r : ℝ, t = (r : EReal)) :
    (((a + b) + c) + d) * t = ((a * t + b * t) + c * t) + d * t := by
  obtain ⟨a, rfl⟩ := ha
  obtain ⟨b, rfl⟩ := hb
  obtain ⟨c, rfl⟩ := hc
  obtain ⟨d, rfl⟩ := hd
  obtain ⟨t, rfl⟩ := ht
  exact_mod_cast (by ring : (((a + b) + c) + d) * t = ((a * t + b * t) + c * t) + d * t)

/-- A weight placed at one cell, contracted with a table over all 10000 cells, is the weight times the table's
    entry at that cell: every other term is `0 · t = 0`. No finiteness is needed. -/
theorem sum_hit (cell : BitVec 32) (hc : cell.toNat < 10000) (wgt : EReal) (tbl : Fin 10000 → EReal) :
    ∑ k : Fin 10000, hit k cell wgt * tbl k = wgt * tbl ⟨cell.toNat, hc⟩ := by
  have hpt : ∀ k : Fin 10000, hit k cell wgt * tbl k = if k = ⟨cell.toNat, hc⟩ then wgt * tbl k else 0 := by
    intro k
    rw [hit_eq]
    by_cases h : k.val = cell.toNat
    · rw [if_pos h, if_pos (Fin.ext h)]
    · rw [if_neg h, if_neg (fun e => h (congrArg Fin.val e)), zero_mul]
  rw [Finset.sum_congr rfl (fun k _ => hpt k), Finset.sum_ite_eq', if_pos (Finset.mem_univ _)]

/-- The same with the table a flattened 100 × 100 table and the cell `row * 100 + column`: the quotient and the
    remainder by 100 give the row and the column back. -/
theorem sum_hit_flat (f : Fin 100 → Fin 100 → EReal) (r c : BitVec 32) (hr : r.toNat < 100) (hc : c.toNat < 100)
    (wgt : EReal) :
    ∑ k : Fin 10000, hit k (flat r c) wgt * f ⟨k.val / 100, by omega⟩ ⟨k.val % 100, Nat.mod_lt _ (by decide)⟩
      = wgt * f (cellOf r) (cellOf c) := by
  have hfl := flat_toNat r c hr hc
  rw [sum_hit (flat r c) (by omega) wgt
    (fun k => f ⟨k.val / 100, by omega⟩ ⟨k.val % 100, Nat.mod_lt _ (by decide)⟩)]
  have h1 : (⟨(flat r c).toNat / 100, by omega⟩ : Fin 100) = cellOf r := by
    apply Fin.ext
    simp only [cellOf]
    omega
  have h2 : (⟨(flat r c).toNat % 100, Nat.mod_lt _ (by decide)⟩ : Fin 100) = cellOf c := by
    apply Fin.ext
    simp only [cellOf]
    omega
  show wgt * f ⟨(flat r c).toNat / 100, _⟩ ⟨(flat r c).toNat % 100, _⟩ = _
  rw [h1, h2]

/-! ### The one-sum form is the four-corner form -/

/-- With a real table and real coordinates: distribute the table's entry over the four corner weights at every
    cell, split the sum over the cells into four, and keep in each the term of its own cell. The association of
    the four terms is `mix`'s, which is `bil`'s. -/
theorem gat_eq_bil (f : Fin 100 → Fin 100 → EReal) (h w : EReal)
    (hf : ∀ y x, ∃ r : ℝ, f y x = (r : EReal)) (hh : ∃ r : ℝ, h = (r : EReal)) (hw : ∃ r : ℝ, w = (r : EReal)) :
    gat (fun k => f ⟨k.val / 100, by omega⟩ ⟨k.val % 100, Nat.mod_lt _ (by decide)⟩) h w = bil f h w := by
  have hch := cofrac_real h hh
  have hfh := frac_real h hh
  have hcw := cofrac_real w hw
  have hfw := frac_real w hw
  have hdist : ∀ k : Fin 10000,
      mix h w k * f ⟨k.val / 100, by omega⟩ ⟨k.val % 100, Nat.mod_lt _ (by decide)⟩
        = ((hit k (flat (ilow h) (ilow w)) (cofrac h * cofrac w) * f ⟨k.val / 100, by omega⟩ ⟨k.val % 100, Nat.mod_lt _ (by decide)⟩
            + hit k (flat (ilow h) (ihigh w)) (cofrac h * frac w) * f ⟨k.val / 100, by omega⟩ ⟨k.val % 100, Nat.mod_lt _ (by decide)⟩)
            + hit k (flat (ihigh h) (ilow w)) (frac h * cofrac w) * f ⟨k.val / 100, by omega⟩ ⟨k.val % 100, Nat.mod_lt _ (by decide)⟩)
          + hit k (flat (ihigh h) (ihigh w)) (frac h * frac w) * f ⟨k.val / 100, by omega⟩ ⟨k.val % 100, Nat.mod_lt _ (by decide)⟩ := by
    intro k
    rw [mix]
    exact add4_mul (hit_real _ _ (mul_real hch hcw)) (hit_real _ _ (mul_real hch hfw))
      (hit_real _ _ (mul_real hfh hcw)) (hit_real _ _ (mul_real hfh hfw)) (hf _ _)
  rw [gat, Finset.sum_congr rfl (fun k _ => hdist k), Finset.sum_add_distrib, Finset.sum_add_distrib,
    Finset.sum_add_distrib,
    sum_hit_flat f _ _ (ilow_lt h) (ilow_lt w), sum_hit_flat f _ _ (ilow_lt h) (ihigh_lt w),
    sum_hit_flat f _ _ (ihigh_lt h) (ilow_lt w), sum_hit_flat f _ _ (ihigh_lt h) (ihigh_lt w), bil]

/-! ### The sampling coordinate -/

/-- `(u + v · 64 · t) / 8` with `u`, `v`, `t` real: division by the nonzero real `8` is multiplication by the
    real `1/8`. -/
theorem coord_real (a1 : Fin 10000 → Fin 3 → EReal) (a2 : Fin 2 → Fin 10000 → Fin 9 → Fin 2 → EReal)
    (h1 : ∀ n d, ∃ r : ℝ, a1 n d = (r : EReal)) (h2 : ∀ b n j d, ∃ r : ℝ, a2 b n j d = (r : EReal))
    (b : Fin 2) (n : Fin 10000) (j : Fin 9) (d : Fin 2) : ∃ r : ℝ, coord a1 a2 b n j d = (r : EReal) := by
  obtain ⟨u, hu⟩ := h1 n ⟨d.val, by omega⟩
  obtain ⟨v, hv⟩ := h2 b n j d
  obtain ⟨t, ht⟩ := ctenth_real
  rw [coord, hu, hv, ht, c64_eq, c8_eq, Ideal.div_coe (by norm_num)]
  exact ⟨(u + v * 64 * t) * (1 / 8), by push_cast; rfl⟩

end Cert.Spec

end
-- ==== Proof.RefFeat.lean ====
/-
  The reference's first result at one entry: the four-corner bilinear sum of the sampling point, read off the feature map.

  The reference computes, for each of the 90000 points of a batch, the two sampling coordinates, their clipped floors
  and the edge-pinned upper grid lines and weights, gathers the feature map at the four surrounding cells for all 256
  channels at once, and adds the four weighted values. Read at one entry this is `Spec.bil` of the feature map of
  that batch and channel at the point's two coordinates. The operations that move data (reshape, slice, broadcast,
  transpose) are read at an index through the generated stage lemmas; the gathers and the concatenations that build
  their index vectors are read by hand from their definitions.
-/
import proofs.«400533_j52055003628262_4_alg».proof.Proof.RefRun
import proofs.«400533_j52055003628262_4_alg».proof.Proof.RefRead
import proofs.«400533_j52055003628262_4_alg».proof.Proof.Spec
import proofs.«400533_j52055003628262_4_alg».proof.Proof.Bilinear
import Idealize.ShloMosaic.Lib.ValueIdx
import Idealize.ShloMosaic.Lib.Pipeline.Value

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Cert.ReferenceIdeal.ReadP

/-! ### The scalar arithmetic of one point

At every flattened point `i` the reference's clip, compare, select, subtract and convert operations compute, of
the row coordinate `h = main_v14 i` and the column coordinate `w = main_v12 i`, exactly the grid lines and weights
of Proof/Spec.lean: the clip is `max 0` then `min 99` with the 99 converted from the integer, the edge test
compares with the float 99, and the floor of the host is the floor of the extended reals. -/

section Scalars
variable (x1 : (⟨S10000x3, .f32⟩ : BufTy).Contents (Elt Ideal)) (x2 : (⟨S2x10000x9x2, .f32⟩ : BufTy).Contents (Elt Ideal))
  (i : S2x90000.Idx)

theorem low_h : val_main_v16 (F := Ideal) x1 x2 i = Cert.Spec.low (val_main_v14 (F := Ideal) x1 x2 i) := by
  rw [val_main_v16_apply, val_main_call0_v4_apply, val_main_call0_v3_apply, val_main_c_apply, val_main_call0_v2_apply,
    val_main_call0_v1_apply, val_main_call0_v0_apply, val_main_cst_2_apply, val_main_v15_apply]
  rfl

theorem low_w : val_main_v26 (F := Ideal) x1 x2 i = Cert.Spec.low (val_main_v12 (F := Ideal) x1 x2 i) := by
  rw [val_main_v26_apply, val_main_call3_v4_apply, val_main_call3_v3_apply, val_main_c_7_apply, val_main_call3_v2_apply,
    val_main_call3_v1_apply, val_main_call3_v0_apply, val_main_cst_6_apply, val_main_v25_apply]
  rfl

theorem high_h : val_main_v21 (F := Ideal) x1 x2 i = Cert.Spec.high (val_main_v14 (F := Ideal) x1 x2 i) := by
  rw [val_main_v21_apply, val_main_v18_apply, val_main_v17_apply, val_main_cst_3_apply, val_main_v20_apply,
    val_main_v19_apply, val_main_cst_4_apply, low_h]
  rfl

theorem high_w : val_main_v31 (F := Ideal) x1 x2 i = Cert.Spec.high (val_main_v12 (F := Ideal) x1 x2 i) := by
  rw [val_main_v31_apply, val_main_v28_apply, val_main_v27_apply, val_main_cst_8_apply, val_main_v30_apply,
    val_main_v29_apply, val_main_cst_9_apply, low_w]
  rfl

theorem pinned_h : val_main_v24 (F := Ideal) x1 x2 i = Cert.Spec.pinned (val_main_v14 (F := Ideal) x1 x2 i) := by
  rw [val_main_v24_apply, val_main_v23_apply, val_main_v22_apply, val_main_cst_5_apply, low_h]
  rfl

theorem pinned_w : val_main_v34 (F := Ideal) x1 x2 i = Cert.Spec.pinned (val_main_v12 (F := Ideal) x1 x2 i) := by
  rw [val_main_v34_apply, val_main_v33_apply, val_main_v32_apply, val_main_cst_10_apply, low_w]
  rfl

theorem frac_h : val_main_v39 (F := Ideal) x1 x2 i = Cert.Spec.frac (val_main_v14 (F := Ideal) x1 x2 i) := by
  rw [val_main_v39_apply, pinned_h, low_h]
  rfl

theorem frac_w : val_main_v40 (F := Ideal) x1 x2 i = Cert.Spec.frac (val_main_v12 (F := Ideal) x1 x2 i) := by
  rw [val_main_v40_apply, pinned_w, low_w]
  rfl

theorem cofrac_h : val_main_v42 (F := Ideal) x1 x2 i = Cert.Spec.cofrac (val_main_v14 (F := Ideal) x1 x2 i) := by
  rw [val_main_v42_apply, val_main_v41_apply, val_main_cst_11_apply, frac_h]
  rfl

theorem cofrac_w : val_main_v44 (F := Ideal) x1 x2 i = Cert.Spec.cofrac (val_main_v12 (F := Ideal) x1 x2 i) := by
  rw [val_main_v44_apply, val_main_v43_apply, val_main_cst_12_apply, frac_w]
  rfl

theorem ilow_h : val_main_v35 (F := Ideal) x1 x2 i = Cert.Spec.ilow (val_main_v14 (F := Ideal) x1 x2 i) := by
  rw [val_main_v35_apply, low_h]
  rfl

theorem ilow_w : val_main_v36 (F := Ideal) x1 x2 i = Cert.Spec.ilow (val_main_v12 (F := Ideal) x1 x2 i) := by
  rw [val_main_v36_apply, low_w]
  rfl

theorem ihigh_h : val_main_v37 (F := Ideal) x1 x2 i = Cert.Spec.ihigh (val_main_v14 (F := Ideal) x1 x2 i) := by
  rw [val_main_v37_apply, high_h]
  rfl

theorem ihigh_w : val_main_v38 (F := Ideal) x1 x2 i = Cert.Spec.ihigh (val_main_v12 (F := Ideal) x1 x2 i) := by
  rw [val_main_v38_apply, high_w]
  rfl

end Scalars

/-! ### Where each layout operation reads

The reshapes between `[2, 10000, 9, 2]`, `[2, 90000, 2]` and `[2, 90000]`, between `[2, 256, 90000]` and
`[2, 256, 10000, 9]`, the slices of one coordinate component, the transpose and the broadcasts, each read at the
coordinates of point `j` of location `n` in batch `b`: the flattened point number is `9 n + j`, and the quotients
and remainders of the row-major positions by the literal extents give the coordinates back. -/

section Indices
variable (b : Fin 2) (n : Fin 10000) (j : Fin 9) (ch : Fin 256) (P : Fin 90000)

/-- The flattened number of point j of location n among the 90000 points of a batch. -/
abbrev pt (n : Fin 10000) (j : Fin 9) : Fin 90000 := ⟨n.val * 9 + j.val, by omega⟩

theorem idx14 : idx_main_v14 (ix2 b P) = ix3 b P (0 : Fin 1) := by
  funext a; refine Fin.ext ?_
  have hb := b.isLt; have hP := P.isLt
  match a with
  | ⟨0, _⟩ => show (b.val * 90000 + P.val) / 90000 = b.val; omega
  | ⟨1, _⟩ => show (b.val * 90000 + P.val) / 1 % 90000 = P.val; omega
  | ⟨2, _⟩ => rfl

theorem idx12 : idx_main_v12 (ix2 b P) = ix3 b P (0 : Fin 1) := by
  funext a; refine Fin.ext ?_
  have hb := b.isLt; have hP := P.isLt
  match a with
  | ⟨0, _⟩ => show (b.val * 90000 + P.val) / 90000 = b.val; omega
  | ⟨1, _⟩ => show (b.val * 90000 + P.val) / 1 % 90000 = P.val; omega
  | ⟨2, _⟩ => rfl

theorem idx13 : idx_main_v13 (ix3 b P (0 : Fin 1)) = ix3 b P (1 : Fin 2) := by
  funext a; refine Fin.ext ?_
  match a with
  | ⟨0, _⟩ => rfl
  | ⟨1, _⟩ => rfl
  | ⟨2, _⟩ => rfl

theorem idx11 : idx_main_v11 (ix3 b P (0 : Fin 1)) = ix3 b P (0 : Fin 2) := by
  funext a; refine Fin.ext ?_
  match a with
  | ⟨0, _⟩ => rfl
  | ⟨1, _⟩ => rfl
  | ⟨2, _⟩ => rfl

theorem idx10 (d : Fin 2) : idx_main_v10 (ix3 b (pt n j) d) = ix4 b n j d := by
  funext a; refine Fin.ext ?_
  have hb := b.isLt; have hn := n.isLt; have hj := j.isLt; have hd := d.isLt
  match a with
  | ⟨0, _⟩ => show ((b.val * 90000 + (n.val * 9 + j.val)) * 2 + d.val) / 180000 = b.val; omega
  | ⟨1, _⟩ => show ((b.val * 90000 + (n.val * 9 + j.val)) * 2 + d.val) / 18 % 10000 = n.val; omega
  | ⟨2, _⟩ => show ((b.val * 90000 + (n.val * 9 + j.val)) * 2 + d.val) / 2 % 9 = j.val; omega
  | ⟨3, _⟩ => show ((b.val * 90000 + (n.val * 9 + j.val)) * 2 + d.val) % 2 = d.val; omega

theorem idx6 (d : Fin 2) : idx_main_v0 (idx_main_v1 (idx_main_v6 (ix4 b n j d))) = ix2 n (⟨d.val, by omega⟩ : Fin 3) := by
  funext a; refine Fin.ext ?_
  match a with
  | ⟨0, _⟩ => rfl
  | ⟨1, _⟩ => rfl

theorem idx121 : idx_main_v120 (idx_main_v121 (ix4 b n j ch)) = ix3 b ch (pt n j) := by
  funext a; refine Fin.ext ?_
  have hb := b.isLt; have hn := n.isLt; have hj := j.isLt; have hc := ch.isLt
  match a with
  | ⟨0, _⟩ => show ((((b.val * 256 + ch.val) * 10000 + n.val) * 9 + j.val)) / 23040000 = b.val; omega
  | ⟨1, _⟩ => show ((((b.val * 256 + ch.val) * 10000 + n.val) * 9 + j.val)) / 90000 % 256 = ch.val; omega
  | ⟨2, _⟩ => show ((((b.val * 256 + ch.val) * 10000 + n.val) * 9 + j.val)) % 90000 = n.val * 9 + j.val; omega

theorem idx103 : idx_main_v102 (idx_main_v103 (ix3 b ch P)) = ix2 b P := by
  funext a; refine Fin.ext ?_
  match a with
  | ⟨0, _⟩ => rfl
  | ⟨1, _⟩ => rfl

theorem idx55 : idx_main_v55 (ix3 b P (0 : Fin 1)) = ix2 b P := by
  funext a; refine Fin.ext ?_
  match a with
  | ⟨0, _⟩ => rfl
  | ⟨1, _⟩ => rfl

end Indices

/-! ### The sampling coordinate

Component `d` of the sampling coordinate of a point is `(centre + offset · 64 · 0.1) / 8`, and the row and column
coordinates of the flattened point `9 n + j` are its components 1 and 0. -/

section Coord
variable (x1 : (⟨S10000x3, .f32⟩ : BufTy).Contents (Elt Ideal)) (x2 : (⟨S2x10000x9x2, .f32⟩ : BufTy).Contents (Elt Ideal))
  (b : Fin 2) (n : Fin 10000) (j : Fin 9)

theorem coord_at (d : Fin 2) :
    val_main_v9 (F := Ideal) x1 x2 (ix4 b n j d)
      = Cert.Spec.coord (fun n d => x1 (ix2 n d)) (fun b n j d => x2 (ix4 b n j d)) b n j d := by
  rw [val_main_v9_apply, val_main_v7_apply, val_main_v6_apply, val_main_v1_apply, val_main_v0_apply, val_main_v5_apply,
    val_main_v3_apply, val_main_v2_apply, val_main_cst_apply, val_main_v4_apply, val_main_cst_0_apply, val_main_v8_apply,
    val_main_cst_1_apply, idx6]
  rfl

theorem h_at : val_main_v14 (F := Ideal) x1 x2 (ix2 b (pt n j))
    = Cert.Spec.coord (fun n d => x1 (ix2 n d)) (fun b n j d => x2 (ix4 b n j d)) b n j (1 : Fin 2) := by
  rw [val_main_v14_apply, idx14, val_main_v13_apply, idx13, val_main_v10_apply, idx10, coord_at]

theorem w_at : val_main_v12 (F := Ideal) x1 x2 (ix2 b (pt n j))
    = Cert.Spec.coord (fun n d => x1 (ix2 n d)) (fun b n j d => x2 (ix4 b n j d)) b n j (0 : Fin 2) := by
  rw [val_main_v12_apply, idx12, val_main_v11_apply, idx11, val_main_v10_apply, idx10, coord_at]

end Coord

/-! ### The gather read at an index

The gather's dimension numbers: batch axis 0 of the operand paired with batch axis 0 of the indices, the 256
channels the one offset axis, the two 100-long axes collapsed and addressed by the two components of the index
vector. At result index `(b, ch, p)` the operand index is therefore `(b, ch, r, c)` with `r`, `c` the two index
components at `(b, p)` read signed and clamped into `[0, 99]`. One lemma per operand axis, stated at the literal
axis, then the four put together. -/

section Gather

theorem gd_batch0 : (0 : Fin S2x256x100x100.rank) ∈ gather_S2x256x100x100_S2x90000x2_S2x256x90000_1_23_0_0_23_2_125611.operandBatchingDims := by
  show (0 : Fin 4) ∈ ([0] : List (Fin 4)); decide
theorem gd_batch1 : ¬ (1 : Fin S2x256x100x100.rank) ∈ gather_S2x256x100x100_S2x90000x2_S2x256x90000_1_23_0_0_23_2_125611.operandBatchingDims := by
  show ¬ (1 : Fin 4) ∈ ([0] : List (Fin 4)); decide
theorem gd_batch2 : ¬ (2 : Fin S2x256x100x100.rank) ∈ gather_S2x256x100x100_S2x90000x2_S2x256x90000_1_23_0_0_23_2_125611.operandBatchingDims := by
  show ¬ (2 : Fin 4) ∈ ([0] : List (Fin 4)); decide
theorem gd_batch3 : ¬ (3 : Fin S2x256x100x100.rank) ∈ gather_S2x256x100x100_S2x90000x2_S2x256x90000_1_23_0_0_23_2_125611.operandBatchingDims := by
  show ¬ (3 : Fin 4) ∈ ([0] : List (Fin 4)); decide
theorem gd_coll1 : ¬ (1 : Fin S2x256x100x100.rank) ∈ gather_S2x256x100x100_S2x90000x2_S2x256x90000_1_23_0_0_23_2_125611.collapsedSliceDims := by
  show ¬ (1 : Fin 4) ∈ ([2, 3] : List (Fin 4)); decide
theorem gd_coll2 : (2 : Fin S2x256x100x100.rank) ∈ gather_S2x256x100x100_S2x90000x2_S2x256x90000_1_23_0_0_23_2_125611.collapsedSliceDims := by
  show (2 : Fin 4) ∈ ([2, 3] : List (Fin 4)); decide
theorem gd_coll3 : (3 : Fin S2x256x100x100.rank) ∈ gather_S2x256x100x100_S2x90000x2_S2x256x90000_1_23_0_0_23_2_125611.collapsedSliceDims := by
  show (3 : Fin 4) ∈ ([2, 3] : List (Fin 4)); decide
theorem gd_map1 : ¬ (1 : Fin S2x256x100x100.rank) ∈ gather_S2x256x100x100_S2x90000x2_S2x256x90000_1_23_0_0_23_2_125611.startIndexMap := by
  show ¬ (1 : Fin 4) ∈ ([2, 3] : List (Fin 4)); decide
theorem gd_map2 : (2 : Fin S2x256x100x100.rank) ∈ gather_S2x256x100x100_S2x90000x2_S2x256x90000_1_23_0_0_23_2_125611.startIndexMap := by
  show (2 : Fin 4) ∈ ([2, 3] : List (Fin 4)); decide
theorem gd_map3 : (3 : Fin S2x256x100x100.rank) ∈ gather_S2x256x100x100_S2x90000x2_S2x256x90000_1_23_0_0_23_2_125611.startIndexMap := by
  show (3 : Fin 4) ∈ ([2, 3] : List (Fin 4)); decide

variable {w : Nat} (idx : IVec S2x90000x2 w) (b : Fin 2) (ch : Fin 256) (p : Fin 90000)

theorem gather_axis0 :
    gather_S2x256x100x100_S2x90000x2_S2x256x90000_1_23_0_0_23_2_125611.start (ix3 b ch p) idx 0
      + gather_S2x256x100x100_S2x90000x2_S2x256x90000_1_23_0_0_23_2_125611.batchCoord (ix3 b ch p) 0
      + gather_S2x256x100x100_S2x90000x2_S2x256x90000_1_23_0_0_23_2_125611.offCoord (ix3 b ch p) 0 = b.val := by
  rw [GatherDims.start_batching _ _ _ _ gd_batch0,
    GatherDims.offCoord_eq_zero _ _ _ (fun h => ((GatherDims.mem_sKept _ _).mp h).2 gd_batch0)]
  unfold GatherDims.batchCoord
  rw [dif_pos gd_batch0, Nat.add_zero, Nat.zero_add]
  rfl

theorem gather_axis1 :
    gather_S2x256x100x100_S2x90000x2_S2x256x90000_1_23_0_0_23_2_125611.start (ix3 b ch p) idx 1
      + gather_S2x256x100x100_S2x90000x2_S2x256x90000_1_23_0_0_23_2_125611.batchCoord (ix3 b ch p) 1
      + gather_S2x256x100x100_S2x90000x2_S2x256x90000_1_23_0_0_23_2_125611.offCoord (ix3 b ch p) 1 = ch.val := by
  rw [GatherDims.batchCoord_eq_zero _ _ _ gd_batch1]
  unfold GatherDims.start
  rw [dif_neg gd_map1]
  unfold GatherDims.offCoord
  rw [dif_pos ((GatherDims.mem_sKept _ _).mpr ⟨gd_coll1, gd_batch1⟩)]
  simp only [Nat.zero_add]
  rfl

theorem gather_axis2 :
    gather_S2x256x100x100_S2x90000x2_S2x256x90000_1_23_0_0_23_2_125611.start (ix3 b ch p) idx 2
      + gather_S2x256x100x100_S2x90000x2_S2x256x90000_1_23_0_0_23_2_125611.batchCoord (ix3 b ch p) 2
      + gather_S2x256x100x100_S2x90000x2_S2x256x90000_1_23_0_0_23_2_125611.offCoord (ix3 b ch p) 2
      = min (idx (ix3 b p (0 : Fin 2))).toInt.toNat 99 := by
  rw [GatherDims.batchCoord_eq_zero _ _ _ gd_batch2,
    GatherDims.offCoord_eq_zero _ _ _ (fun h => ((GatherDims.mem_sKept _ _).mp h).1 gd_coll2)]
  unfold GatherDims.start
  rw [dif_pos gd_map2]
  have hsi : gather_S2x256x100x100_S2x90000x2_S2x256x90000_1_23_0_0_23_2_125611.siIdx (ix3 b ch p)
      ⟨List.idxOf (2 : Fin S2x256x100x100.rank) gather_S2x256x100x100_S2x90000x2_S2x256x90000_1_23_0_0_23_2_125611.startIndexMap,
        List.idxOf_lt_length_iff.2 gd_map2⟩ = ix3 b p (0 : Fin 2) := by
    funext a; refine Fin.ext ?_
    match a with
    | ⟨0, _⟩ => rfl
    | ⟨1, _⟩ => rfl
    | ⟨2, _⟩ => rfl
  rw [hsi]
  rfl

theorem gather_axis3 :
    gather_S2x256x100x100_S2x90000x2_S2x256x90000_1_23_0_0_23_2_125611.start (ix3 b ch p) idx 3
      + gather_S2x256x100x100_S2x90000x2_S2x256x90000_1_23_0_0_23_2_125611.batchCoord (ix3 b ch p) 3
      + gather_S2x256x100x100_S2x90000x2_S2x256x90000_1_23_0_0_23_2_125611.offCoord (ix3 b ch p) 3
      = min (idx (ix3 b p (1 : Fin 2))).toInt.toNat 99 := by
  rw [GatherDims.batchCoord_eq_zero _ _ _ gd_batch3,
    GatherDims.offCoord_eq_zero _ _ _ (fun h => ((GatherDims.mem_sKept _ _).mp h).1 gd_coll3)]
  unfold GatherDims.start
  rw [dif_pos gd_map3]
  have hsi : gather_S2x256x100x100_S2x90000x2_S2x256x90000_1_23_0_0_23_2_125611.siIdx (ix3 b ch p)
      ⟨List.idxOf (3 : Fin S2x256x100x100.rank) gather_S2x256x100x100_S2x90000x2_S2x256x90000_1_23_0_0_23_2_125611.startIndexMap,
        List.idxOf_lt_length_iff.2 gd_map3⟩ = ix3 b p (1 : Fin 2) := by
    funext a; refine Fin.ext ?_
    match a with
    | ⟨0, _⟩ => rfl
    | ⟨1, _⟩ => rfl
    | ⟨2, _⟩ => rfl
  rw [hsi]
  rfl

/-- The gather at (b, ch, p). -/
theorem gather_read {α : Type} (x : S2x256x100x100.Idx → α) :
    Host.gather gather_S2x256x100x100_S2x90000x2_S2x256x90000_1_23_0_0_23_2_125611 x idx (ix3 b ch p)
      = x (ix4 b ch ⟨min (idx (ix3 b p (0 : Fin 2))).toInt.toNat 99, by omega⟩
            ⟨min (idx (ix3 b p (1 : Fin 2))).toInt.toNat 99, by omega⟩) := by
  unfold Host.gather
  congr 1
  funext a
  refine Fin.ext ?_
  match a with
  | ⟨0, _⟩ => exact gather_axis0 idx b ch p
  | ⟨1, _⟩ => exact gather_axis1 idx b ch p
  | ⟨2, _⟩ => exact gather_axis2 idx b ch p
  | ⟨3, _⟩ => exact gather_axis3 idx b ch p

end Gather

/-! ### The two-piece index vector, and indices that are already in range

The index operand is the concatenation of two `[2, 90000, 1]` arrays along the last axis: its component 0 is the
first array, its component 1 the second. A 32-bit word below 100 is not negative read signed, so the wrap of
negative indices (`select (v < 0) (v + 100) v`) returns it, and clamping it into `[0, 99]` returns it too. -/

section Concat
variable {α : Type} (u v : S2x90000x1.Idx → α) (h : Shape.Concatenates [S2x90000x1, S2x90000x1] S2x90000x2 2)
  (b : Fin 2) (p : Fin 90000)

theorem concat_read0 :
    concatenate S2x90000x2 2 [⟨S2x90000x1, u⟩, ⟨S2x90000x1, v⟩] h (ix3 b p (0 : Fin 2)) = u (ix3 b p (0 : Fin 1)) := by
  refine concatenate_pair_apply_left _ u v h _ rfl (ix3 b p (0 : Fin 1)) (fun c => ?_)
  match c with
  | ⟨0, _⟩ => rfl
  | ⟨1, _⟩ => rfl
  | ⟨2, _⟩ => rfl

theorem concat_read1 :
    concatenate S2x90000x2 2 [⟨S2x90000x1, u⟩, ⟨S2x90000x1, v⟩] h (ix3 b p (1 : Fin 2)) = v (ix3 b p (0 : Fin 1)) := by
  refine concatenate_pair_apply_right _ u v h _ rfl rfl (ix3 b p (0 : Fin 1)) (fun c hc => ?_) ?_
  · match c with
    | ⟨0, _⟩ => rfl
    | ⟨1, _⟩ => rfl
    | ⟨2, _⟩ => exact absurd rfl hc
  · rfl

end Concat

section Wrap

/-- A 32-bit word below 100 is not negative read signed, so the wrap of a negative index leaves it alone. -/
theorem wrap_id (v : BitVec 32) (hv : v.toNat < 100) :
    Scalar.select (IntOp.cmpi .slt v 0#32) (IntOp.addi v 100#32) v = v := by
  have hi : v.toInt = (v.toNat : ℤ) := BitVec.toInt_eq_toNat_of_lt (by omega)
  have : BitVec.slt v 0#32 = false := by
    rw [BitVec.slt, hi]
    simp
  simp [IntOp.cmpi, Scalar.select, this]

/-- Read signed and clamped into [0, 99], a word below 100 is itself. -/
theorem clamp_id (v : BitVec 32) (hv : v.toNat < 100) : min v.toInt.toNat 99 = v.toNat := by
  have hi : v.toInt = (v.toNat : ℤ) := BitVec.toInt_eq_toNat_of_lt (by omega)
  rw [hi, Int.toNat_natCast]
  omega

end Wrap

/-! ### The eight wrapped grid lines

Each gather's two index components are a grid line (lower or upper, of the row or of the column coordinate) after
the wrap of negative indices; the grid lines are below 100, so the wrap does nothing. -/

section Wraps
variable (x1 : (⟨S10000x3, .f32⟩ : BufTy).Contents (Elt Ideal)) (x2 : (⟨S2x10000x9x2, .f32⟩ : BufTy).Contents (Elt Ideal))
  (i : S2x90000.Idx)

theorem wrap49 : val_main_v49 (F := Ideal) x1 x2 i = Cert.Spec.ilow (val_main_v14 (F := Ideal) x1 x2 i) := by
  rw [val_main_v49_apply, val_main_v46_apply, val_main_v45_apply, val_main_c_13_apply, val_main_v48_apply,
    val_main_v47_apply, val_main_c_14_apply, ilow_h]
  exact wrap_id _ (Cert.Spec.ilow_lt _)

theorem wrap54 : val_main_v54 (F := Ideal) x1 x2 i = Cert.Spec.ilow (val_main_v12 (F := Ideal) x1 x2 i) := by
  rw [val_main_v54_apply, val_main_v51_apply, val_main_v50_apply, val_main_c_15_apply, val_main_v53_apply,
    val_main_v52_apply, val_main_c_16_apply, ilow_w]
  exact wrap_id _ (Cert.Spec.ilow_lt _)

theorem wrap63 : val_main_v63 (F := Ideal) x1 x2 i = Cert.Spec.ilow (val_main_v14 (F := Ideal) x1 x2 i) := by
  rw [val_main_v63_apply, val_main_v60_apply, val_main_v59_apply, val_main_c_17_apply, val_main_v62_apply,
    val_main_v61_apply, val_main_c_18_apply, ilow_h]
  exact wrap_id _ (Cert.Spec.ilow_lt _)

theorem wrap68 : val_main_v68 (F := Ideal) x1 x2 i = Cert.Spec.ihigh (val_main_v12 (F := Ideal) x1 x2 i) := by
  rw [val_main_v68_apply, val_main_v65_apply, val_main_v64_apply, val_main_c_19_apply, val_main_v67_apply,
    val_main_v66_apply, val_main_c_20_apply, ihigh_w]
  exact wrap_id _ (Cert.Spec.ihigh_lt _)

theorem wrap77 : val_main_v77 (F := Ideal) x1 x2 i = Cert.Spec.ihigh (val_main_v14 (F := Ideal) x1 x2 i) := by
  rw [val_main_v77_apply, val_main_v74_apply, val_main_v73_apply, val_main_c_21_apply, val_main_v76_apply,
    val_main_v75_apply, val_main_c_22_apply, ihigh_h]
  exact wrap_id _ (Cert.Spec.ihigh_lt _)

theorem wrap82 : val_main_v82 (F := Ideal) x1 x2 i = Cert.Spec.ilow (val_main_v12 (F := Ideal) x1 x2 i) := by
  rw [val_main_v82_apply, val_main_v79_apply, val_main_v78_apply, val_main_c_23_apply, val_main_v81_apply,
    val_main_v80_apply, val_main_c_24_apply, ilow_w]
  exact wrap_id _ (Cert.Spec.ilow_lt _)

theorem wrap91 : val_main_v91 (F := Ideal) x1 x2 i = Cert.Spec.ihigh (val_main_v14 (F := Ideal) x1 x2 i) := by
  rw [val_main_v91_apply, val_main_v88_apply, val_main_v87_apply, val_main_c_25_apply, val_main_v90_apply,
    val_main_v89_apply, val_main_c_26_apply, ihigh_h]
  exact wrap_id _ (Cert.Spec.ihigh_lt _)

theorem wrap96 : val_main_v96 (F := Ideal) x1 x2 i = Cert.Spec.ihigh (val_main_v12 (F := Ideal) x1 x2 i) := by
  rw [val_main_v96_apply, val_main_v93_apply, val_main_v92_apply, val_main_c_27_apply, val_main_v95_apply,
    val_main_v94_apply, val_main_c_28_apply, ihigh_w]
  exact wrap_id _ (Cert.Spec.ihigh_lt _)

end Wraps

/-! ### The four corner values

Each gather at `(b, ch, p)` reads the feature map of batch `b`, channel `ch`, at the cell whose row and column are
that gather's two grid lines of point `p`. -/

section Corners
variable (x0 : (⟨S2x256x100x100, .f32⟩ : BufTy).Contents (Elt Ideal))
  (x1 : (⟨S10000x3, .f32⟩ : BufTy).Contents (Elt Ideal)) (x2 : (⟨S2x10000x9x2, .f32⟩ : BufTy).Contents (Elt Ideal))
  (b : Fin 2) (ch : Fin 256) (P : Fin 90000)

theorem idx56 : idx_main_v56 (ix3 b P (0 : Fin 1)) = ix2 b P := by
  funext a; refine Fin.ext ?_
  match a with
  | ⟨0, _⟩ => rfl
  | ⟨1, _⟩ => rfl

theorem idx69 : idx_main_v69 (ix3 b P (0 : Fin 1)) = ix2 b P := by
  funext a; refine Fin.ext ?_
  match a with
  | ⟨0, _⟩ => rfl
  | ⟨1, _⟩ => rfl

theorem idx70 : idx_main_v70 (ix3 b P (0 : Fin 1)) = ix2 b P := by
  funext a; refine Fin.ext ?_
  match a with
  | ⟨0, _⟩ => rfl
  | ⟨1, _⟩ => rfl

theorem idx83 : idx_main_v83 (ix3 b P (0 : Fin 1)) = ix2 b P := by
  funext a; refine Fin.ext ?_
  match a with
  | ⟨0, _⟩ => rfl
  | ⟨1, _⟩ => rfl

theorem idx84 : idx_main_v84 (ix3 b P (0 : Fin 1)) = ix2 b P := by
  funext a; refine Fin.ext ?_
  match a with
  | ⟨0, _⟩ => rfl
  | ⟨1, _⟩ => rfl

theorem idx97 : idx_main_v97 (ix3 b P (0 : Fin 1)) = ix2 b P := by
  funext a; refine Fin.ext ?_
  match a with
  | ⟨0, _⟩ => rfl
  | ⟨1, _⟩ => rfl

theorem idx98 : idx_main_v98 (ix3 b P (0 : Fin 1)) = ix2 b P := by
  funext a; refine Fin.ext ?_
  match a with
  | ⟨0, _⟩ => rfl
  | ⟨1, _⟩ => rfl

theorem corner58 : val_main_v58 (F := Ideal) x0 x1 x2 (ix3 b ch P)
    = x0 (ix4 b ch (Cert.Spec.cellOf (Cert.Spec.ilow (val_main_v14 (F := Ideal) x1 x2 (ix2 b P))))
        (Cert.Spec.cellOf (Cert.Spec.ilow (val_main_v12 (F := Ideal) x1 x2 (ix2 b P))))) := by
  unfold val_main_v58
  rw [gather_read]
  congr 1
  funext a; refine Fin.ext ?_
  match a with
  | ⟨0, _⟩ => rfl
  | ⟨1, _⟩ => rfl
  | ⟨2, _⟩ =>
    show min (val_main_v57 (F := Ideal) x1 x2 (ix3 b P (0 : Fin 2))).toInt.toNat 99 = _
    unfold val_main_v57
    rw [concat_read0, val_main_v55_apply, idx55, wrap49, clamp_id _ (Cert.Spec.ilow_lt _)]
    show _ = (Cert.Spec.ilow (val_main_v14 (F := Ideal) x1 x2 (ix2 b P))).toNat % 100
    have := Cert.Spec.ilow_lt (val_main_v14 (F := Ideal) x1 x2 (ix2 b P))
    omega
  | ⟨3, _⟩ =>
    show min (val_main_v57 (F := Ideal) x1 x2 (ix3 b P (1 : Fin 2))).toInt.toNat 99 = _
    unfold val_main_v57
    rw [concat_read1, val_main_v56_apply, idx56, wrap54, clamp_id _ (Cert.Spec.ilow_lt _)]
    show _ = (Cert.Spec.ilow (val_main_v12 (F := Ideal) x1 x2 (ix2 b P))).toNat % 100
    have := Cert.Spec.ilow_lt (val_main_v12 (F := Ideal) x1 x2 (ix2 b P))
    omega

theorem corner72 : val_main_v72 (F := Ideal) x0 x1 x2 (ix3 b ch P)
    = x0 (ix4 b ch (Cert.Spec.cellOf (Cert.Spec.ilow (val_main_v14 (F := Ideal) x1 x2 (ix2 b P))))
        (Cert.Spec.cellOf (Cert.Spec.ihigh (val_main_v12 (F := Ideal) x1 x2 (ix2 b P))))) := by
  unfold val_main_v72
  rw [gather_read]
  congr 1
  funext a; refine Fin.ext ?_
  match a with
  | ⟨0, _⟩ => rfl
  | ⟨1, _⟩ => rfl
  | ⟨2, _⟩ =>
    show min (val_main_v71 (F := Ideal) x1 x2 (ix3 b P (0 : Fin 2))).toInt.toNat 99 = _
    unfold val_main_v71
    rw [concat_read0, val_main_v69_apply, idx69, wrap63, clamp_id _ (Cert.Spec.ilow_lt _)]
    show _ = (Cert.Spec.ilow (val_main_v14 (F := Ideal) x1 x2 (ix2 b P))).toNat % 100
    have := Cert.Spec.ilow_lt (val_main_v14 (F := Ideal) x1 x2 (ix2 b P))
    omega
  | ⟨3, _⟩ =>
    show min (val_main_v71 (F := Ideal) x1 x2 (ix3 b P (1 : Fin 2))).toInt.toNat 99 = _
    unfold val_main_v71
    rw [concat_read1, val_main_v70_apply, idx70, wrap68, clamp_id _ (Cert.Spec.ihigh_lt _)]
    show _ = (Cert.Spec.ihigh (val_main_v12 (F := Ideal) x1 x2 (ix2 b P))).toNat % 100
    have := Cert.Spec.ihigh_lt (val_main_v12 (F := Ideal) x1 x2 (ix2 b P))
    omega

theorem corner86 : val_main_v86 (F := Ideal) x0 x1 x2 (ix3 b ch P)
    = x0 (ix4 b ch (Cert.Spec.cellOf (Cert.Spec.ihigh (val_main_v14 (F := Ideal) x1 x2 (ix2 b P))))
        (Cert.Spec.cellOf (Cert.Spec.ilow (val_main_v12 (F := Ideal) x1 x2 (ix2 b P))))) := by
  unfold val_main_v86
  rw [gather_read]
  congr 1
  funext a; refine Fin.ext ?_
  match a with
  | ⟨0, _⟩ => rfl
  | ⟨1, _⟩ => rfl
  | ⟨2, _⟩ =>
    show min (val_main_v85 (F := Ideal) x1 x2 (ix3 b P (0 : Fin 2))).toInt.toNat 99 = _
    unfold val_main_v85
    rw [concat_read0, val_main_v83_apply, idx83, wrap77, clamp_id _ (Cert.Spec.ihigh_lt _)]
    show _ = (Cert.Spec.ihigh (val_main_v14 (F := Ideal) x1 x2 (ix2 b P))).toNat % 100
    have := Cert.Spec.ihigh_lt (val_main_v14 (F := Ideal) x1 x2 (ix2 b P))
    omega
  | ⟨3, _⟩ =>
    show min (val_main_v85 (F := Ideal) x1 x2 (ix3 b P (1 : Fin 2))).toInt.toNat 99 = _
    unfold val_main_v85
    rw [concat_read1, val_main_v84_apply, idx84, wrap82, clamp_id _ (Cert.Spec.ilow_lt _)]
    show _ = (Cert.Spec.ilow (val_main_v12 (F := Ideal) x1 x2 (ix2 b P))).toNat % 100
    have := Cert.Spec.ilow_lt (val_main_v12 (F := Ideal) x1 x2 (ix2 b P))
    omega

theorem corner100 : val_main_v100 (F := Ideal) x0 x1 x2 (ix3 b ch P)
    = x0 (ix4 b ch (Cert.Spec.cellOf (Cert.Spec.ihigh (val_main_v14 (F := Ideal) x1 x2 (ix2 b P))))
        (Cert.Spec.cellOf (Cert.Spec.ihigh (val_main_v12 (F := Ideal) x1 x2 (ix2 b P))))) := by
  unfold val_main_v100
  rw [gather_read]
  congr 1
  funext a; refine Fin.ext ?_
  match a with
  | ⟨0, _⟩ => rfl
  | ⟨1, _⟩ => rfl
  | ⟨2, _⟩ =>
    show min (val_main_v99 (F := Ideal) x1 x2 (ix3 b P (0 : Fin 2))).toInt.toNat 99 = _
    unfold val_main_v99
    rw [concat_read0, val_main_v97_apply, idx97, wrap91, clamp_id _ (Cert.Spec.ihigh_lt _)]
    show _ = (Cert.Spec.ihigh (val_main_v14 (F := Ideal) x1 x2 (ix2 b P))).toNat % 100
    have := Cert.Spec.ihigh_lt (val_main_v14 (F := Ideal) x1 x2 (ix2 b P))
    omega
  | ⟨3, _⟩ =>
    show min (val_main_v99 (F := Ideal) x1 x2 (ix3 b P (1 : Fin 2))).toInt.toNat 99 = _
    unfold val_main_v99
    rw [concat_read1, val_main_v98_apply, idx98, wrap96, clamp_id _ (Cert.Spec.ihigh_lt _)]
    show _ = (Cert.Spec.ihigh (val_main_v12 (F := Ideal) x1 x2 (ix2 b P))).toNat % 100
    have := Cert.Spec.ihigh_lt (val_main_v12 (F := Ideal) x1 x2 (ix2 b P))
    omega

end Corners

/-! ### The four corner weights

Each weight is a product of a row weight and a column weight of the point, broadcast along the channels. -/

section Weights
variable (x1 : (⟨S10000x3, .f32⟩ : BufTy).Contents (Elt Ideal)) (x2 : (⟨S2x10000x9x2, .f32⟩ : BufTy).Contents (Elt Ideal))
  (b : Fin 2) (ch : Fin 256) (P : Fin 90000)

theorem idx107 : idx_main_v106 (idx_main_v107 (ix3 b ch P)) = ix2 b P := by
  funext a; refine Fin.ext ?_
  match a with
  | ⟨0, _⟩ => rfl
  | ⟨1, _⟩ => rfl

theorem idx112 : idx_main_v111 (idx_main_v112 (ix3 b ch P)) = ix2 b P := by
  funext a; refine Fin.ext ?_
  match a with
  | ⟨0, _⟩ => rfl
  | ⟨1, _⟩ => rfl

theorem idx117 : idx_main_v116 (idx_main_v117 (ix3 b ch P)) = ix2 b P := by
  funext a; refine Fin.ext ?_
  match a with
  | ⟨0, _⟩ => rfl
  | ⟨1, _⟩ => rfl

theorem weight00 : val_main_v103 (F := Ideal) x1 x2 (ix3 b ch P)
    = Cert.Spec.cofrac (val_main_v14 (F := Ideal) x1 x2 (ix2 b P)) * Cert.Spec.cofrac (val_main_v12 (F := Ideal) x1 x2 (ix2 b P)) := by
  rw [val_main_v103_apply, val_main_v102_apply, idx103, val_main_v101_apply, cofrac_h, cofrac_w]
  rfl

theorem weight01 : val_main_v107 (F := Ideal) x1 x2 (ix3 b ch P)
    = Cert.Spec.cofrac (val_main_v14 (F := Ideal) x1 x2 (ix2 b P)) * Cert.Spec.frac (val_main_v12 (F := Ideal) x1 x2 (ix2 b P)) := by
  rw [val_main_v107_apply, val_main_v106_apply, idx107, val_main_v105_apply, cofrac_h, frac_w]
  rfl

theorem weight10 : val_main_v112 (F := Ideal) x1 x2 (ix3 b ch P)
    = Cert.Spec.frac (val_main_v14 (F := Ideal) x1 x2 (ix2 b P)) * Cert.Spec.cofrac (val_main_v12 (F := Ideal) x1 x2 (ix2 b P)) := by
  rw [val_main_v112_apply, val_main_v111_apply, idx112, val_main_v110_apply, frac_h, cofrac_w]
  rfl

theorem weight11 : val_main_v117 (F := Ideal) x1 x2 (ix3 b ch P)
    = Cert.Spec.frac (val_main_v14 (F := Ideal) x1 x2 (ix2 b P)) * Cert.Spec.frac (val_main_v12 (F := Ideal) x1 x2 (ix2 b P)) := by
  rw [val_main_v117_apply, val_main_v116_apply, idx117, val_main_v115_apply, frac_h, frac_w]
  rfl

end Weights

/-! ### The four-term sum

Through the transpose and the reshape, entry `(b, n, j, ch)` of the result is entry `(b, ch, 9 n + j)` of the sum
`((t₁ + t₂) + t₃) + t₄`, each term a corner weight times a corner value: the four-corner bilinear sum as Proof/Spec.lean
associates it. -/

section Assembly
variable (x0 : (⟨S2x256x100x100, .f32⟩ : BufTy).Contents (Elt Ideal))
  (x1 : (⟨S10000x3, .f32⟩ : BufTy).Contents (Elt Ideal)) (x2 : (⟨S2x10000x9x2, .f32⟩ : BufTy).Contents (Elt Ideal))
  (b : Fin 2) (n : Fin 10000) (j : Fin 9) (ch : Fin 256)

theorem feat_at : val_main_v121 (F := Ideal) x0 x1 x2 (ix4 b n j ch)
    = Cert.Spec.bil (fun y x => x0 (ix4 b ch y x)) (val_main_v14 (F := Ideal) x1 x2 (ix2 b (pt n j)))
        (val_main_v12 (F := Ideal) x1 x2 (ix2 b (pt n j))) := by
  rw [val_main_v121_apply, val_main_v120_apply, idx121, val_main_v119_apply, val_main_v114_apply, val_main_v109_apply,
    val_main_v104_apply, val_main_v108_apply, val_main_v113_apply, val_main_v118_apply,
    weight00, weight01, weight10, weight11, corner58, corner72, corner86, corner100]
  rfl

end Assembly

variable (m : (ℓ : Loc nD τ sig) → Buf (Elt Ideal) ℓ)

/-- Entry (b, n, j, ch) of the reference's first result: point j of location n in batch b, sampled bilinearly from
    channel ch of batch b's feature map. The row coordinate is component 1 of the sampling coordinate, the column
    coordinate component 0. -/
theorem ref_feat (c : Dev nD) (b : Fin 2) (n : Fin 10000) (j : Fin 9) (ch : Fin 256) :
    Cert.ReferenceIdeal.ValueP.res_main_v121 (F := Ideal) m c (ix4 b n j ch)
      = Cert.Spec.bil (fun y x => m ((c.tc : Thread nD τ).loc main_arg0) (ix4 b ch y x))
          (Cert.Spec.coord (fun n d => m ((c.tc : Thread nD τ).loc main_arg1) (ix2 n d))
            (fun b n j d => m ((c.tc : Thread nD τ).loc main_arg2) (ix4 b n j d)) b n j (1 : Fin 2))
          (Cert.Spec.coord (fun n d => m ((c.tc : Thread nD τ).loc main_arg1) (ix2 n d))
            (fun b n j d => m ((c.tc : Thread nD τ).loc main_arg2) (ix4 b n j d)) b n j (0 : Fin 2)) := by
  rw [Cert.ReferenceIdeal.ReadP.val_main_v121_eq, feat_at, h_at, w_at]

end Cert.ReferenceIdeal.Hand

end
-- ==== Proof.RefBoxes.lean ====
/-
  The reference's second result: the box regression, the same function of the last three argument arrays that the kernel's program applies after its launched region.

  The reference program is a straight line of 212 operations; what its second result's buffer holds at the end is the
  fold of those operations over the launch contents, read at that buffer. Only the last 49 operations bear on it: they
  read arguments 1, 2 and 3 and each other, and no operation of the program writes an argument. The fold is read back
  in stages: the nine points of every location (28 operations), the four columns of extrema over the points
  (20 operations), and their concatenate; each stage is stated from ANY contents, so the stages compose by the fold's
  law for a list cut in two. The staged function, written over this program's shape names, unfolds to the composition
  written over the kernel program's.
-/
import proofs.«400533_j52055003628262_4_alg».proof.Proof.RefRun
import proofs.«400533_j52055003628262_4_alg».proof.Proof.KIBoxes
import Idealize.ShloMosaic.Lib.ValueIdx
import Idealize.ShloMosaic.Lib.StableHlo.Run

noncomputable section

namespace Cert.ReferenceIdeal.Hand

open Cert.ReferenceIdeal Cert.ReferenceIdeal.Gen
open Idealize.ShloMosaic Idealize.ShloMosaic.TcCoe Idealize.ShloMosaic.ValueIdx Idealize.SL.Sem

open Idealize.ShloMosaic.StableHlo

variable {F : FTy → Type} [FloatOps F]

/-! ## The box regression in stages -/

/-- Per location, the scale `8 · stride`: column 2 of the location array times the constant 8. -/
def scaleR (a1 : (⟨S10000x3, .f32⟩ : BufTy).Contents (Elt F)) : (⟨S10000, .f32⟩ : BufTy).Contents (Elt F) :=
  mulf (shapeCast _ (extractStridedSlice S10000x1 ![0, 2] a1 slices_S10000x3_S10000x1_0_2) shapeCasts_S10000x1_S10000)
    (broadcastInDim S10000 ![] bcast_S_S10000 (constant S_ .f32 0x41000000#32))

/-- A per-location number laid over every batch, point and component. -/
def spreadR (s : (⟨S10000, .f32⟩ : BufTy).Contents (Elt F)) : (⟨S2x10000x9x2, .f32⟩ : BufTy).Contents (Elt F) :=
  broadcastInDim S2x10000x9x2 ![0, 1, 2, 3] bcast_S1x10000x1x1_S2x10000x9x2_0_1_2_3
    (broadcastInDim S1x10000x1x1 ![1, 2, 3] bcast_S10000x1x1_S1x10000x1x1_1_2_3
      (broadcastInDim S10000x1x1 ![0] bcast_S10000_S10000x1x1_0 s))

/-- The location's centre (columns 0 and 1 of the location array) laid over every batch and point. -/
def centreR (a1 : (⟨S10000x3, .f32⟩ : BufTy).Contents (Elt F)) : (⟨S2x10000x9x2, .f32⟩ : BufTy).Contents (Elt F) :=
  broadcastInDim S2x10000x9x2 ![0, 1, 2, 3] bcast_S1x10000x1x2_S2x10000x9x2_0_1_2_3
    (broadcastInDim S1x10000x1x2 ![1, 2, 3] bcast_S10000x1x2_S1x10000x1x2_1_2_3
      (broadcastInDim S10000x1x2 ![0, 2] bcast_S10000x2_S10000x1x2_0_2
        (extractStridedSlice S10000x2 ![0, 0] a1 slices_S10000x3_S10000x2_0_0)))

/-- The nine points of every location: `centre + offset · scale · 0.1 + shift · scale · 0.5`. -/
def ptsR (a1 : (⟨S10000x3, .f32⟩ : BufTy).Contents (Elt F)) (a2 : (⟨S2x10000x9x2, .f32⟩ : BufTy).Contents (Elt F)) (a3 : (⟨S2x10000x18, .f32⟩ : BufTy).Contents (Elt F)) : (⟨S2x10000x9x2, .f32⟩ : BufTy).Contents (Elt F) :=
  addf
    (addf (centreR a1)
      (mulf (mulf (shapeCast _ (shapeCast _ a2 shapeCasts_S2x10000x9x2_S2x10000x18) shapeCasts_S2x10000x18_S2x10000x9x2) (spreadR (scaleR a1)))
        (broadcastInDim S2x10000x9x2 ![] bcast_S_S2x10000x9x2 (constant S_ .f32 0x3DCCCCCD#32))))
    (mulf (mulf (shapeCast _ a3 shapeCasts_S2x10000x18_S2x10000x9x2) (spreadR (scaleR a1)))
      (broadcastInDim S2x10000x9x2 ![] bcast_S_S2x10000x9x2 (constant S_ .f32 0x3F000000#32)))

/-- Component 0 of every point, as a [batch, location, point] array. -/
def xsR (p : (⟨S2x10000x9x2, .f32⟩ : BufTy).Contents (Elt F)) : (⟨S2x10000x9, .f32⟩ : BufTy).Contents (Elt F) :=
  shapeCast _ (extractStridedSlice S2x10000x9x1 ![0, 0, 0, 0] p slices_S2x10000x9x2_S2x10000x9x1_0_0_0_0) shapeCasts_S2x10000x9x1_S2x10000x9

/-- Component 1 of every point. -/
def ysR (p : (⟨S2x10000x9x2, .f32⟩ : BufTy).Contents (Elt F)) : (⟨S2x10000x9, .f32⟩ : BufTy).Contents (Elt F) :=
  shapeCast _ (extractStridedSlice S2x10000x9x1 ![0, 0, 0, 1] p slices_S2x10000x9x2_S2x10000x9x1_0_0_0_1) shapeCasts_S2x10000x9x1_S2x10000x9

/-- The minimum over the nine points, from `+∞`, as a one-column array. -/
def minR (x : (⟨S2x10000x9, .f32⟩ : BufTy).Contents (Elt F)) : (⟨S2x10000x1, .f32⟩ : BufTy).Contents (Elt F) :=
  broadcastInDim S2x10000x1 ![0, 1] bcast_S2x10000_S2x10000x1_0_1
    (Host.reduce FloatOps.minimumf x (constant S_ .f32 0x7F800000#32) reducesTo_S2x10000x9_S2x10000_d2 h_S_)

/-- The maximum over the nine points, from `-∞`, as a one-column array. -/
def maxR (x : (⟨S2x10000x9, .f32⟩ : BufTy).Contents (Elt F)) : (⟨S2x10000x1, .f32⟩ : BufTy).Contents (Elt F) :=
  broadcastInDim S2x10000x1 ![0, 1] bcast_S2x10000_S2x10000x1_0_1
    (Host.reduce FloatOps.maximumf x (constant S_ .f32 0xFF800000#32) reducesTo_S2x10000x9_S2x10000_d2 h_S_)

/-- Four one-column arrays side by side. -/
def stackR (p q r s : (⟨S2x10000x1, .f32⟩ : BufTy).Contents (Elt F)) : (⟨S2x10000x4, .f32⟩ : BufTy).Contents (Elt F) :=
  concatenate S2x10000x4 2 [⟨S2x10000x1, p⟩, ⟨S2x10000x1, q⟩, ⟨S2x10000x1, r⟩, ⟨S2x10000x1, s⟩]
    concatenates_S2x10000x1_S2x10000x1_S2x10000x1_S2x10000x1_S2x10000x4_d2

/-- The boxes of a point array: (x_min, y_min, x_max, y_max) over the nine points. -/
def boxOfPtsR (p : (⟨S2x10000x9x2, .f32⟩ : BufTy).Contents (Elt F)) : (⟨S2x10000x4, .f32⟩ : BufTy).Contents (Elt F) :=
  stackR (minR (xsR p)) (minR (ysR p)) (maxR (xsR p)) (maxR (ysR p))

/-- The box regression as a function of the location, offset and shift arrays. -/
def boxesR (a1 : (⟨S10000x3, .f32⟩ : BufTy).Contents (Elt F)) (a2 : (⟨S2x10000x9x2, .f32⟩ : BufTy).Contents (Elt F)) (a3 : (⟨S2x10000x18, .f32⟩ : BufTy).Contents (Elt F)) : (⟨S2x10000x4, .f32⟩ : BufTy).Contents (Elt F) :=
  boxOfPtsR (ptsR a1 a2 a3)

/-! ## The operations that compute it

The last 49 operations of the program, in the program's order and spelling, cut where the point array is complete and
again before the concatenate. -/

/-- From the offsets' two reshapes to the point array `main_v146`: 28 operations. -/
def tailA : List (HloOp τ sig (Elt F)) :=
  [ reshape main_arg2 main_v122 rfl shapeCasts_S2x10000x9x2_S2x10000x18,
    reshape main_v122 main_v123 rfl shapeCasts_S2x10000x18_S2x10000x9x2,
    unary main_arg1 main_v124 ((extractStridedSlice S10000x2 ![0, 0] · slices_S10000x3_S10000x2_0_0) : (⟨S10000x3, .f32⟩ : BufTy).Contents (Elt F) → (⟨S10000x2, .f32⟩ : BufTy).Contents (Elt F)),
    unary main_v124 main_v125 (broadcastInDim S10000x1x2 ![0, 2] bcast_S10000x2_S10000x1x2_0_2 : (⟨S10000x2, .f32⟩ : BufTy).Contents (Elt F) → (⟨S10000x1x2, .f32⟩ : BufTy).Contents (Elt F)),
    unary main_arg1 main_v126 ((extractStridedSlice S10000x1 ![0, 2] · slices_S10000x3_S10000x1_0_2) : (⟨S10000x3, .f32⟩ : BufTy).Contents (Elt F) → (⟨S10000x1, .f32⟩ : BufTy).Contents (Elt F)),
    reshape main_v126 main_v127 rfl shapeCasts_S10000x1_S10000,
    nullary main_cst_29 (constant S_ .f32 0x41000000#32),
    unary main_cst_29 main_v128 (broadcastInDim S10000 ![] bcast_S_S10000 : (⟨S_, .f32⟩ : BufTy).Contents (Elt F) → (⟨S10000, .f32⟩ : BufTy).Contents (Elt F)),
    binary main_v127 main_v128 main_v129 (mulf : (⟨S10000, .f32⟩ : BufTy).Contents (Elt F) → (⟨S10000, .f32⟩ : BufTy).Contents (Elt F) → (⟨S10000, .f32⟩ : BufTy).Contents (Elt F)),
    unary main_v129 main_v130 (broadcastInDim S10000x1x1 ![0] bcast_S10000_S10000x1x1_0 : (⟨S10000, .f32⟩ : BufTy).Contents (Elt F) → (⟨S10000x1x1, .f32⟩ : BufTy).Contents (Elt F)),
    unary main_v130 main_v131 (broadcastInDim S1x10000x1x1 ![1, 2, 3] bcast_S10000x1x1_S1x10000x1x1_1_2_3 : (⟨S10000x1x1, .f32⟩ : BufTy).Contents (Elt F) → (⟨S1x10000x1x1, .f32⟩ : BufTy).Contents (Elt F)),
    unary main_v131 main_v132 (broadcastInDim S2x10000x9x2 ![0, 1, 2, 3] bcast_S1x10000x1x1_S2x10000x9x2_0_1_2_3 : (⟨S1x10000x1x1, .f32⟩ : BufTy).Contents (Elt F) → (⟨S2x10000x9x2, .f32⟩ : BufTy).Contents (Elt F)),
    binary main_v123 main_v132 main_v133 (mulf : (⟨S2x10000x9x2, .f32⟩ : BufTy).Contents (Elt F) → (⟨S2x10000x9x2, .f32⟩ : BufTy).Contents (Elt F) → (⟨S2x10000x9x2, .f32⟩ : BufTy).Contents (Elt F)),
    nullary main_cst_30 (constant S_ .f32 0x3DCCCCCD#32),
    unary main_cst_30 main_v134 (broadcastInDim S2x10000x9x2 ![] bcast_S_S2x10000x9x2 : (⟨S_, .f32⟩ : BufTy).Contents (Elt F) → (⟨S2x10000x9x2, .f32⟩ : BufTy).Contents (Elt F)),
    binary main_v133 main_v134 main_v135 (mulf : (⟨S2x10000x9x2, .f32⟩ : BufTy).Contents (Elt F) → (⟨S2x10000x9x2, .f32⟩ : BufTy).Contents (Elt F) → (⟨S2x10000x9x2, .f32⟩ : BufTy).Contents (Elt F)),
    unary main_v125 main_v136 (broadcastInDim S1x10000x1x2 ![1, 2, 3] bcast_S10000x1x2_S1x10000x1x2_1_2_3 : (⟨S10000x1x2, .f32⟩ : BufTy).Contents (Elt F) → (⟨S1x10000x1x2, .f32⟩ : BufTy).Contents (Elt F)),
    unary main_v136 main_v137 (broadcastInDim S2x10000x9x2 ![0, 1, 2, 3] bcast_S1x10000x1x2_S2x10000x9x2_0_1_2_3 : (⟨S1x10000x1x2, .f32⟩ : BufTy).Contents (Elt F) → (⟨S2x10000x9x2, .f32⟩ : BufTy).Contents (Elt F)),
    binary main_v137 main_v135 main_v138 (addf : (⟨S2x10000x9x2, .f32⟩ : BufTy).Contents (Elt F) → (⟨S2x10000x9x2, .f32⟩ : BufTy).Contents (Elt F) → (⟨S2x10000x9x2, .f32⟩ : BufTy).Contents (Elt F)),
    reshape main_arg3 main_v139 rfl shapeCasts_S2x10000x18_S2x10000x9x2,
    unary main_v129 main_v140 (broadcastInDim S10000x1x1 ![0] bcast_S10000_S10000x1x1_0 : (⟨S10000, .f32⟩ : BufTy).Contents (Elt F) → (⟨S10000x1x1, .f32⟩ : BufTy).Contents (Elt F)),
    unary main_v140 main_v141 (broadcastInDim S1x10000x1x1 ![1, 2, 3] bcast_S10000x1x1_S1x10000x1x1_1_2_3 : (⟨S10000x1x1, .f32⟩ : BufTy).Contents (Elt F) → (⟨S1x10000x1x1, .f32⟩ : BufTy).Contents (Elt F)),
    unary main_v141 main_v142 (broadcastInDim S2x10000x9x2 ![0, 1, 2, 3] bcast_S1x10000x1x1_S2x10000x9x2_0_1_2_3 : (⟨S1x10000x1x1, .f32⟩ : BufTy).Contents (Elt F) → (⟨S2x10000x9x2, .f32⟩ : BufTy).Contents (Elt F)),
    binary main_v139 main_v142 main_v143 (mulf : (⟨S2x10000x9x2, .f32⟩ : BufTy).Contents (Elt F) → (⟨S2x10000x9x2, .f32⟩ : BufTy).Contents (Elt F) → (⟨S2x10000x9x2, .f32⟩ : BufTy).Contents (Elt F)),
    nullary main_cst_31 (constant S_ .f32 0x3F000000#32),
    unary main_cst_31 main_v144 (broadcastInDim S2x10000x9x2 ![] bcast_S_S2x10000x9x2 : (⟨S_, .f32⟩ : BufTy).Contents (Elt F) → (⟨S2x10000x9x2, .f32⟩ : BufTy).Contents (Elt F)),
    binary main_v143 main_v144 main_v145 (mulf : (⟨S2x10000x9x2, .f32⟩ : BufTy).Contents (Elt F) → (⟨S2x10000x9x2, .f32⟩ : BufTy).Contents (Elt F) → (⟨S2x10000x9x2, .f32⟩ : BufTy).Contents (Elt F)),
    binary main_v138 main_v145 main_v146 (addf : (⟨S2x10000x9x2, .f32⟩ : BufTy).Contents (Elt F) → (⟨S2x10000x9x2, .f32⟩ : BufTy).Contents (Elt F) → (⟨S2x10000x9x2, .f32⟩ : BufTy).Contents (Elt F)) ]

/-- From the point array to the four one-column arrays `main_v159` … `main_v162`: 20 operations. -/
def tailB : List (HloOp τ sig (Elt F)) :=
  [ unary main_v146 main_v147 ((extractStridedSlice S2x10000x9x1 ![0, 0, 0, 0] · slices_S2x10000x9x2_S2x10000x9x1_0_0_0_0) : (⟨S2x10000x9x2, .f32⟩ : BufTy).Contents (Elt F) → (⟨S2x10000x9x1, .f32⟩ : BufTy).Contents (Elt F)),
    reshape main_v147 main_v148 rfl shapeCasts_S2x10000x9x1_S2x10000x9,
    nullary main_cst_32 (constant S_ .f32 0x7F800000#32),
    binary main_v148 main_cst_32 main_v149 ((fun x v => Host.reduce FloatOps.minimumf x v reducesTo_S2x10000x9_S2x10000_d2 h_S_) : (⟨S2x10000x9, .f32⟩ : BufTy).Contents (Elt F) → (⟨S_, .f32⟩ : BufTy).Contents (Elt F) → (⟨S2x10000, .f32⟩ : BufTy).Contents (Elt F)),
    unary main_v146 main_v150 ((extractStridedSlice S2x10000x9x1 ![0, 0, 0, 1] · slices_S2x10000x9x2_S2x10000x9x1_0_0_0_1) : (⟨S2x10000x9x2, .f32⟩ : BufTy).Contents (Elt F) → (⟨S2x10000x9x1, .f32⟩ : BufTy).Contents (Elt F)),
    reshape main_v150 main_v151 rfl shapeCasts_S2x10000x9x1_S2x10000x9,
    nullary main_cst_33 (constant S_ .f32 0x7F800000#32),
    binary main_v151 main_cst_33 main_v152 ((fun x v => Host.reduce FloatOps.minimumf x v reducesTo_S2x10000x9_S2x10000_d2 h_S_) : (⟨S2x10000x9, .f32⟩ : BufTy).Contents (Elt F) → (⟨S_, .f32⟩ : BufTy).Contents (Elt F) → (⟨S2x10000, .f32⟩ : BufTy).Contents (Elt F)),
    unary main_v146 main_v153 ((extractStridedSlice S2x10000x9x1 ![0, 0, 0, 0] · slices_S2x10000x9x2_S2x10000x9x1_0_0_0_0) : (⟨S2x10000x9x2, .f32⟩ : BufTy).Contents (Elt F) → (⟨S2x10000x9x1, .f32⟩ : BufTy).Contents (Elt F)),
    reshape main_v153 main_v154 rfl shapeCasts_S2x10000x9x1_S2x10000x9,
    nullary main_cst_34 (constant S_ .f32 0xFF800000#32),
    binary main_v154 main_cst_34 main_v155 ((fun x v => Host.reduce FloatOps.maximumf x v reducesTo_S2x10000x9_S2x10000_d2 h_S_) : (⟨S2x10000x9, .f32⟩ : BufTy).Contents (Elt F) → (⟨S_, .f32⟩ : BufTy).Contents (Elt F) → (⟨S2x10000, .f32⟩ : BufTy).Contents (Elt F)),
    unary main_v146 main_v156 ((extractStridedSlice S2x10000x9x1 ![0, 0, 0, 1] · slices_S2x10000x9x2_S2x10000x9x1_0_0_0_1) : (⟨S2x10000x9x2, .f32⟩ : BufTy).Contents (Elt F) → (⟨S2x10000x9x1, .f32⟩ : BufTy).Contents (Elt F)),
    reshape main_v156 main_v157 rfl shapeCasts_S2x10000x9x1_S2x10000x9,
    nullary main_cst_35 (constant S_ .f32 0xFF800000#32),
    binary main_v157 main_cst_35 main_v158 ((fun x v => Host.reduce FloatOps.maximumf x v reducesTo_S2x10000x9_S2x10000_d2 h_S_) : (⟨S2x10000x9, .f32⟩ : BufTy).Contents (Elt F) → (⟨S_, .f32⟩ : BufTy).Contents (Elt F) → (⟨S2x10000, .f32⟩ : BufTy).Contents (Elt F)),
    unary main_v149 main_v159 (broadcastInDim S2x10000x1 ![0, 1] bcast_S2x10000_S2x10000x1_0_1 : (⟨S2x10000, .f32⟩ : BufTy).Contents (Elt F) → (⟨S2x10000x1, .f32⟩ : BufTy).Contents (Elt F)),
    unary main_v152 main_v160 (broadcastInDim S2x10000x1 ![0, 1] bcast_S2x10000_S2x10000x1_0_1 : (⟨S2x10000, .f32⟩ : BufTy).Contents (Elt F) → (⟨S2x10000x1, .f32⟩ : BufTy).Contents (Elt F)),
    unary main_v155 main_v161 (broadcastInDim S2x10000x1 ![0, 1] bcast_S2x10000_S2x10000x1_0_1 : (⟨S2x10000, .f32⟩ : BufTy).Contents (Elt F) → (⟨S2x10000x1, .f32⟩ : BufTy).Contents (Elt F)),
    unary main_v158 main_v162 (broadcastInDim S2x10000x1 ![0, 1] bcast_S2x10000_S2x10000x1_0_1 : (⟨S2x10000, .f32⟩ : BufTy).Contents (Elt F) → (⟨S2x10000x1, .f32⟩ : BufTy).Contents (Elt F)) ]

/-- The concatenate of the four columns into `main_v163`. -/
def catOp : HloOp τ sig (Elt F) :=
  nary ![main_v159, main_v160, main_v161, main_v162] main_v163 (fun u => concatenate S2x10000x4 2 [⟨S2x10000x1, u 0⟩, ⟨S2x10000x1, u 1⟩, ⟨S2x10000x1, u 2⟩, ⟨S2x10000x1, u 3⟩] concatenates_S2x10000x1_S2x10000x1_S2x10000x1_S2x10000x1_S2x10000x4_d2)

/-! ## The fold of the stretches, from any contents -/

/-- The fold over two stretches one after the other is the fold over the second, from the first's end. -/
theorem after_app : ∀ (l₁ l₂ : List (HloOp τ sig (Elt F))) (V : Valuation τ sig (Elt F)),
    after (l₁ ++ l₂) V = after l₂ (after l₁ V)
  | [], _, _ => rfl
  | op :: l, l₂, V => by rw [List.cons_append, after_cons, after_cons, after_app l l₂]

set_option maxRecDepth 8192 in
set_option maxHeartbeats 2000000 in
/-- After the first stretch the point array's buffer holds the points of what arguments 1, 2 and 3 held before it. -/
theorem after_tailA_pts (W : Valuation τ sig (Elt F)) :
    after (tailA (F := F)) W (Proc.devRef .tc main_v146)
      = ptsR (W (Proc.devRef .tc main_arg1)) (W (Proc.devRef .tc main_arg2)) (W (Proc.devRef .tc main_arg3)) := by
  unfold tailA
  after_results_simp
  rfl

set_option maxRecDepth 8192 in
set_option maxHeartbeats 2000000 in
/-- After the second stretch the first column holds the least first component of what the point array's buffer held. -/
theorem after_tailB_xmin (W : Valuation τ sig (Elt F)) :
    after (tailB (F := F)) W (Proc.devRef .tc main_v159) = minR (xsR (W (Proc.devRef .tc main_v146))) := by
  unfold tailB
  after_results_simp
  rfl

set_option maxRecDepth 8192 in
set_option maxHeartbeats 2000000 in
/-- The second column: the least second component. -/
theorem after_tailB_ymin (W : Valuation τ sig (Elt F)) :
    after (tailB (F := F)) W (Proc.devRef .tc main_v160) = minR (ysR (W (Proc.devRef .tc main_v146))) := by
  unfold tailB
  after_results_simp
  rfl

set_option maxRecDepth 8192 in
set_option maxHeartbeats 2000000 in
/-- The third column: the greatest first component. -/
theorem after_tailB_xmax (W : Valuation τ sig (Elt F)) :
    after (tailB (F := F)) W (Proc.devRef .tc main_v161) = maxR (xsR (W (Proc.devRef .tc main_v146))) := by
  unfold tailB
  after_results_simp
  rfl

set_option maxRecDepth 8192 in
set_option maxHeartbeats 2000000 in
/-- The fourth column: the greatest second component. -/
theorem after_tailB_ymax (W : Valuation τ sig (Elt F)) :
    after (tailB (F := F)) W (Proc.devRef .tc main_v162) = maxR (ysR (W (Proc.devRef .tc main_v146))) := by
  unfold tailB
  after_results_simp
  rfl

set_option maxRecDepth 8192 in
/-- The concatenate puts the four columns' buffers side by side. -/
theorem catOp_result (W : Valuation τ sig (Elt F)) :
    (catOp (F := F)).result W (Proc.devRef .tc main_v163)
      = stackR (W (Proc.devRef .tc main_v159)) (W (Proc.devRef .tc main_v160)) (W (Proc.devRef .tc main_v161)) (W (Proc.devRef .tc main_v162)) := by
  unfold catOp
  rw [nary4_result]
  rfl

/-- The three stretches in order, from any contents: the result's buffer ends at the box regression of what arguments
    1, 2 and 3 held at the start. Nothing in the stretches writes those three, and each stage reads only the one before. -/
theorem after_tail (W : Valuation τ sig (Elt F)) :
    after (tailA (F := F) ++ (tailB ++ [catOp])) W (Proc.devRef .tc main_v163)
      = boxesR (W (Proc.devRef .tc main_arg1)) (W (Proc.devRef .tc main_arg2)) (W (Proc.devRef .tc main_arg3)) := by
  rw [after_app, after_app, after_cons, after_nil, catOp_result, after_tailB_xmin, after_tailB_ymin, after_tailB_xmax,
    after_tailB_ymax, after_tailA_pts]
  rfl

/-! ## The whole program -/

set_option maxRecDepth 16384 in
set_option maxHeartbeats 4000000 in
/-- The program's operations from position 163 on are the three stretches. -/
theorem ops_drop : (Cert.ReferenceIdeal.ValueP.ops (F := F)).drop 163 = tailA ++ (tailB ++ [catOp]) := rfl

set_option maxRecDepth 16384 in
set_option maxHeartbeats 4000000 in
/-- No operation of the program writes argument 1: each writes its own result buffer. -/
theorem ops_keeps_arg1 : ∀ op ∈ (Cert.ReferenceIdeal.ValueP.ops (F := F)), Proc.devRef .tc main_arg1 ∉ op.writes :=
  List.forall_iff_forall_mem.mp (by
    simp only [Cert.ReferenceIdeal.ValueP.ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide))

set_option maxRecDepth 16384 in
set_option maxHeartbeats 4000000 in
/-- No operation of the program writes argument 2: each writes its own result buffer. -/
theorem ops_keeps_arg2 : ∀ op ∈ (Cert.ReferenceIdeal.ValueP.ops (F := F)), Proc.devRef .tc main_arg2 ∉ op.writes :=
  List.forall_iff_forall_mem.mp (by
    simp only [Cert.ReferenceIdeal.ValueP.ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide))

set_option maxRecDepth 16384 in
set_option maxHeartbeats 4000000 in
/-- No operation of the program writes argument 3: each writes its own result buffer. -/
theorem ops_keeps_arg3 : ∀ op ∈ (Cert.ReferenceIdeal.ValueP.ops (F := F)), Proc.devRef .tc main_arg3 ∉ op.writes :=
  List.forall_iff_forall_mem.mp (by
    simp only [Cert.ReferenceIdeal.ValueP.ops, List.Forall, nullary_writes, unary_writes, binary_writes, ternary_writes, quaternary_writes,
      reshape_writes, binaryIndexed_writes, nary_writes, unaryIndexed_writes, Finset.mem_singleton]
    repeat' apply And.intro
    all_goals exact devRef_ne_of_ne (by decide))

/-- The first 163 operations leave a buffer that no operation writes as it was. -/
theorem head_keeps {b : DevRef τ sig} (hb : ∀ op ∈ (Cert.ReferenceIdeal.ValueP.ops (F := F)), b ∉ op.writes)
    (V : Valuation τ sig (Elt F)) :
    after ((Cert.ReferenceIdeal.ValueP.ops (F := F)).take 163) V b = V b :=
  after_of_forall_not_mem _ V fun op hop => hb op (List.mem_of_mem_take hop)

/-- The fold of all the program's operations, read at the second result's buffer, from any contents. -/
theorem after_ops_boxesR (V : Valuation τ sig (Elt F)) :
    after (Cert.ReferenceIdeal.ValueP.ops (F := F)) V (Proc.devRef .tc main_v163)
      = boxesR (V (Proc.devRef .tc main_arg1)) (V (Proc.devRef .tc main_arg2)) (V (Proc.devRef .tc main_arg3)) := by
  conv_lhs => rw [← List.take_append_drop 163 (Cert.ReferenceIdeal.ValueP.ops (F := F)), ops_drop]
  rw [after_app, after_tail, head_keeps ops_keeps_arg1, head_keeps ops_keeps_arg2, head_keeps ops_keeps_arg3]

set_option maxRecDepth 16384 in
set_option maxHeartbeats 4000000 in
/-- The staged box regression, written over this program's shape names, is the one written over the kernel program's:
    the two programs' shapes are the same shapes, and the staged definitions unfold to the same composition. -/
theorem boxesR_eq_boxesK (a1 : (⟨S10000x3, .f32⟩ : BufTy).Contents (Elt F)) (a2 : (⟨S2x10000x9x2, .f32⟩ : BufTy).Contents (Elt F)) (a3 : (⟨S2x10000x18, .f32⟩ : BufTy).Contents (Elt F)) :
    boxesR a1 a2 a3 = Cert.KernelIdeal.Hand.boxesK (F := F) a1 a2 a3 := rfl

/-- The fold of the reference's operations over the launch contents, read at the second result's buffer, is the box
    regression of the launch contents of arguments 1, 2 and 3. -/
theorem ref_boxes (m : (ℓ : Loc nD τ sig) → Buf (Elt F) ℓ) (c : Dev nD) :
    after (Cert.ReferenceIdeal.ValueP.ops (F := F)) (launchContents m c) (Proc.devRef .tc main_v163)
      = Cert.KernelIdeal.Hand.boxesK (F := F) (m ((c.tc : Thread nD τ).loc main_arg1)) (m ((c.tc : Thread nD τ).loc main_arg2))
          (m ((c.tc : Thread nD τ).loc main_arg3)) :=
  (after_ops_boxesR (launchContents m c)).trans (boxesR_eq_boxesK _ _ _)

end Cert.ReferenceIdeal.Hand

end
-- ==== Proof.lean ====
/-
  The kernel samples a feature map bilinearly at 90000 points per batch by contracting, on the matrix unit, a
  128 × 10000 weight matrix (per point the four corner weights placed at their flattened cells and added) with the
  batch's re-laid feature table; the reference gathers the four corner values and adds the four weighted terms.
  Over the extended reals the two agree wherever the inputs are finite: the contraction splits into four sums by
  distributivity (all factors are reals), and each is a single nonzero term. Both programs' second result is the
  same chain of host operations on the last three arguments.

  The three frames: the two kernel programs by the frame of the pallas_call between its host lines; the reference
  by its run. The idealization rewrote nothing, so `preserves` is trivial.
-/
import proofs.«400533_j52055003628262_4_alg».proof.Defs
import proofs.«400533_j52055003628262_4_alg».proof.Proof.Gen.Kernel
import proofs.«400533_j52055003628262_4_alg».proof.Proof.Gen.KernelIdeal
import proofs.«400533_j52055003628262_4_alg».proof.Proof.Gen.ReferenceIdeal
import proofs.«400533_j52055003628262_4_alg».proof.Proof.Gen.Pre_finite_inputs
import proofs.«400533_j52055003628262_4_alg».proof.Proof.KFrame
import proofs.«400533_j52055003628262_4_alg».proof.Proof.KIFrame
import proofs.«400533_j52055003628262_4_alg».proof.Proof.KICover
import proofs.«400533_j52055003628262_4_alg».proof.Proof.KIPrefix
import proofs.«400533_j52055003628262_4_alg».proof.Proof.KITail
import proofs.«400533_j52055003628262_4_alg».proof.Proof.Finite
import proofs.«400533_j52055003628262_4_alg».proof.Proof.Bilinear
import proofs.«400533_j52055003628262_4_alg».proof.Proof.RefRun
import proofs.«400533_j52055003628262_4_alg».proof.Proof.RefFeat
import proofs.«400533_j52055003628262_4_alg».proof.Proof.RefBoxes
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.ValueP.run (F := Ideal) m ρ)

section Feat
open Cert.KernelIdeal Cert.KernelIdeal.Gen Cert.KernelIdeal.Hand

/-- The kernel program's first result at one entry, as the bilinear sum over the launch contents. -/
theorem kernel_feat (m : (ℓ : Loc nD τ sig) → Buf (Elt Ideal) ℓ) (hpre : Cert.Pre_KernelIdeal m) (c : Dev nD)
    (b : Fin 2) (n : Fin 10000) (j : Fin 9) (ch : Fin 256) :
    Pipeline.afterTail₀ cfgs (dats m) 0 (V0 m) [hostOps1] c main_v25 (ix4 b n j ch)
      = Cert.Spec.bil (fun y x => m ((c.tc : Thread nD τ).loc main_arg0) (ix4 b ch y x))
          (Cert.Spec.coord (fun n d => m ((c.tc : Thread nD τ).loc main_arg1) (ix2 n d))
            (fun b n j d => m ((c.tc : Thread nD τ).loc main_arg2) (ix4 b n j d)) b n j (1 : Fin 2))
          (Cert.Spec.coord (fun n d => m ((c.tc : Thread nD τ).loc main_arg1) (ix2 n d))
            (fun b n j d => m ((c.tc : Thread nD τ).loc main_arg2) (ix4 b n j d)) b n j (0 : Fin 2)) := by
  obtain ⟨h0, h1, h2⟩ := Cert.Hand.finite_of_pre m hpre c
  rw [tail_feat, final_gathered]
  unfold gathered
  have e0 := V_coords m c b (0 : Fin 2) n j
  have e1 := V_coords m c b (1 : Fin 2) n j
  have et : (fun k : Fin 10000 => V m c main_v22 (ix3 b k ch))
      = fun k : Fin 10000 => (fun (y x : Fin 100) => m ((c.tc : Thread nD τ).loc main_arg0) (ix4 b ch y x))
          ⟨k.val / 100, by omega⟩ ⟨k.val % 100, Nat.mod_lt _ (by decide)⟩ := funext fun k => V_table m c b k ch
  refine Eq.trans ?_ (Cert.Spec.gat_eq_bil _ _ _ (fun y x => h0 _)
    (Cert.Spec.coord_real _ _ (fun n d => h1 _) (fun b n j d => h2 _) b n j 1)
    (Cert.Spec.coord_real _ _ (fun n d => h1 _) (fun b n j d => h2 _) b n j 0))
  rw [← et]
  exact congrArg₂ (Cert.Spec.gat _) e0 e1

end Feat

theorem preserves : Cert.preserves_Kernel_KernelIdeal := trivial

theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v25,
    fun c => Pipeline.afterTail₀ Cert.KernelIdeal.cfgs (Cert.KernelIdeal.Hand.dats m) 0 (Cert.KernelIdeal.Hand.V0 m) [Cert.KernelIdeal.Gen.hostOps1] c Cert.KernelIdeal.main_v67, ?_, ?_⟩
  · refine (θ_run Cert.KernelIdeal.defs _ _).mono (fun _ h c => ?_) (Cert.KernelIdeal.Hand.run_main (F := Ideal) m ρ)
    exact ⟨(h c).2 _ (Pipeline.mem_restRefs_of Cert.KernelIdeal.main_v25 (by decide) (by decide)),
      (h c).2 _ (Pipeline.mem_restRefs_of Cert.KernelIdeal.main_v67 (by decide) (by decide)),
      ((h c).2 _ (Pipeline.mem_restRefs_of Cert.KernelIdeal.main_arg0 (by decide) (by decide))).trans (Cert.KernelIdeal.Hand.W_main_arg0 m _ c),
      ((h c).2 _ (Pipeline.mem_restRefs_of Cert.KernelIdeal.main_arg1 (by decide) (by decide))).trans (Cert.KernelIdeal.Hand.W_main_arg1 m _ c),
      ((h c).2 _ (Pipeline.mem_restRefs_of Cert.KernelIdeal.main_arg2 (by decide) (by decide))).trans (Cert.KernelIdeal.Hand.W_main_arg2 m _ c),
      ((h c).2 _ (Pipeline.mem_restRefs_of Cert.KernelIdeal.main_arg3 (by decide) (by decide))).trans (Cert.KernelIdeal.Hand.W_main_arg3 m _ c)⟩
  · refine (θ_run Cert.ReferenceIdeal.defs _ _).mono (fun _ h c => ⟨(h c).1.trans ?_, (h c).2.1.trans ?_, (h c).2.2⟩)
      (Cert.ReferenceIdeal.ValueP.run (F := Ideal) m' ρ')
    · funext i
      obtain ⟨b, n, j, ch, rfl⟩ : ∃ (b : Fin 2) (n : Fin 10000) (j : Fin 9) (ch : Fin 256),
          (i : Cert.ReferenceIdeal.S2x10000x9x256.Idx) = ix4 b n j ch := ⟨i 0, i 1, i 2, i 3, eq_ix4 i⟩
      refine (Cert.ReferenceIdeal.Hand.ref_feat m' c b n j ch).trans ?_
      rw [(hagree c).1, (hagree c).2.1, (hagree c).2.2.1]
      exact (kernel_feat m hpre c b n j ch).symm
    · rw [Cert.ReferenceIdeal.Hand.ref_boxes, (hagree c).2.1, (hagree c).2.2.1, (hagree c).2.2.2]
      exact (Cert.KernelIdeal.Hand.tail_boxes m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
